-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S10000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x500000 32) (main_arg2 : IVec S50000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x500000 : Shape := ⟨2, ![2, 500000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S10000x128 : Shape := ⟨2, ![10000, 128]⟩
abbrev S550000x128 : Shape := ⟨2, ![550000, 128]⟩
abbrev S1x128 : Shape := ⟨2, ![1, 128]⟩
abbrev S50000x64 : Shape := ⟨2, ![50000, 64]⟩
abbrev S10000x64 : Shape := ⟨2, ![10000, 64]⟩
abbrev S550000x64 : Shape := ⟨2, ![550000, 64]⟩
abbrev S1x64 : Shape := ⟨2, ![1, 64]⟩
abbrev S50000x1 : Shape := ⟨2, ![50000, 1]⟩
abbrev S10000x1 : Shape := ⟨2, ![10000, 1]⟩
abbrev S128x1 : Shape := ⟨2, ![128, 1]⟩

abbrev nBuf : Space → Nat
  | .hbm => 115
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S50000, .i32⟩
  | .hbm, ⟨10, _⟩ => ⟨S1x500000, .i32⟩
  | .hbm, ⟨11, _⟩ => ⟨S500000, .i32⟩
  | .hbm, ⟨12, _⟩ => ⟨S550000, .i32⟩
  | .hbm, ⟨13, _⟩ => ⟨S1x500000, .i32⟩
  | .hbm, ⟨14, _⟩ => ⟨S500000, .i32⟩
  | .hbm, ⟨15, _⟩ => ⟨S550000, .i32⟩
  | .hbm, ⟨16, _⟩ => ⟨S_, .f32⟩
  | .hbm, ⟨17, _⟩ => ⟨S550000, .f32⟩
  | .hbm, ⟨18, _⟩ => ⟨S_, .f32⟩
  | .hbm, ⟨19, _⟩ => ⟨S50000, .f32⟩
  | .hbm, ⟨20, _⟩ => ⟨S550000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S550000, .i32⟩
  | .hbm, ⟨32, _⟩ => ⟨S550000, .i1⟩
  | .hbm, ⟨33, _⟩ => ⟨S_, .i32⟩
  | .hbm, ⟨34, _⟩ => ⟨S550000, .i32⟩
  | .hbm, ⟨35, _⟩ => ⟨S550000, .i32⟩
  | .hbm, ⟨36, _⟩ => ⟨S550000, .i32⟩
  | .hbm, ⟨37, _⟩ => ⟨S550000x1, .i32⟩
  | .hbm, ⟨38, _⟩ => ⟨S550000, .f32⟩
  | .hbm, ⟨39, _⟩ => ⟨S_, .i32⟩
  | .hbm, ⟨40, _⟩ => ⟨S550000, .i32⟩
  | .hbm, ⟨41, _⟩ => ⟨S550000, .i1⟩
  | .hbm, ⟨42, _⟩ => ⟨S_, .i32⟩
  | .hbm, ⟨43, _⟩ => ⟨S550000, .i32⟩
  | .hbm, ⟨44, _⟩ => ⟨S550000, .i32⟩
  | .hbm, ⟨45, _⟩ => ⟨S550000, .i32⟩
  | .hbm, ⟨46, _⟩ => ⟨S550000x1, .i32⟩
  | .hbm, ⟨47, _⟩ => ⟨S550000, .f32⟩
  | .hbm, ⟨48, _⟩ => ⟨S550000, .f32⟩
  | .hbm, ⟨49, _⟩ => ⟨S50000x128, .f32⟩
  | .hbm, ⟨50, _⟩ => ⟨S_, .i32⟩
  | .hbm, ⟨51, _⟩ => ⟨S550000, .i32⟩
  | .hbm, ⟨52, _⟩ => ⟨S550000, .i1⟩
  | .hbm, ⟨53, _⟩ => ⟨S_, .i32⟩
  | .hbm, ⟨54, _⟩ => ⟨S550000, .i32⟩
  | .hbm, ⟨55, _⟩ => ⟨S550000, .i32⟩
  | .hbm, ⟨56, _⟩ => ⟨S550000, .i32⟩
  | .hbm, ⟨57, _⟩ => ⟨S550000x1, .i32⟩
  | .hbm, ⟨58, _⟩ => ⟨S550000x128, .f32⟩
  | .hbm, ⟨59, _⟩ => ⟨S550000x1, .f32⟩
  | .hbm, ⟨60, _⟩ => ⟨S550000x128, .f32⟩
  | .hbm, ⟨61, _⟩ => ⟨S550000x128, .f32⟩
  | .hbm, ⟨62, _⟩ => ⟨S_, .f32⟩
  | .hbm, ⟨63, _⟩ => ⟨S50000x128, .f32⟩
  | .hbm, ⟨64, _⟩ => ⟨S550000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S550000, .i32⟩
  | .hbm, ⟨71, _⟩ => ⟨S550000, .i1⟩
  | .hbm, ⟨72, _⟩ => ⟨S_, .i32⟩
  | .hbm, ⟨73, _⟩ => ⟨S550000, .i32⟩
  | .hbm, ⟨74, _⟩ => ⟨S550000, .i32⟩
  | .hbm, ⟨75, _⟩ => ⟨S550000, .i32⟩
  | .hbm, ⟨76, _⟩ => ⟨S550000x1, .i32⟩
  | .hbm, ⟨77, _⟩ => ⟨S550000x128, .f32⟩
  | .hbm, ⟨78, _⟩ => ⟨S550000x1, .f32⟩
  | .hbm, ⟨79, _⟩ => ⟨S550000x128, .f32⟩
  | .hbm, ⟨80, _⟩ => ⟨S550000x128, .f32⟩
  | .hbm, ⟨81, _⟩ => ⟨S_, .f32⟩
  | .hbm, ⟨82, _⟩ => ⟨S50000x128, .f32⟩
  | .hbm, ⟨83, _⟩ => ⟨S550000x1, .i32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x64, .f32⟩
  | .hbm, ⟨88, _⟩ => ⟨S_, .i32⟩
  | .hbm, ⟨89, _⟩ => ⟨S550000, .i32⟩
  | .hbm, ⟨90, _⟩ => ⟨S550000, .i1⟩
  | .hbm, ⟨91, _⟩ => ⟨S_, .i32⟩
  | .hbm, ⟨92, _⟩ => ⟨S550000, .i32⟩
  | .hbm, ⟨93, _⟩ => ⟨S550000, .i32⟩
  | .hbm, ⟨94, _⟩ => ⟨S550000, .i32⟩
  | .hbm, ⟨95, _⟩ => ⟨S550000x1, .i32⟩
  | .hbm, ⟨96, _⟩ => ⟨S550000x64, .f32⟩
  | .hbm, ⟨97, _⟩ => ⟨S550000x1, .f32⟩
  | .hbm, ⟨98, _⟩ => ⟨S550000x64, .f32⟩
  | .hbm, ⟨99, _⟩ => ⟨S550000x64, .f32⟩
  | .hbm, ⟨100, _⟩ => ⟨S_, .f32⟩
  | .hbm, ⟨101, _⟩ => ⟨S50000x64, .f32⟩
  | .hbm, ⟨102, _⟩ => ⟨S550000x1, .i32⟩
  | .hbm, ⟨103, _⟩ => ⟨S50000x64, .f32⟩
  | .hbm, ⟨104, _⟩ => ⟨S1x64, .f32⟩
  | .hbm, ⟨105, _⟩ => ⟨S50000x64, .f32⟩
  | .hbm, ⟨106, _⟩ => ⟨S50000x1, .i32⟩
  | .hbm, ⟨107, _⟩ => ⟨S128x64, .f32⟩
  | .hbm, ⟨108, _⟩ => ⟨S1x128, .f32⟩
  | .hbm, ⟨109, _⟩ => ⟨S128x1, .f32⟩
  | .hbm, ⟨110, _⟩ => ⟨S_, .f32⟩
  | .hbm, ⟨111, _⟩ => ⟨S128x1, .f32⟩
  | .hbm, ⟨112, _⟩ => ⟨S128x1, .f32⟩
  | .hbm, ⟨113, _⟩ => ⟨S128x64, .f32⟩
  | .hbm, ⟨114, _⟩ => ⟨S128x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x1, .i32⟩
  | .local _ .vmem, ⟨33, _⟩ => ⟨S10000x1, .i32⟩
  | .local _ .vmem, ⟨34, _⟩ => ⟨S128x64, .f32⟩
  | .local _ .vmem, ⟨35, _⟩ => ⟨S1x128, .f32⟩
  | .local _ .vmem, ⟨36, _⟩ => ⟨S128x64, .f32⟩
  | .local _ .vmem, ⟨37, _⟩ => ⟨S1x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79_0 : Ref sig .tc := ⟨.hbm, 107, rfl⟩
abbrev main_v79_1 : Ref sig .tc := ⟨.hbm, 108, rfl⟩
abbrev main_v80 : Ref sig .tc := ⟨.hbm, 109, rfl⟩
abbrev main_cst_15 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_stg3_0 : Ref sig .tc := ⟨.vmem, 35, rfl⟩
abbrev cc6_scratch0 : Ref sig .tc := ⟨.vmem, 36, rfl⟩
abbrev cc6_scratch1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc6_sem3_0 : DmaSem sig := 35

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![5], ![false]⟩

def k6_cond2 (i : grid6.Coords) : BitVec 1 :=
  let arg0 : BitVec 32 := BitVec.ofNat 32 (i 0).val
  let c4_i32 : BitVec 32 := 4#32
  let v28 : BitVec 1 := Scalar.cmpi .eq arg0 c4_i32
  let v29 : BitVec 32 := Scalar.extui v28
  let c0_i32_13 : BitVec 32 := 0#32
  let v30 : BitVec 1 := Scalar.cmpi .ne v29 c0_i32_13
  v30

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S550000x1_S550000x64_0_1 : S550000x1.BroadcastsInDim S550000x64 (![0, 1] : Fin 2 → Fin S550000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S50000_S50000x1 : S50000.ShapeCasts S50000x1
  shapeCasts_S128x64_S128x64 : S128x64.ShapeCasts S128x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x128_d1_w32 : S10000x128.Iotas .tc 32 [1]
  broadcasts_S10000x1_S10000x128 : S10000x1.Broadcasts S10000x128
  natLt_1_32 : 1 < 32
  reduces_S10000x128_S128 : S10000x128.Reduces [0] S128
  shapeCasts_S1x128_S128x1 : S1x128.ShapeCasts S128x1
  bcast_S_S128x1 : S_.BroadcastsInDim S128x1 (![] : Fin 0 → Fin S128x1.rank)
  bcast_S128x1_S128x64_0_1 : S128x1.BroadcastsInDim S128x64 (![0, 1] : Fin 2 → Fin S128x64.rank)
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S10000x128_S128x128_S10000x128_1_0_0_1_n_n_wf : DotDims.WF S10000x128 S128x128 S10000x128 [1] [0] [0] [1] [] []
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S10000x128_S128x64_S10000x64_1_0_0_1_n_n_wf : DotDims.WF S10000x128 S128x64 S10000x64 [1] [0] [0] [1] [] []
  gather_S50000x64_S550000x1_S550000x64_1_0_n_n_0_1_164_wf : GatherDims.WF S50000x64 S550000x1 S550000x64 [1] [0] [] [0] [] 1 ![1, 64]
  scatter_S50000x64_S550000x1_S550000x64_1_0_0_1_wf : ScatterDims.WF S50000x64 S550000x1 S550000x64 [1] [0] [0] 1
  dot_S10000x128_S10000x64_S128x64_0_0_1_1_n_n_wf : DotDims.WF S10000x128 S10000x64 S128x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S50000x64.size a
  hwx4_2 : ∀ i : grid4.Coords, EltTy.bits .f32 = 32 ∨ (Rect.block (s := S50000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S50000x64.size a
  hwx5_2 : ∀ i : grid5.Coords, EltTy.bits .f32 = 32 ∨ (Rect.block (s := S50000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .f32 = 32 ∨ (Rect.block (s := S50000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x1.size a ≤ S50000x1.size a
  hwx6_1 : ∀ i : grid6.Coords, EltTy.bits .i32 = 32 ∨ (Rect.block (s := S50000x1) S10000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x64.size a ≤ S128x64.size a
  hwx6_2 : ∀ i : grid6.Coords, EltTy.bits .f32 = 32 ∨ (Rect.block (s := S128x64) S128x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S550000x1_S550000x64_1_0_n_n_0_1_164 : GatherDims S50000x64 S550000x1 S550000x64 where
  offsetDims := [1]
  collapsedSliceDims := [0]
  operandBatchingDims := []
  startIndicesBatchingDims := []
  startIndexMap := [0]
  indexVectorDim := 1
  sliceSizes := ![1, 64]
  wf := gather_S50000x64_S550000x1_S550000x64_1_0_n_n_0_1_164_wf
def scatter_S50000x64_S550000x1_S550000x64_1_0_0_1 : ScatterDims S50000x64 S550000x1 S550000x64 where
  updateWindowDims := [1]
  insertedWindowDims := [0]
  scatterDimsToOperandDims := [0]
  indexVectorDim := 1
  wf := scatter_S50000x64_S550000x1_S550000x64_1_0_0_1_wf
def dot_S10000x128_S10000x64_S128x64_0_0_1_1_n_n : DotDims S10000x128 S10000x64 S128x64 where
  lhsContracting := [0]
  rhsContracting := [0]
  lhsNonContracting := [1]
  rhsNonContracting := [1]
  lhsBatch := []
  rhsBatch := []
  wf := dot_S10000x128_S10000x64_S128x64_0_0_1_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v78) S10000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v79_0) S128x64.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v79_1) S1x128.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun i => !(k6_cond2 i == 1#1) | 3 => fun i => !(k6_cond2 i == 1#1) | ⟨_ + 4, h⟩ => absurd h (Nat.not_lt.2 (Nat.le_add_left _ _))

class Facts : Prop extends Facts₀ where

variable [Facts]
-- ==== ReferenceIdeal.lean ====
abbrev S50000x128 : Shape := ⟨2, ![50000, 128]⟩
abbrev S2x500000 : Shape := ⟨2, ![2, 500000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S550000x128 : Shape := ⟨2, ![550000, 128]⟩
abbrev S1x128 : Shape := ⟨2, ![1, 128]⟩
abbrev S50000x64 : Shape := ⟨2, ![50000, 64]⟩
abbrev S550000x64 : Shape := ⟨2, ![550000, 64]⟩
abbrev S1x64 : Shape := ⟨2, ![1, 64]⟩
abbrev S50000x1 : Shape := ⟨2, ![50000, 1]⟩
abbrev S128x1 : Shape := ⟨2, ![128, 1]⟩

abbrev nBuf : Space → Nat
  | .hbm => 169
  | .vmem => 0
  | .smem => 0
  | _ => 0

abbrev hbmTy0_0 (i : Nat) : BufTy := match i % 128 with
  | 0 => ⟨S50000x128, .f32⟩
  | 1 => ⟨S2x500000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S50000, .i32⟩
  | 10 => ⟨S1x500000, .i32⟩
  | 11 => ⟨S500000, .i32⟩
  | 12 => ⟨S550000, .i32⟩
  | 13 => ⟨S1x500000, .i32⟩
  | 14 => ⟨S500000, .i32⟩
  | 15 => ⟨S550000, .i32⟩
  | 16 => ⟨S_, .f32⟩
  | 17 => ⟨S550000, .f32⟩
  | 18 => ⟨S_, .f32⟩
  | 19 => ⟨S50000, .f32⟩
  | 20 => ⟨S550000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S50000x128, .f32⟩
  | 31 => ⟨S_, .i32⟩
  | 32 => ⟨S550000, .i32⟩
  | 33 => ⟨S550000, .i1⟩
  | 34 => ⟨S_, .i32⟩
  | 35 => ⟨S550000, .i32⟩
  | 36 => ⟨S550000, .i32⟩
  | 37 => ⟨S550000, .i32⟩
  | 38 => ⟨S550000x1, .i32⟩
  | 39 => ⟨S550000, .f32⟩
  | 40 => ⟨S_, .i32⟩
  | 41 => ⟨S550000, .i32⟩
  | 42 => ⟨S550000, .i1⟩
  | 43 => ⟨S_, .i32⟩
  | 44 => ⟨S550000, .i32⟩
  | 45 => ⟨S550000, .i32⟩
  | 46 => ⟨S550000, .i32⟩
  | 47 => ⟨S550000x1, .i32⟩
  | 48 => ⟨S550000, .f32⟩
  | 49 => ⟨S550000, .f32⟩
  | 50 => ⟨S_, .i32⟩
  | 51 => ⟨S550000, .i32⟩
  | 52 => ⟨S550000, .i1⟩
  | 53 => ⟨S_, .i32⟩
  | 54 => ⟨S550000, .i32⟩
  | 55 => ⟨S550000, .i32⟩
  | 56 => ⟨S550000, .i32⟩
  | 57 => ⟨S550000x1, .i32⟩
  | 58 => ⟨S550000x128, .f32⟩
  | 59 => ⟨S550000x1, .f32⟩
  | 60 => ⟨S550000x128, .f32⟩
  | 61 => ⟨S550000x128, .f32⟩
  | 62 => ⟨S_, .f32⟩
  | 63 => ⟨S50000x128, .f32⟩
  | 64 => ⟨S550000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .i32⟩
  | 74 => ⟨S550000, .i32⟩
  | 75 => ⟨S550000, .i1⟩
  | 76 => ⟨S_, .i32⟩
  | 77 => ⟨S550000, .i32⟩
  | 78 => ⟨S550000, .i32⟩
  | 79 => ⟨S550000, .i32⟩
  | 80 => ⟨S550000x1, .i32⟩
  | 81 => ⟨S550000, .f32⟩
  | 82 => ⟨S_, .i32⟩
  | 83 => ⟨S550000, .i32⟩
  | 84 => ⟨S550000, .i1⟩
  | 85 => ⟨S_, .i32⟩
  | 86 => ⟨S550000, .i32⟩
  | 87 => ⟨S550000, .i32⟩
  | 88 => ⟨S550000, .i32⟩
  | 89 => ⟨S550000x1, .i32⟩
  | 90 => ⟨S550000, .f32⟩
  | 91 => ⟨S550000, .f32⟩
  | 92 => ⟨S_, .i32⟩
  | 93 => ⟨S550000, .i32⟩
  | 94 => ⟨S550000, .i1⟩
  | 95 => ⟨S_, .i32⟩
  | 96 => ⟨S550000, .i32⟩
  | 97 => ⟨S550000, .i32⟩
  | 98 => ⟨S550000, .i32⟩
  | 99 => ⟨S550000x1, .i32⟩
  | 100 => ⟨S550000x128, .f32⟩
  | 101 => ⟨S550000x1, .f32⟩
  | 102 => ⟨S550000x128, .f32⟩
  | 103 => ⟨S550000x128, .f32⟩
  | 104 => ⟨S_, .f32⟩
  | 105 => ⟨S50000x128, .f32⟩
  | 106 => ⟨S550000x1, .i32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S50000x64, .f32⟩
  | 115 => ⟨S_, .i32⟩
  | 116 => ⟨S550000, .i32⟩
  | 117 => ⟨S550000, .i1⟩
  | 118 => ⟨S_, .i32⟩
  | 119 => ⟨S550000, .i32⟩
  | 120 => ⟨S550000, .i32⟩
  | 121 => ⟨S550000, .i32⟩
  | 122 => ⟨S550000x1, .i32⟩
  | 123 => ⟨S550000, .f32⟩
  | 124 => ⟨S_, .i32⟩
  | 125 => ⟨S550000, .i32⟩
  | 126 => ⟨S550000, .i1⟩
  | 127 => ⟨S_, .i32⟩
  | _ => ⟨S50000x128, .f32⟩

abbrev hbmTy0_1 (i : Nat) : BufTy := match i % 128 with
  | 0 => ⟨S550000, .i32⟩
  | 1 => ⟨S550000, .i32⟩
  | 2 => ⟨S550000, .i32⟩
  | 3 => ⟨S550000x1, .i32⟩
  | 4 => ⟨S550000, .f32⟩
  | 5 => ⟨S550000, .f32⟩
  | 6 => ⟨S_, .i32⟩
  | 7 => ⟨S550000, .i32⟩
  | 8 => ⟨S550000, .i1⟩
  | 9 => ⟨S_, .i32⟩
  | 10 => ⟨S550000, .i32⟩
  | 11 => ⟨S550000, .i32⟩
  | 12 => ⟨S550000, .i32⟩
  | 13 => ⟨S550000x1, .i32⟩
  | 14 => ⟨S550000x64, .f32⟩
  | 15 => ⟨S550000x1, .f32⟩
  | 16 => ⟨S550000x64, .f32⟩
  | 17 => ⟨S550000x64, .f32⟩
  | 18 => ⟨S_, .f32⟩
  | 19 => ⟨S50000x64, .f32⟩
  | 20 => ⟨S550000x1, .i32⟩
  | 21 => ⟨S50000x64, .f32⟩
  | 22 => ⟨S1x64, .f32⟩
  | 23 => ⟨S50000x64, .f32⟩
  | 24 => ⟨S50000x64, .f32⟩
  | 25 => ⟨S_, .f32⟩
  | 26 => ⟨S128x64, .f32⟩
  | 27 => ⟨S50000x1, .i32⟩
  | 28 => ⟨S128x64, .f32⟩
  | 29 => ⟨S_, .f32⟩
  | 30 => ⟨S50000, .f32⟩
  | 31 => ⟨S_, .f32⟩
  | 32 => ⟨S128, .f32⟩
  | 33 => ⟨S50000x1, .i32⟩
  | 34 => ⟨S128, .f32⟩
  | 35 => ⟨S_, .f32⟩
  | 36 => ⟨S128, .f32⟩
  | 37 => ⟨S128, .f32⟩
  | 38 => ⟨S128x1, .f32⟩
  | 39 => ⟨S128x64, .f32⟩
  | 40 => ⟨S128x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_call2_cst : Ref sig .tc := ⟨.hbm, 111, rfl⟩
abbrev main_call2_v0 : Ref sig .tc := ⟨.hbm, 112, rfl⟩
abbrev main_v80 : Ref sig .tc := ⟨.hbm, 113, rfl⟩
abbrev main_v81 : Ref sig .tc := ⟨.hbm, 114, rfl⟩
abbrev main_c_16 : Ref sig .tc := ⟨.hbm, 115, rfl⟩
abbrev main_v82 : Ref sig .tc := ⟨.hbm, 116, rfl⟩
abbrev main_v83 : Ref sig .tc := ⟨.hbm, 117, rfl⟩
abbrev main_c_17 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c_18 : Ref sig .tc := ⟨.hbm, 124, rfl⟩
abbrev main_v89 : Ref sig .tc := ⟨.hbm, 125, rfl⟩
abbrev main_v90 : Ref sig .tc := ⟨.hbm, 126, rfl⟩
abbrev main_c_19 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_c_20 : Ref sig .tc := ⟨.hbm, 134, rfl⟩
abbrev main_v97 : Ref sig .tc := ⟨.hbm, 135, rfl⟩
abbrev main_v98 : Ref sig .tc := ⟨.hbm, 136, rfl⟩
abbrev main_c_21 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_22 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_23 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_24 : Ref sig .tc := ⟨.hbm, 157, rfl⟩
abbrev main_v116 : Ref sig .tc := ⟨.hbm, 158, rfl⟩
abbrev main_cst_25 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_26 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  concatenates_S500000_S50000_S550000_d0 : Shape.Concatenates [S500000, S50000] S550000 0
  slices_S2x500000_S1x500000_1_0 : S2x500000.Slices ![1, 0] S1x500000
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S550000x1_S550000x64_0_1 : S550000x1.BroadcastsInDim S550000x64 (![0, 1] : Fin 2 → Fin S550000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S128x64 : S_.BroadcastsInDim S128x64 (![] : Fin 0 → Fin S128x64.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  scatter_S50000_S550000x1_S550000_n_0_0_1_wf : ScatterDims.WF S50000 S550000x1 S550000 [] [0] [0] 1
  dot_S50000x128_S128x128_S50000x128_1_0_0_1_n_n_wf : DotDims.WF S50000x128 S128x128 S50000x128 [1] [0] [0] [1] [] []
  gather_S50000_S550000x1_S550000_n_0_n_n_0_1_1_wf : GatherDims.WF S50000 S550000x1 S550000 [] [0] [] [0] [] 1 ![1]
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S50000x128_S128x64_S50000x64_1_0_0_1_n_n_wf : DotDims.WF S50000x128 S128x64 S50000x64 [1] [0] [0] [1] [] []
  gather_S50000x64_S550000x1_S550000x64_1_0_n_n_0_1_164_wf : GatherDims.WF S50000x64 S550000x1 S550000x64 [1] [0] [] [0] [] 1 ![1, 64]
  scatter_S50000x64_S550000x1_S550000x64_1_0_0_1_wf : ScatterDims.WF S50000x64 S550000x1 S550000x64 [1] [0] [0] 1
  scatter_S128x64_S50000x1_S50000x64_1_0_0_1_wf : ScatterDims.WF S128x64 S50000x1 S50000x64 [1] [0] [0] 1
  scatter_S128_S50000x1_S50000_n_0_0_1_wf : ScatterDims.WF S128 S50000x1 S50000 [] [0] [0] 1

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S550000x1_S550000x64_1_0_n_n_0_1_164 : GatherDims S50000x64 S550000x1 S550000x64 where
  offsetDims := [1]
  collapsedSliceDims := [0]
  operandBatchingDims := []
  startIndicesBatchingDims := []
  startIndexMap := [0]
  indexVectorDim := 1
  sliceSizes := ![1, 64]
  wf := gather_S50000x64_S550000x1_S550000x64_1_0_n_n_0_1_164_wf
def scatter_S50000x64_S550000x1_S550000x64_1_0_0_1 : ScatterDims S50000x64 S550000x1 S550000x64 where
  updateWindowDims := [1]
  insertedWindowDims := [0]
  scatterDimsToOperandDims := [0]
  indexVectorDim := 1
  wf := scatter_S50000x64_S550000x1_S550000x64_1_0_0_1_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf

class Facts : Prop extends Facts₀ where

variable [Facts]
-- ==== Proof.K.Reg0.lean ====
/- Region 0 of the program (the first dense layer's product: a block of rows of x by the whole of W1), at the buffer contents `V` the region is entered from:
  the block each window hands the body at a grid point, what the body leaves in the output window's buffer (its one
  store, a function of the two input blocks), the body's triple, and the pipeline's proof data with its body
  obligation at every point. -/
import proofs.«402628_j81466939670848_1_alg».proof.Proof.Gen.Kernel.Launch
import proofs.«402628_j81466939670848_1_alg».proof.Proof.Gen.Kernel.Skeleton
import proofs.«402628_j81466939670848_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (unfetched, the block
    index has not moved), for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads and stores through: each the whole buffer. -/
abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0
abbrev r0_2 : Rect S10000x128 := Rect.unit (s := S10000x128) ![0, 0] S10000x128.size inb_S10000x128_S10000x128_0_0

/-- What the body leaves in the output window's buffer, from the two input blocks: its one store. -/
def out0_2 (x0 : Vec F S10000x128 .f32) (x1 : Vec F S128x128 .f32) : Vec F S10000x128 .f32 :=
  View.canon [⟨r0_2, k0_pay1 (View.ld x0 r0_0) (View.ld x1 r0_1)⟩]

/-- The store covers the buffer. -/
theorem cover0_2 (p0 : Vec F S10000x128 .f32) (y : S10000x128.Idx) :
    ∃ pc ∈ ([⟨r0_2, p0⟩] : List (View.Piece (Elt F) S10000x128 .f32)), y ∈ pc.1.set :=
  View.cover_of_tiled [⟨r0_2, p0⟩] S10000x128.size (by rfl) y

set_option maxHeartbeats 1000000 in
/-- The body on whole staging memrefs, the inputs' at contents `x0`, `x1` and the output's at anything, runs to
    the continuation holding the inputs' as they were and the output's at `out0_2 x0 x1`. -/
theorem sound_kernel0 (c : Dev nD) (i : grid0.Coords) (E : Set ℕ) (arg1 : Memref sig .tc .vmem S10000x128 .f32) (harg1 : arg1.IsWhole)
    (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t`
    each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c _ Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/- Region 1 of the program (the first layer's bias row added to a block of aggregated rows, then the maximum with zero), at the buffer contents `V` the region is entered from:
  the block each window hands the body at a grid point, what the body leaves in the output window's buffer (its one
  store, a function of the two input blocks), the body's triple, and the pipeline's proof data with its body
  obligation at every point. -/
import proofs.«402628_j81466939670848_1_alg».proof.Proof.Gen.Kernel.Launch
import proofs.«402628_j81466939670848_1_alg».proof.Proof.Gen.Kernel.Skeleton
import proofs.«402628_j81466939670848_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (unfetched, the block
    index has not moved), for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads and stores through: each the whole buffer. -/
abbrev r1_0 : Rect S10000x128 := Rect.unit (s := S10000x128) ![0, 0] S10000x128.size inb_S10000x128_S10000x128_0_0
abbrev r1_1 : Rect S1x128 := Rect.unit (s := S1x128) ![0, 0] S1x128.size inb_S1x128_S1x128_0_0
abbrev r1_2 : Rect S10000x128 := Rect.unit (s := S10000x128) ![0, 0] S10000x128.size inb_S10000x128_S10000x128_0_0

/-- What the body leaves in the output window's buffer, from the two input blocks: its one store. -/
def out1_2 (x0 : Vec F S10000x128 .f32) (x1 : Vec F S1x128 .f32) : Vec F S10000x128 .f32 :=
  View.canon [⟨r1_2, k1_pay1 (View.ld x0 r1_0) (View.ld x1 r1_1)⟩]

/-- The store covers the buffer. -/
theorem cover1_2 (p0 : Vec F S10000x128 .f32) (y : S10000x128.Idx) :
    ∃ pc ∈ ([⟨r1_2, p0⟩] : List (View.Piece (Elt F) S10000x128 .f32)), y ∈ pc.1.set :=
  View.cover_of_tiled [⟨r1_2, p0⟩] S10000x128.size (by rfl) y

set_option maxHeartbeats 1000000 in
/-- The body on whole staging memrefs, the inputs' at contents `x0`, `x1` and the output's at anything, runs to
    the continuation holding the inputs' as they were and the output's at `out1_2 x0 x1`. -/
theorem sound_kernel1 (c : Dev nD) (i : grid1.Coords) (E : Set ℕ) (arg1 : Memref sig .tc .vmem S10000x128 .f32) (harg1 : arg1.IsWhole)
    (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 0 on core `c`: the arrays as the region finds them; after the body at point `t`
    each input's buffer at its block and the output's at `out1_2` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c _ Set.univ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/- Region 2 of the program (the second dense layer's product: a block of rows of the first layer's output by the whole of W2), at the buffer contents `V` the region is entered from:
  the block each window hands the body at a grid point, what the body leaves in the output window's buffer (its one
  store, a function of the two input blocks), the body's triple, and the pipeline's proof data with its body
  obligation at every point. -/
import proofs.«402628_j81466939670848_1_alg».proof.Proof.Gen.Kernel.Launch
import proofs.«402628_j81466939670848_1_alg».proof.Proof.Gen.Kernel.Skeleton
import proofs.«402628_j81466939670848_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not (unfetched, the block
    index has not moved), for any proof data over `V`'s arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body loads and stores through: each the whole buffer. -/
abbrev r2_0 : Rect S10000x128 := Rect.unit (s := S10000x128) ![0, 0] S10000x128.size inb_S10000x128_S10000x128_0_0
abbrev r2_1 : Rect S128x128 := Rect.unit (s := S128x128) ![0, 0] S128x128.size inb_S128x128_S128x128_0_0
abbrev r2_2 : Rect S10000x128 := Rect.unit (s := S10000x128) ![0, 0] S10000x128.size inb_S10000x128_S10000x128_0_0

/-- What the body leaves in the output window's buffer, from the two input blocks: its one store. -/
def out2_2 (x0 : Vec F S10000x128 .f32) (x1 : Vec F S128x128 .f32) : Vec F S10000x128 .f32 :=
  View.canon [⟨r2_2, k2_pay1 (View.ld x0 r2_0) (View.ld x1 r2_1)⟩]

/-- The store covers the buffer. -/
theorem cover2_2 (p0 : Vec F S10000x128 .f32) (y : S10000x128.Idx) :
    ∃ pc ∈ ([⟨r2_2, p0⟩] : List (View.Piece (Elt F) S10000x128 .f32)), y ∈ pc.1.set :=
  View.cover_of_tiled [⟨r2_2, p0⟩] S10000x128.size (by rfl) y

set_option maxHeartbeats 1000000 in
/-- The body on whole staging memrefs, the inputs' at contents `x0`, `x1` and the output's at anything, runs to
    the continuation holding the inputs' as they were and the output's at `out2_2 x0 x1`. -/
theorem sound_kernel2 (c : Dev nD) (i : grid2.Coords) (E : Set ℕ) (arg1 : Memref sig .tc .vmem S10000x128 .f32) (harg1 : arg1.IsWhole)
    (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 0 on core `c`: the arrays as the region finds them; after the body at point `t`
    each input's buffer at its block and the output's at `out2_2` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c _ Set.univ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/- Region 3 of the program (the second layer's bias row added to a block of aggregated rows, then the maximum with zero), at the buffer contents `V` the region is entered from:
  the block each window hands the body at a grid point, what the body leaves in the output window's buffer (its one
  store, a function of the two input blocks), the body's triple, and the pipeline's proof data with its body
  obligation at every point. -/
import proofs.«402628_j81466939670848_1_alg».proof.Proof.Gen.Kernel.Launch
import proofs.«402628_j81466939670848_1_alg».proof.Proof.Gen.Kernel.Skeleton
import proofs.«402628_j81466939670848_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not (unfetched, the block
    index has not moved), for any proof data over `V`'s arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body loads and stores through: each the whole buffer. -/
abbrev r3_0 : Rect S10000x128 := Rect.unit (s := S10000x128) ![0, 0] S10000x128.size inb_S10000x128_S10000x128_0_0
abbrev r3_1 : Rect S1x128 := Rect.unit (s := S1x128) ![0, 0] S1x128.size inb_S1x128_S1x128_0_0
abbrev r3_2 : Rect S10000x128 := Rect.unit (s := S10000x128) ![0, 0] S10000x128.size inb_S10000x128_S10000x128_0_0

/-- What the body leaves in the output window's buffer, from the two input blocks: its one store. -/
def out3_2 (x0 : Vec F S10000x128 .f32) (x1 : Vec F S1x128 .f32) : Vec F S10000x128 .f32 :=
  View.canon [⟨r3_2, k3_pay1 (View.ld x0 r3_0) (View.ld x1 r3_1)⟩]

/-- The store covers the buffer. -/
theorem cover3_2 (p0 : Vec F S10000x128 .f32) (y : S10000x128.Idx) :
    ∃ pc ∈ ([⟨r3_2, p0⟩] : List (View.Piece (Elt F) S10000x128 .f32)), y ∈ pc.1.set :=
  View.cover_of_tiled [⟨r3_2, p0⟩] S10000x128.size (by rfl) y

set_option maxHeartbeats 1000000 in
/-- The body on whole staging memrefs, the inputs' at contents `x0`, `x1` and the output's at anything, runs to
    the continuation holding the inputs' as they were and the output's at `out3_2 x0 x1`. -/
theorem sound_kernel3 (c : Dev nD) (i : grid3.Coords) (E : Set ℕ) (arg1 : Memref sig .tc .vmem S10000x128 .f32) (harg1 : arg1.IsWhole)
    (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 0 on core `c`: the arrays as the region finds them; after the body at point `t`
    each input's buffer at its block and the output's at `out3_2` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c _ Set.univ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/- Region 4 of the program (the third dense layer's product: a block of rows of the second layer's output by the whole of W3), at the buffer contents `V` the region is entered from:
  the block each window hands the body at a grid point, what the body leaves in the output window's buffer (its one
  store, a function of the two input blocks), the body's triple, and the pipeline's proof data with its body
  obligation at every point. -/
import proofs.«402628_j81466939670848_1_alg».proof.Proof.Gen.Kernel.Launch
import proofs.«402628_j81466939670848_1_alg».proof.Proof.Gen.Kernel.Skeleton
import proofs.«402628_j81466939670848_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current buffer holds its block at every point, fetched there or not (unfetched, the block
    index has not moved), for any proof data over `V`'s arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The rectangles the body loads and stores through: each the whole buffer. -/
abbrev r4_0 : Rect S10000x128 := Rect.unit (s := S10000x128) ![0, 0] S10000x128.size inb_S10000x128_S10000x128_0_0
abbrev r4_1 : Rect S128x64 := Rect.unit (s := S128x64) ![0, 0] S128x64.size inb_S128x64_S128x64_0_0
abbrev r4_2 : Rect S10000x64 := Rect.unit (s := S10000x64) ![0, 0] S10000x64.size inb_S10000x64_S10000x64_0_0

/-- What the body leaves in the output window's buffer, from the two input blocks: its one store. -/
def out4_2 (x0 : Vec F S10000x128 .f32) (x1 : Vec F S128x64 .f32) : Vec F S10000x64 .f32 :=
  View.canon [⟨r4_2, k4_pay1 (View.ld x0 r4_0) (View.ld x1 r4_1)⟩]

/-- The store covers the buffer. -/
theorem cover4_2 (p0 : Vec F S10000x64 .f32) (y : S10000x64.Idx) :
    ∃ pc ∈ ([⟨r4_2, p0⟩] : List (View.Piece (Elt F) S10000x64 .f32)), y ∈ pc.1.set :=
  View.cover_of_tiled [⟨r4_2, p0⟩] S10000x64.size (by rfl) y

set_option maxHeartbeats 1000000 in
/-- The body on whole staging memrefs, the inputs' at contents `x0`, `x1` and the output's at anything, runs to
    the continuation holding the inputs' as they were and the output's at `out4_2 x0 x1`. -/
theorem sound_kernel4 (c : Dev nD) (i : grid4.Coords) (E : Set ℕ) (arg1 : Memref sig .tc .vmem S10000x128 .f32) (harg1 : arg1.IsWhole)
    (arg2 : Memref sig .tc .vmem S128x64 .f32) (harg2 : arg2.IsWhole) (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of pipeline 0 on core `c`: the arrays as the region finds them; after the body at point `t`
    each input's buffer at its block and the output's at `out4_2` of the input blocks; the invariant the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c _ Set.univ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
/- Region 5 of the program (the third layer's bias row added to a block of aggregated rows), at the buffer contents `V` the region is entered from:
  the block each window hands the body at a grid point, what the body leaves in the output window's buffer (its one
  store, a function of the two input blocks), the body's triple, and the pipeline's proof data with its body
  obligation at every point. -/
import proofs.«402628_j81466939670848_1_alg».proof.Proof.Gen.Kernel.Launch
import proofs.«402628_j81466939670848_1_alg».proof.Proof.Gen.Kernel.Skeleton
import proofs.«402628_j81466939670848_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current buffer holds its block at every point, fetched there or not (unfetched, the block
    index has not moved), for any proof data over `V`'s arrays whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The rectangles the body loads and stores through: each the whole buffer. -/
abbrev r5_0 : Rect S10000x64 := Rect.unit (s := S10000x64) ![0, 0] S10000x64.size inb_S10000x64_S10000x64_0_0
abbrev r5_1 : Rect S1x64 := Rect.unit (s := S1x64) ![0, 0] S1x64.size inb_S1x64_S1x64_0_0
abbrev r5_2 : Rect S10000x64 := Rect.unit (s := S10000x64) ![0, 0] S10000x64.size inb_S10000x64_S10000x64_0_0

/-- What the body leaves in the output window's buffer, from the two input blocks: its one store. -/
def out5_2 (x0 : Vec F S10000x64 .f32) (x1 : Vec F S1x64 .f32) : Vec F S10000x64 .f32 :=
  View.canon [⟨r5_2, k5_pay1 (View.ld x0 r5_0) (View.ld x1 r5_1)⟩]

/-- The store covers the buffer. -/
theorem cover5_2 (p0 : Vec F S10000x64 .f32) (y : S10000x64.Idx) :
    ∃ pc ∈ ([⟨r5_2, p0⟩] : List (View.Piece (Elt F) S10000x64 .f32)), y ∈ pc.1.set :=
  View.cover_of_tiled [⟨r5_2, p0⟩] S10000x64.size (by rfl) y

set_option maxHeartbeats 1000000 in
/-- The body on whole staging memrefs, the inputs' at contents `x0`, `x1` and the output's at anything, runs to
    the continuation holding the inputs' as they were and the output's at `out5_2 x0 x1`. -/
theorem sound_kernel5 (c : Dev nD) (i : grid5.Coords) (E : Set ℕ) (arg1 : Memref sig .tc .vmem S10000x64 .f32) (harg1 : arg1.IsWhole)
    (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5_kernel i arg1 harg1 arg2 harg2 arg3 harg3) K := by
  simp only [cc5_kernel_eq_skeleton]; unfold cc5_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of pipeline 0 on core `c`: the arrays as the region finds them; after the body at point `t`
    each input's buffer at its block and the output's at `out5_2` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c _ Set.univ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
/- Region 6 of the kernel program (the pooling kernel), at the buffer contents `V` the region is entered
  from. The body keeps two running accumulators in scratch buffers: a [128, 64] array of per-graph sums and a
  [1, 128] row of per-graph counts. At the first grid point it resets both; at every point it adds the point's
  contribution (a function of the point's block of node rows and of graph ids); at the last point it copies both
  accumulators to the output windows. So there are three control cases (first, middle, last), the accumulators after
  `n` points are a fold over the points' blocks (`sums6`, `cnts6`), and the output windows are idle until the last
  point, where they receive the fold over all points.
-/
import proofs.«402628_j81466939670848_1_alg».proof.Proof.Gen.Kernel.Launch
import proofs.«402628_j81466939670848_1_alg».proof.Proof.Gen.Kernel.Skeleton
import proofs.«402628_j81466939670848_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's two conditions, decided over the grid -/

/-- "This is the first grid point", as the body computes it. -/
abbrev first6 (i : grid6.Coords) : Prop :=
  (Scalar.cmpi .ne (Scalar.extui (Scalar.cmpi .eq (BitVec.ofNat 32 (i 0).val) 0#32)) 0#32) = 1#1
theorem first6_iff : ∀ t : Fin cfg6.N, first6 (grid6.coords t) ↔ t.val = 0 :=
  (by decide +kernel : ∀ t : Fin grid6.N, first6 (grid6.coords t) ↔ t.val = 0)
/-- "This is the last grid point" (the printed condition `k6_cond2`). -/
theorem last6_iff : ∀ t : Fin cfg6.N, k6_cond2 (grid6.coords t) = 1#1 ↔ t.val = 4 :=
  (by decide +kernel : ∀ t : Fin grid6.N, k6_cond2 (grid6.coords t) = 1#1 ↔ t.val = 4)
/-- The output windows are idle exactly before the last point, and written back exactly at it. -/
theorem idle6_2 : ∀ t : Fin cfg6.N, cfg6.idle 2 (cfg6.grid.coords t) = !decide (t.val = 4) :=
  (by decide +kernel : ∀ t : Fin grid6.N, idle6 2 (grid6.coords t) = !decide (t.val = 4))
theorem idle6_3 : ∀ t : Fin cfg6.N, cfg6.idle 3 (cfg6.grid.coords t) = !decide (t.val = 4) :=
  (by decide +kernel : ∀ t : Fin grid6.N, idle6 3 (grid6.coords t) = !decide (t.val = 4))
theorem flushes6_2 : ∀ t : Fin cfg6.N, (cfg6.win 2).flush t = decide (t.val = 4) :=
  (by decide +kernel : ∀ t : Fin grid6.N, win6_2.flush t = decide (t.val = 4))
theorem flushes6_3 : ∀ t : Fin cfg6.N, (cfg6.win 3).flush t = decide (t.val = 4) :=
  (by decide +kernel : ∀ t : Fin grid6.N, win6_3.flush t = decide (t.val = 4))

/-! ## Reading back a buffer whose last store wrote it whole -/

theorem hz2 : (![0, 0] : Fin 2 → Nat) = fun _ => 0 := funext fun a => by fin_cases a <;> rfl

/-- After a list of stores of which the LAST (the head) wrote the whole buffer, the buffer holds that store's value. -/
theorem read_writes_head_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-- Closes "the buffer now holds this payload": the last store wrote it whole; loads through the whole rectangle read
    the contents, and a load after a whole store reads that store's value. -/
macro "pool_read" : tactic => `(tactic| (
  first
  | rfl
  | (simp only [read_writes_head_whole (S := S128x64) _ _ hz2, read_writes_head_whole (S := S1x128) _ _ hz2, View.readAt_eq_ld, View.ld_unit_zero (S := S10000x1) hz2,
      View.ld_unit_zero (S := S10000x64) hz2, View.ld_unit_zero (S := S128x64) hz2, View.ld_unit_zero (S := S1x128) hz2,
      View.readCov_unit_zero (S := S128x64) _ hz2, View.readCov_unit_zero (S := S1x128) _ hz2]) ))

/-! ## The body's triple, case by case -/

set_option maxHeartbeats 4000000 in
/-- The FIRST point: the accumulators, found at anything, are reset and then updated; the output windows' buffers are left as found. -/
theorem sound_kernel6_first (c : Dev nD) (i : grid6.Coords) (E : Set ℕ)
  (arg1 : Memref sig .tc .vmem S10000x64 .f32) (harg1 : arg1.IsWhole) (arg2 : Memref sig .tc .vmem S10000x1 .i32) (harg2 : arg2.IsWhole)
  (arg3 : Memref sig .tc .vmem S128x64 .f32) (harg3 : arg3.IsWhole) (arg4 : Memref sig .tc .vmem S1x128 .f32) (harg4 : arg4.IsWhole)
  (arg5 : Memref sig .tc .vmem S128x64 .f32) (harg5 : arg5.IsWhole) (arg6 : Memref sig .tc .vmem S1x128 .f32) (harg6 : arg6.IsWhole)
  (x0 : Vec F S10000x64 .f32) (x1 : Vec F S10000x1 .i32) (d3 : Vec F S128x64 .f32) (d4 : Vec F S1x128 .f32)
  (s0 : Vec F S128x64 .f32) (s1 : Vec F S1x128 .f32) (K : PUnit → sProp 𝕄)
    (h1 : first6 i) (h2 : ¬ k6_cond2 i = 1#1) :
    iprop(owns (c : Thread nD τ) arg1 fullShare x0 ∗ owns (c : Thread nD τ) arg2 fullShare x1
        ∗ owns (c : Thread nD τ) arg3 fullShare d3 ∗ owns (c : Thread nD τ) arg4 fullShare d4
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d3 ∗ owns (c : Thread nD τ) arg4 fullShare d4
            ∗ owns (c : Thread nD τ) arg5 fullShare (k6_pay4 x1 x0 k6_pay1) ∗ owns (c : Thread nD τ) arg6 fullShare (k6_pay5 x1 k6_pay2)) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f0, %hf0, H0⟩, ⟨%f1, %hf1, H1⟩, ⟨%f3, %hf3, H3⟩, ⟨%f4, %hf4, H4⟩, ⟨%f5, %hf5, H5⟩, ⟨%f6, %hf6, H6⟩, Hk⟩
  subst hf0; subst hf1; subst hf3; subst hf4; subst hf5; subst hf6
  sl_exec (disch := first | exact h1 | exact h2)
  sl_step
  iapply Hk
  isplitl [H0]
  · iexists _; isplitr; swap; · iexact H0
    ipureintro; rfl
  isplitl [H1]
  · iexists _; isplitr; swap; · iexact H1
    ipureintro; rfl
  isplitl [H3]
  · iexists _; isplitr; swap; · iexact H3
    ipureintro; sl_unfold_words; pool_read
  isplitl [H4]
  · iexists _; isplitr; swap; · iexact H4
    ipureintro; sl_unfold_words; pool_read
  isplitl [H5]
  · iexists _; isplitr; swap; · iexact H5
    ipureintro; sl_unfold_words; pool_read
  · iexists _; isplitr; swap; · iexact H6
    ipureintro; sl_unfold_words; pool_read

set_option maxHeartbeats 4000000 in
/-- A MIDDLE point: the accumulators, found at `s0`, `s1`, are left at the point's update of them; everything else as found. -/
theorem sound_kernel6_mid (c : Dev nD) (i : grid6.Coords) (E : Set ℕ)
  (arg1 : Memref sig .tc .vmem S10000x64 .f32) (harg1 : arg1.IsWhole) (arg2 : Memref sig .tc .vmem S10000x1 .i32) (harg2 : arg2.IsWhole)
  (arg3 : Memref sig .tc .vmem S128x64 .f32) (harg3 : arg3.IsWhole) (arg4 : Memref sig .tc .vmem S1x128 .f32) (harg4 : arg4.IsWhole)
  (arg5 : Memref sig .tc .vmem S128x64 .f32) (harg5 : arg5.IsWhole) (arg6 : Memref sig .tc .vmem S1x128 .f32) (harg6 : arg6.IsWhole)
  (x0 : Vec F S10000x64 .f32) (x1 : Vec F S10000x1 .i32) (d3 : Vec F S128x64 .f32) (d4 : Vec F S1x128 .f32)
  (s0 : Vec F S128x64 .f32) (s1 : Vec F S1x128 .f32) (K : PUnit → sProp 𝕄)
    (h1 : ¬ first6 i) (h2 : ¬ k6_cond2 i = 1#1) :
    iprop(owns (c : Thread nD τ) arg1 fullShare x0 ∗ owns (c : Thread nD τ) arg2 fullShare x1
        ∗ owns (c : Thread nD τ) arg3 fullShare d3 ∗ owns (c : Thread nD τ) arg4 fullShare d4
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d3 ∗ owns (c : Thread nD τ) arg4 fullShare d4
            ∗ owns (c : Thread nD τ) arg5 fullShare (k6_pay4 x1 x0 s0) ∗ owns (c : Thread nD τ) arg6 fullShare (k6_pay5 x1 s1)) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f0, %hf0, H0⟩, ⟨%f1, %hf1, H1⟩, ⟨%f3, %hf3, H3⟩, ⟨%f4, %hf4, H4⟩, ⟨%f5, %hf5, H5⟩, ⟨%f6, %hf6, H6⟩, Hk⟩
  subst hf0; subst hf1; subst hf3; subst hf4; subst hf5; subst hf6
  sl_exec (disch := first | exact h1 | exact h2)
  sl_step
  iapply Hk
  isplitl [H0]
  · iexists _; isplitr; swap; · iexact H0
    ipureintro; rfl
  isplitl [H1]
  · iexists _; isplitr; swap; · iexact H1
    ipureintro; rfl
  isplitl [H3]
  · iexists _; isplitr; swap; · iexact H3
    ipureintro; sl_unfold_words; pool_read
  isplitl [H4]
  · iexists _; isplitr; swap; · iexact H4
    ipureintro; sl_unfold_words; pool_read
  isplitl [H5]
  · iexists _; isplitr; swap; · iexact H5
    ipureintro; sl_unfold_words; pool_read
  · iexists _; isplitr; swap; · iexact H6
    ipureintro; sl_unfold_words; pool_read

set_option maxHeartbeats 4000000 in
/-- The LAST point: the accumulators are updated and then copied to the output windows' buffers. -/
theorem sound_kernel6_last (c : Dev nD) (i : grid6.Coords) (E : Set ℕ)
  (arg1 : Memref sig .tc .vmem S10000x64 .f32) (harg1 : arg1.IsWhole) (arg2 : Memref sig .tc .vmem S10000x1 .i32) (harg2 : arg2.IsWhole)
  (arg3 : Memref sig .tc .vmem S128x64 .f32) (harg3 : arg3.IsWhole) (arg4 : Memref sig .tc .vmem S1x128 .f32) (harg4 : arg4.IsWhole)
  (arg5 : Memref sig .tc .vmem S128x64 .f32) (harg5 : arg5.IsWhole) (arg6 : Memref sig .tc .vmem S1x128 .f32) (harg6 : arg6.IsWhole)
  (x0 : Vec F S10000x64 .f32) (x1 : Vec F S10000x1 .i32) (d3 : Vec F S128x64 .f32) (d4 : Vec F S1x128 .f32)
  (s0 : Vec F S128x64 .f32) (s1 : Vec F S1x128 .f32) (K : PUnit → sProp 𝕄)
    (h1 : ¬ first6 i) (h2 : k6_cond2 i = 1#1) :
    iprop(owns (c : Thread nD τ) arg1 fullShare x0 ∗ owns (c : Thread nD τ) arg2 fullShare x1
        ∗ owns (c : Thread nD τ) arg3 fullShare d3 ∗ owns (c : Thread nD τ) arg4 fullShare d4
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare (k6_pay4 x1 x0 s0) ∗ owns (c : Thread nD τ) arg4 fullShare (k6_pay5 x1 s1)
            ∗ owns (c : Thread nD τ) arg5 fullShare (k6_pay4 x1 x0 s0) ∗ owns (c : Thread nD τ) arg6 fullShare (k6_pay5 x1 s1)) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f0, %hf0, H0⟩, ⟨%f1, %hf1, H1⟩, ⟨%f3, %hf3, H3⟩, ⟨%f4, %hf4, H4⟩, ⟨%f5, %hf5, H5⟩, ⟨%f6, %hf6, H6⟩, Hk⟩
  subst hf0; subst hf1; subst hf3; subst hf4; subst hf5; subst hf6
  sl_exec (disch := first | exact h1 | exact h2)
  sl_step
  iapply Hk
  isplitl [H0]
  · iexists _; isplitr; swap; · iexact H0
    ipureintro; rfl
  isplitl [H1]
  · iexists _; isplitr; swap; · iexact H1
    ipureintro; rfl
  isplitl [H3]
  · iexists _; isplitr; swap; · iexact H3
    ipureintro; sl_unfold_words; pool_read
  isplitl [H4]
  · iexists _; isplitr; swap; · iexact H4
    ipureintro; sl_unfold_words; pool_read
  isplitl [H5]
  · iexists _; isplitr; swap; · iexact H5
    ipureintro; sl_unfold_words; pool_read
  · iexists _; isplitr; swap; · iexact H6
    ipureintro; sl_unfold_words; pool_read

/-! ## The running accumulators -/

/-- The per-graph sums after the first `n` grid points: zero at the start, each point adds its contribution. -/
def sums6 (c : Dev nD) : Nat → Vec F S128x64 .f32
  | 0 => k6_pay1
  | n + 1 => if h : n < cfg6.N then k6_pay4 (iblk6 V c 1 ⟨n, h⟩) (iblk6 V c 0 ⟨n, h⟩) (sums6 c n) else sums6 c n
/-- The per-graph counts after the first `n` grid points. -/
def cnts6 (c : Dev nD) : Nat → Vec F S1x128 .f32
  | 0 => k6_pay2
  | n + 1 => if h : n < cfg6.N then k6_pay5 (iblk6 V c 1 ⟨n, h⟩) (cnts6 c n) else cnts6 c n

theorem sums6_zero (c : Dev nD) : sums6 V c 0 = k6_pay1 := rfl
theorem cnts6_zero (c : Dev nD) : cnts6 V c 0 = k6_pay2 := rfl
theorem sums6_succ (c : Dev nD) (t : Fin cfg6.N) :
    sums6 V c (t.val + 1) = k6_pay4 (iblk6 V c 1 t) (iblk6 V c 0 t) (sums6 V c t.val) := by
  rw [sums6, dif_pos t.isLt]
theorem cnts6_succ (c : Dev nD) (t : Fin cfg6.N) :
    cnts6 V c (t.val + 1) = k6_pay5 (iblk6 V c 1 t) (cnts6 V c t.val) := by
  rw [cnts6, dif_pos t.isLt]

/-! ## The pipeline's proof data -/

/-- The two accumulators' buffers between points: at anything before the first point, at the running fold after. -/
def accs6 (c : Dev nD) (n : Nat) : sProp 𝕄 :=
  if n = 0 then iprop((∃ s, owns (c : Thread nD τ) (Memref.whole cc6_scratch0 : Memref sig .tc .vmem S128x64 .f32) fullShare s)
      ∗ (∃ s, owns (c : Thread nD τ) (Memref.whole cc6_scratch1 : Memref sig .tc .vmem S1x128 .f32) fullShare s))
  else iprop(owns (c : Thread nD τ) (Memref.whole cc6_scratch0 : Memref sig .tc .vmem S128x64 .f32) fullShare (sums6 V c n)
      ∗ owns (c : Thread nD τ) (Memref.whole cc6_scratch1 : Memref sig .tc .vmem S1x128 .f32) fullShare (cnts6 V c n))

/-- The proof data of pipeline 6 on core `c`: the arrays as the region finds them; the two input windows' buffers left
    at their blocks; the output windows' buffers, where a point writes them (the last), at the accumulators after that
    point; the invariant: the accumulators' buffers, every other scoped buffer, the generator register; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => sums6 V c (t.val + 1)
    | ⟨3, _⟩ => cnts6 V c (t.val + 1)
  Φ t := iprop(accs6 V c t.val
    ∗ Pipeline.scopedRestBut (Ix := Unit) (Name := ℕ) (U := UR sig nD τ) (Lvl := ℕ) (Val := Elt F) spec6 c [cc6_scratch0, cc6_scratch1]
    ∗ ∃ r, prngReg c r)
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = sums6 V c (t.val + 1) := by dsimp only [dat6]
theorem after6_3 (c : Dev nD) (t : Fin cfg6.N) : (dat6 V c).after 3 t = cnts6 V c (t.val + 1) := by dsimp only [dat6]
theorem Φ6_eq (c : Dev nD) (t : Fin (cfg6.N + 1)) : (dat6 V c).Φ t = iprop(accs6 V c t.val
    ∗ Pipeline.scopedRestBut (Ix := Unit) (Name := ℕ) (U := UR sig nD τ) (Lvl := ℕ) (Val := Elt F) spec6 c [cc6_scratch0, cc6_scratch1]
    ∗ ∃ r, prngReg c r) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation -/

/-- What the body is called with at point `t`, the windows one by one. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- What it returns at a point before the last: the output windows' buffers as found. -/
def bodyPostIdle6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ (∃ d, owns (c : Thread nD τ) (st6_2 t) fullShare ((dat6 V c).before 2 t d))
    ∗ (∃ d, owns (c : Thread nD τ) (st6_3 t) fullShare ((dat6 V c).before 3 t d)))

/-- What it returns at the last point: the output windows' buffers at the accumulators. -/
def bodyPostLast6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6_first (c : Dev nD) (t : Fin cfg6.N) (h0 : t.val = 0) :
    bodyPre6 V c t ⊢ wp frame (wpE (defs₀ (F := F)) Variants.none c none) Set.univ (bodyAt6 t) (fun _ => bodyPostIdle6 V c t) := by
  have hf : first6 (grid6.coords t) := (first6_iff t).mpr h0
  have hl : ¬ k6_cond2 (grid6.coords t) = 1#1 := fun h => by have := (last6_iff t).mp h; omega
  unfold bodyPre6 bodyPostIdle6 bodyAt6
  simp only [before6_0, before6_1]
  rw [show (dat6 V c).owesAt () t.succ = (dat6 V c).owesAt () t.castSucc from rfl, after6_0, after6_1, Φ6_eq, Φ6_eq]
  rw [show (t.castSucc : Fin (cfg6.N + 1)).val = 0 from h0, show (t.succ : Fin (cfg6.N + 1)).val = t.val + 1 from rfl]
  unfold accs6
  rw [if_pos rfl, if_neg (Nat.succ_ne_zero _), sums6_succ, cnts6_succ, h0, sums6_zero, cnts6_zero]
  iintro ⟨⟨⟨⟨%s0, Hs0⟩, ⟨%s1, Hs1⟩⟩, Hrest, Hp⟩, Ho, ⟨%d0, H0⟩, ⟨%d1, H1⟩, ⟨%d2, H2⟩, ⟨%d3, H3⟩⟩
  iapply (sound_kernel6_first c _ Set.univ _ _ _ _ _ _ _ _ _ _ _ _ (iblk6 V c 0 t) (iblk6 V c 1 t) _ _ s0 s1 _ hf hl)
  isplitl [H0]; · iexact H0
  isplitl [H1]; · iexact H1
  isplitl [H2]; · iexact H2
  isplitl [H3]; · iexact H3
  isplitl [Hs0]; · iexact Hs0
  isplitl [Hs1]; · iexact Hs1
  iintro ⟨H0, H1, H2, H3, Hs0, Hs1⟩
  isplitl [Hs0 Hs1 Hrest Hp]
  · isplitl [Hs0 Hs1]
    · isplitl [Hs0]; · iexact Hs0
      iexact Hs1
    isplitl [Hrest]; · iexact Hrest
    iexact Hp
  isplitl [Ho]; · iexact Ho
  isplitl [H0]; · iexact H0
  isplitl [H1]; · iexact H1
  isplitl [H2]; · iexists _; iexact H2
  iexists _; iexact H3

theorem sound_body6_mid (c : Dev nD) (t : Fin cfg6.N) (h0 : t.val ≠ 0) (h4 : t.val ≠ 4) :
    bodyPre6 V c t ⊢ wp frame (wpE (defs₀ (F := F)) Variants.none c none) Set.univ (bodyAt6 t) (fun _ => bodyPostIdle6 V c t) := by
  have hf : ¬ first6 (grid6.coords t) := fun h => h0 ((first6_iff t).mp h)
  have hl : ¬ k6_cond2 (grid6.coords t) = 1#1 := fun h => h4 ((last6_iff t).mp h)
  unfold bodyPre6 bodyPostIdle6 bodyAt6
  simp only [before6_0, before6_1]
  rw [show (dat6 V c).owesAt () t.succ = (dat6 V c).owesAt () t.castSucc from rfl, after6_0, after6_1, Φ6_eq, Φ6_eq]
  rw [show (t.castSucc : Fin (cfg6.N + 1)).val = t.val from rfl, show (t.succ : Fin (cfg6.N + 1)).val = t.val + 1 from rfl]
  unfold accs6
  rw [if_neg h0, if_neg (Nat.succ_ne_zero _), sums6_succ, cnts6_succ]
  iintro ⟨⟨⟨Hs0, Hs1⟩, Hrest, Hp⟩, Ho, ⟨%d0, H0⟩, ⟨%d1, H1⟩, ⟨%d2, H2⟩, ⟨%d3, H3⟩⟩
  iapply (sound_kernel6_mid c _ Set.univ _ _ _ _ _ _ _ _ _ _ _ _ (iblk6 V c 0 t) (iblk6 V c 1 t) _ _ (sums6 V c t.val) (cnts6 V c t.val) _ hf hl)
  isplitl [H0]; · iexact H0
  isplitl [H1]; · iexact H1
  isplitl [H2]; · iexact H2
  isplitl [H3]; · iexact H3
  isplitl [Hs0]; · iexact Hs0
  isplitl [Hs1]; · iexact Hs1
  iintro ⟨H0, H1, H2, H3, Hs0, Hs1⟩
  isplitl [Hs0 Hs1 Hrest Hp]
  · isplitl [Hs0 Hs1]
    · isplitl [Hs0]; · iexact Hs0
      iexact Hs1
    isplitl [Hrest]; · iexact Hrest
    iexact Hp
  isplitl [Ho]; · iexact Ho
  isplitl [H0]; · iexact H0
  isplitl [H1]; · iexact H1
  isplitl [H2]; · iexists _; iexact H2
  iexists _; iexact H3

theorem sound_body6_last (c : Dev nD) (t : Fin cfg6.N) (h4 : t.val = 4) :
    bodyPre6 V c t ⊢ wp frame (wpE (defs₀ (F := F)) Variants.none c none) Set.univ (bodyAt6 t) (fun _ => bodyPostLast6 V c t) := by
  have h0 : t.val ≠ 0 := by omega
  have hf : ¬ first6 (grid6.coords t) := fun h => h0 ((first6_iff t).mp h)
  have hl : k6_cond2 (grid6.coords t) = 1#1 := (last6_iff t).mpr h4
  unfold bodyPre6 bodyPostLast6 bodyAt6
  simp only [before6_0, before6_1]
  rw [show (dat6 V c).owesAt () t.succ = (dat6 V c).owesAt () t.castSucc from rfl, after6_0, after6_1, after6_2, after6_3, Φ6_eq, Φ6_eq]
  rw [show (t.castSucc : Fin (cfg6.N + 1)).val = t.val from rfl, show (t.succ : Fin (cfg6.N + 1)).val = t.val + 1 from rfl]
  unfold accs6
  rw [if_neg h0, if_neg (Nat.succ_ne_zero _), sums6_succ, cnts6_succ]
  iintro ⟨⟨⟨Hs0, Hs1⟩, Hrest, Hp⟩, Ho, ⟨%d0, H0⟩, ⟨%d1, H1⟩, ⟨%d2, H2⟩, ⟨%d3, H3⟩⟩
  iapply (sound_kernel6_last c _ Set.univ _ _ _ _ _ _ _ _ _ _ _ _ (iblk6 V c 0 t) (iblk6 V c 1 t) _ _ (sums6 V c t.val) (cnts6 V c t.val) _ hf hl)
  isplitl [H0]; · iexact H0
  isplitl [H1]; · iexact H1
  isplitl [H2]; · iexact H2
  isplitl [H3]; · iexact H3
  isplitl [Hs0]; · iexact Hs0
  isplitl [Hs1]; · iexact Hs1
  iintro ⟨H0, H1, H2, H3, Hs0, Hs1⟩
  isplitl [Hs0 Hs1 Hrest Hp]
  · isplitl [Hs0 Hs1]
    · isplitl [Hs0]; · iexact Hs0
      iexact Hs1
    isplitl [Hrest]; · iexact Hrest
    iexact Hp
  isplitl [Ho]; · iexact Ho
  isplitl [H0]; · iexact H0
  isplitl [H1]; · iexact H1
  isplitl [H2]; · iexact H2
  iexact H3

/-- The library's body obligation, at every point: by the point's control case. -/
theorem body_obligation6 (c : Dev nD) : BodyObligation (dat6 (F := F) V c) (defs₀ (F := F)) Variants.none () Set.univ := fun t => by
  rw [bigSep_W6, bigSep_W6]
  by_cases h4 : t.val = 4
  · have hi2 : cfg6.idle 2 (cfg6.grid.coords t) = false := by rw [idle6_2]; simp [h4]
    have hi3 : cfg6.idle 3 (cfg6.grid.coords t) = false := by rw [idle6_3]; simp [h4]
    rw [hi2]
    try rw [hi3]
    exact sound_body6_last V c t h4
  · have hi2 : cfg6.idle 2 (cfg6.grid.coords t) = true := by rw [idle6_2]; simp [h4]
    have hi3 : cfg6.idle 3 (cfg6.grid.coords t) = true := by rw [idle6_3]; simp [h4]
    have hf2 : (cfg6.win 2).flush t = false := by rw [flushes6_2]; simp [h4]
    have hf3 : (cfg6.win 3).flush t = false := by rw [flushes6_3]; simp [h4]
    rw [hi2]
    try rw [hi3]
    rw [hf2, hf3]
    by_cases h0 : t.val = 0
    · exact sound_body6_first V c t h0
    · exact sound_body6_mid V c t h0 h4

/-! ## The invariant at the region's two ends -/

theorem Φ6_zero (c : Dev nD) : (dat6 V c).Φ 0 = iprop(iprop((∃ s, owns (c : Thread nD τ) (Memref.whole cc6_scratch0 : Memref sig .tc .vmem S128x64 .f32) fullShare s)
      ∗ (∃ s, owns (c : Thread nD τ) (Memref.whole cc6_scratch1 : Memref sig .tc .vmem S1x128 .f32) fullShare s))
    ∗ Pipeline.scopedRestBut (Ix := Unit) (Name := ℕ) (U := UR sig nD τ) (Lvl := ℕ) (Val := Elt F) spec6 c [cc6_scratch0, cc6_scratch1]
    ∗ ∃ r, prngReg c r) := by
  rw [Φ6_eq]; unfold accs6; rw [if_pos (show ((0 : Fin (cfg6.N + 1)).val) = 0 from rfl)]
theorem Φ6_last (c : Dev nD) : (dat6 V c).Φ (Fin.last cfg6.N) = iprop(iprop(owns (c : Thread nD τ) (Memref.whole cc6_scratch0 : Memref sig .tc .vmem S128x64 .f32) fullShare (sums6 V c 5)
      ∗ owns (c : Thread nD τ) (Memref.whole cc6_scratch1 : Memref sig .tc .vmem S1x128 .f32) fullShare (cnts6 V c 5))
    ∗ Pipeline.scopedRestBut (Ix := Unit) (Name := ℕ) (U := UR sig nD τ) (Lvl := ℕ) (Val := Elt F) spec6 c [cc6_scratch0, cc6_scratch1]
    ∗ ∃ r, prngReg c r) := by
  have h5 : ((Fin.last cfg6.N : Fin (cfg6.N + 1)).val) = 5 := by rw [Fin.val_last]; exact N_6
  rw [Φ6_eq]; unfold accs6; rw [h5, if_neg (by decide)]

end Cert.Kernel.Hand

end
-- ==== Proof.K.Fold.lean ====
/- The contents of the program's unscoped buffers at every boundary between two items of @main, as a fold from the launch
  memory: after a stretch of host operations, what those operations compute from the contents before; after a kernel
  region, the region's arrays at what its write-backs leave and every other buffer as before. Then every region's proof
  data at the contents its region is entered from, and what rides beside the buffers through every item. -/
import proofs.«402628_j81466939670848_1_alg».proof.Proof.K.Reg0
import proofs.«402628_j81466939670848_1_alg».proof.Proof.K.Reg1
import proofs.«402628_j81466939670848_1_alg».proof.Proof.K.Reg2
import proofs.«402628_j81466939670848_1_alg».proof.Proof.K.Reg3
import proofs.«402628_j81466939670848_1_alg».proof.Proof.K.Reg4
import proofs.«402628_j81466939670848_1_alg».proof.Proof.K.Reg5
import proofs.«402628_j81466939670848_1_alg».proof.Proof.K.Reg6
import proofs.«402628_j81466939670848_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- The same read at the TensorCore's references. -/
abbrev Vr1 : (c : Dev nD) → (b : Ref sig .tc) → Buf (Elt F) ((c : Thread nD τ).loc b) := fun c b => W1 m c b
theorem W1_of (c : Dev nD) (r : Ref sig .tc) (h : r ∉ hostOps0_W) : W1 m c r = W0 m c r :=
  StableHlo.after_of_writes_sub hostOps0 _ hostOps0_writes h
/-- After the host stretch `hostOps0_1`. -/
abbrev W2 : Dev nD → Valuation τ sig (Elt F) := fun c => StableHlo.after hostOps0_1 (W1 m c)
/-- The same read at the TensorCore's references. -/
abbrev Vr2 : (c : Dev nD) → (b : Ref sig .tc) → Buf (Elt F) ((c : Thread nD τ).loc b) := fun c b => W2 m c b
theorem W2_of (c : Dev nD) (r : Ref sig .tc) (h : r ∉ hostOps0_1_W) : W2 m c r = W1 m c r :=
  StableHlo.after_of_writes_sub hostOps0_1 _ hostOps0_1_writes h
/-- After the host stretch `hostOps0_2`. -/
abbrev W3 : Dev nD → Valuation τ sig (Elt F) := fun c => StableHlo.after hostOps0_2 (W2 m c)
/-- The same read at the TensorCore's references. -/
abbrev Vr3 : (c : Dev nD) → (b : Ref sig .tc) → Buf (Elt F) ((c : Thread nD τ).loc b) := fun c b => W3 m c b
theorem W3_of (c : Dev nD) (r : Ref sig .tc) (h : r ∉ hostOps0_2_W) : W3 m c r = W2 m c r :=
  StableHlo.after_of_writes_sub hostOps0_2 _ hostOps0_2_writes h
/-- At region 0's exit: its arrays at what the pipeline leaves, every other buffer as entered. -/
def W4 (c : Dev nD) : Valuation τ sig (Elt F) :=
  Pipeline.withArrays spec0 c (W3 m c) fun w => (dat0 (Vr3 m) c).arrAt w cfg0.N
theorem W4_arr (c : Dev nD) (w : Fin cfg0.W) :
    W4 m c (Proc.devRef .tc (Pipeline.arrRef spec0 w)) = (dat0 (Vr3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the TensorCore's references. -/
abbrev Vr4 : (c : Dev nD) → (b : Ref sig .tc) → Buf (Elt F) ((c : Thread nD τ).loc b) := fun c b => W4 m c b
theorem hF0 (c : Dev nD) (w : Fin cfg0.W) : (dat0 (Vr3 m) c).arrAt w cfg0.N = Vr4 m c (Pipeline.arrRef spec0 w) :=
  (W4_arr m c w).symm
theorem hrest0 (c : Dev nD) : ∀ b, b ∉ Finset.univ.image (Pipeline.arrRef spec0) → Vr4 m c b = Vr3 m c b :=
  fun b hb => W4_of_ne m c b fun w e => hb (Finset.mem_image.mpr ⟨w, Finset.mem_univ _, e⟩)
/-- After the host stretch `hostOps1`. -/
abbrev W5 : Dev nD → Valuation τ sig (Elt F) := fun c => StableHlo.after hostOps1 (W4 m c)
/-- The same read at the TensorCore's references. -/
abbrev Vr5 : (c : Dev nD) → (b : Ref sig .tc) → Buf (Elt F) ((c : Thread nD τ).loc b) := fun c b => W5 m c b
theorem W5_of (c : Dev nD) (r : Ref sig .tc) (h : r ∉ hostOps1_W) : W5 m c r = W4 m c r :=
  StableHlo.after_of_writes_sub hostOps1 _ hostOps1_writes h
/-- At region 1's exit: its arrays at what the pipeline leaves, every other buffer as entered. -/
def W6 (c : Dev nD) : Valuation τ sig (Elt F) :=
  Pipeline.withArrays spec1 c (W5 m c) fun w => (dat1 (Vr5 m) c).arrAt w cfg1.N
theorem W6_arr (c : Dev nD) (w : Fin cfg1.W) :
    W6 m c (Proc.devRef .tc (Pipeline.arrRef spec1 w)) = (dat1 (Vr5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the TensorCore's references. -/
abbrev Vr6 : (c : Dev nD) → (b : Ref sig .tc) → Buf (Elt F) ((c : Thread nD τ).loc b) := fun c b => W6 m c b
theorem hF1 (c : Dev nD) (w : Fin cfg1.W) : (dat1 (Vr5 m) c).arrAt w cfg1.N = Vr6 m c (Pipeline.arrRef spec1 w) :=
  (W6_arr m c w).symm
theorem hrest1 (c : Dev nD) : ∀ b, b ∉ Finset.univ.image (Pipeline.arrRef spec1) → Vr6 m c b = Vr5 m c b :=
  fun b hb => W6_of_ne m c b fun w e => hb (Finset.mem_image.mpr ⟨w, Finset.mem_univ _, e⟩)
/-- At region 2's exit: its arrays at what the pipeline leaves, every other buffer as entered. -/
def W7 (c : Dev nD) : Valuation τ sig (Elt F) :=
  Pipeline.withArrays spec2 c (W6 m c) fun w => (dat2 (Vr6 m) c).arrAt w cfg2.N
theorem W7_arr (c : Dev nD) (w : Fin cfg2.W) :
    W7 m c (Proc.devRef .tc (Pipeline.arrRef spec2 w)) = (dat2 (Vr6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The same read at the TensorCore's references. -/
abbrev Vr7 : (c : Dev nD) → (b : Ref sig .tc) → Buf (Elt F) ((c : Thread nD τ).loc b) := fun c b => W7 m c b
theorem hF2 (c : Dev nD) (w : Fin cfg2.W) : (dat2 (Vr6 m) c).arrAt w cfg2.N = Vr7 m c (Pipeline.arrRef spec2 w) :=
  (W7_arr m c w).symm
theorem hrest2 (c : Dev nD) : ∀ b, b ∉ Finset.univ.image (Pipeline.arrRef spec2) → Vr7 m c b = Vr6 m c b :=
  fun b hb => W7_of_ne m c b fun w e => hb (Finset.mem_image.mpr ⟨w, Finset.mem_univ _, e⟩)
/-- After the host stretch `hostOps3`. -/
abbrev W8 : Dev nD → Valuation τ sig (Elt F) := fun c => StableHlo.after hostOps3 (W7 m c)
/-- The same read at the TensorCore's references. -/
abbrev Vr8 : (c : Dev nD) → (b : Ref sig .tc) → Buf (Elt F) ((c : Thread nD τ).loc b) := fun c b => W8 m c b
theorem W8_of (c : Dev nD) (r : Ref sig .tc) (h : r ∉ hostOps3_W) : W8 m c r = W7 m c r :=
  StableHlo.after_of_writes_sub hostOps3 _ hostOps3_writes h
/-- At region 3's exit: its arrays at what the pipeline leaves, every other buffer as entered. -/
def W9 (c : Dev nD) : Valuation τ sig (Elt F) :=
  Pipeline.withArrays spec3 c (W8 m c) fun w => (dat3 (Vr8 m) c).arrAt w cfg3.N
theorem W9_arr (c : Dev nD) (w : Fin cfg3.W) :
    W9 m c (Proc.devRef .tc (Pipeline.arrRef spec3 w)) = (dat3 (Vr8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
/-- The same read at the TensorCore's references. -/
abbrev Vr9 : (c : Dev nD) → (b : Ref sig .tc) → Buf (Elt F) ((c : Thread nD τ).loc b) := fun c b => W9 m c b
theorem hF3 (c : Dev nD) (w : Fin cfg3.W) : (dat3 (Vr8 m) c).arrAt w cfg3.N = Vr9 m c (Pipeline.arrRef spec3 w) :=
  (W9_arr m c w).symm
theorem hrest3 (c : Dev nD) : ∀ b, b ∉ Finset.univ.image (Pipeline.arrRef spec3) → Vr9 m c b = Vr8 m c b :=
  fun b hb => W9_of_ne m c b fun w e => hb (Finset.mem_image.mpr ⟨w, Finset.mem_univ _, e⟩)
/-- At region 4's exit: its arrays at what the pipeline leaves, every other buffer as entered. -/
def W10 (c : Dev nD) : Valuation τ sig (Elt F) :=
  Pipeline.withArrays spec4 c (W9 m c) fun w => (dat4 (Vr9 m) c).arrAt w cfg4.N
theorem W10_arr (c : Dev nD) (w : Fin cfg4.W) :
    W10 m c (Proc.devRef .tc (Pipeline.arrRef spec4 w)) = (dat4 (Vr9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
/-- The same read at the TensorCore's references. -/
abbrev Vr10 : (c : Dev nD) → (b : Ref sig .tc) → Buf (Elt F) ((c : Thread nD τ).loc b) := fun c b => W10 m c b
theorem hF4 (c : Dev nD) (w : Fin cfg4.W) : (dat4 (Vr9 m) c).arrAt w cfg4.N = Vr10 m c (Pipeline.arrRef spec4 w) :=
  (W10_arr m c w).symm
theorem hrest4 (c : Dev nD) : ∀ b, b ∉ Finset.univ.image (Pipeline.arrRef spec4) → Vr10 m c b = Vr9 m c b :=
  fun b hb => W10_of_ne m c b fun w e => hb (Finset.mem_image.mpr ⟨w, Finset.mem_univ _, e⟩)
/-- After the host stretch `hostOps5`. -/
abbrev W11 : Dev nD → Valuation τ sig (Elt F) := fun c => StableHlo.after hostOps5 (W10 m c)
/-- The same read at the TensorCore's references. -/
abbrev Vr11 : (c : Dev nD) → (b : Ref sig .tc) → Buf (Elt F) ((c : Thread nD τ).loc b) := fun c b => W11 m c b
theorem W11_of (c : Dev nD) (r : Ref sig .tc) (h : r ∉ hostOps5_W) : W11 m c r = W10 m c r :=
  StableHlo.after_of_writes_sub hostOps5 _ hostOps5_writes h
/-- At region 5's exit: its arrays at what the pipeline leaves, every other buffer as entered. -/
def W12 (c : Dev nD) : Valuation τ sig (Elt F) :=
  Pipeline.withArrays spec5 c (W11 m c) fun w => (dat5 (Vr11 m) c).arrAt w cfg5.N
theorem W12_arr (c : Dev nD) (w : Fin cfg5.W) :
    W12 m c (Proc.devRef .tc (Pipeline.arrRef spec5 w)) = (dat5 (Vr11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
/-- The same read at the TensorCore's references. -/
abbrev Vr12 : (c : Dev nD) → (b : Ref sig .tc) → Buf (Elt F) ((c : Thread nD τ).loc b) := fun c b => W12 m c b
theorem hF5 (c : Dev nD) (w : Fin cfg5.W) : (dat5 (Vr11 m) c).arrAt w cfg5.N = Vr12 m c (Pipeline.arrRef spec5 w) :=
  (W12_arr m c w).symm
theorem hrest5 (c : Dev nD) : ∀ b, b ∉ Finset.univ.image (Pipeline.arrRef spec5) → Vr12 m c b = Vr11 m c b :=
  fun b hb => W12_of_ne m c b fun w e => hb (Finset.mem_image.mpr ⟨w, Finset.mem_univ _, e⟩)
/-- After the host stretch `hostOps6`. -/
abbrev W13 : Dev nD → Valuation τ sig (Elt F) := fun c => StableHlo.after hostOps6 (W12 m c)
/-- The same read at the TensorCore's references. -/
abbrev Vr13 : (c : Dev nD) → (b : Ref sig .tc) → Buf (Elt F) ((c : Thread nD τ).loc b) := fun c b => W13 m c b
theorem W13_of (c : Dev nD) (r : Ref sig .tc) (h : r ∉ hostOps6_W) : W13 m c r = W12 m c r :=
  StableHlo.after_of_writes_sub hostOps6 _ hostOps6_writes h
/-- At region 6's exit: its arrays at what the pipeline leaves, every other buffer as entered. -/
def W14 (c : Dev nD) : Valuation τ sig (Elt F) :=
  Pipeline.withArrays spec6 c (W13 m c) fun w => (dat6 (Vr13 m) c).arrAt w cfg6.N
theorem W14_arr (c : Dev nD) (w : Fin cfg6.W) :
    W14 m c (Proc.devRef .tc (Pipeline.arrRef spec6 w)) = (dat6 (Vr13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
/-- The same read at the TensorCore's references. -/
abbrev Vr14 : (c : Dev nD) → (b : Ref sig .tc) → Buf (Elt F) ((c : Thread nD τ).loc b) := fun c b => W14 m c b
theorem hF6 (c : Dev nD) (w : Fin cfg6.W) : (dat6 (Vr13 m) c).arrAt w cfg6.N = Vr14 m c (Pipeline.arrRef spec6 w) :=
  (W14_arr m c w).symm
theorem hrest6 (c : Dev nD) : ∀ b, b ∉ Finset.univ.image (Pipeline.arrRef spec6) → Vr14 m c b = Vr13 m c b :=
  fun b hb => W14_of_ne m c b fun w e => hb (Finset.mem_image.mpr ⟨w, Finset.mem_univ _, e⟩)
/-- After the host stretch `hostOps7`. -/
abbrev W15 : Dev nD → Valuation τ sig (Elt F) := fun c => StableHlo.after hostOps7 (W14 m c)
/-- The same read at the TensorCore's references. -/
abbrev Vr15 : (c : Dev nD) → (b : Ref sig .tc) → Buf (Elt F) ((c : Thread nD τ).loc b) := fun c b => W15 m c b
theorem W15_of (c : Dev nD) (r : Ref sig .tc) (h : r ∉ hostOps7_W) : W15 m c r = W14 m c r :=
  StableHlo.after_of_writes_sub hostOps7 _ hostOps7_writes h

/-! ## The proof data family and what rides beside the buffers -/

/-- No pipeline has a prefetched table. -/
abbrev admH : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) admH p) c
  | ⟨0, _⟩ => fun c => dat0 (Vr3 m) c
  | ⟨1, _⟩ => fun c => dat1 (Vr5 m) c
  | ⟨2, _⟩ => fun c => dat2 (Vr6 m) c
  | ⟨3, _⟩ => fun c => dat3 (Vr8 m) c
  | ⟨4, _⟩ => fun c => dat4 (Vr9 m) c
  | ⟨5, _⟩ => fun c => dat5 (Vr11 m) c
  | ⟨6, _⟩ => fun c => dat6 (Vr13 m) c
abbrev 𝒱H : Variants := Variants.none
/-- No core owes another anything: no level is assigned. -/
abbrev LH : GSem nD τ sig → Finset Unit := fun _ => ∅
abbrev lvH : GSem nD τ sig → Unit → ℕ := fun _ _ => 0
/-- Beside the buffers: the core's generator register at some state, and its `owes`, at nothing. -/
abbrev RH (c : Dev nD) : sProp 𝕄 := iprop((∃ r, prngReg c r) ∗ ∃ W, owes (c : Thread nD τ) (0 : CellTallies nD τ sig Unit) W)
/-- A host stretch as a segment over the unscoped references from the contents `W`, `RH` riding along. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those held through the run. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Seg0.lean ====
/- Region 0 of @main as a segment of the run: the thread state it is entered from and the one it leaves, and the four
  entailments that take the region's arrays out of the unscoped buffers and put them back. -/
import proofs.«402628_j81466939670848_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unification of a library lemma stated over `pin pcs a p` with the pinned configuration unfolds plain definitions in a
-- metavariable's type
set_option backward.isDefEq.respectTransparency.types false in
/-- REGION 0 as a segment of @main: entered from every unscoped buffer at `W3`, left at `W4`. Its arrays are split
    out of the unscoped buffers at entry and put back, at the exit contents, at the end; the generator register goes
    into the kernel's invariant and comes back; nothing is owed; the kernel has no semaphore of its own. -/
def reg0 : Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vr3 m) c).loose
  hwaits := Pipeline.hwaits_of_owed_zero _ _ _ _ LH lvH 0 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec0 c (Vr3 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (Vr3 m c) (Vr4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg1.lean ====
/- Region 1 of @main as a segment of the run: the thread state it is entered from and the one it leaves, and the four
  entailments that take the region's arrays out of the unscoped buffers and put them back. -/
import proofs.«402628_j81466939670848_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unification of a library lemma stated over `pin pcs a p` with the pinned configuration unfolds plain definitions in a
-- metavariable's type
set_option backward.isDefEq.respectTransparency.types false in
/-- REGION 1 as a segment of @main: entered from every unscoped buffer at `W5`, left at `W6`. Its arrays are split
    out of the unscoped buffers at entry and put back, at the exit contents, at the end; the generator register goes
    into the kernel's invariant and comes back; nothing is owed; the kernel has no semaphore of its own. -/
def reg1 : Pipeline.RegionSeg (pcfgs (F := F)) admH (pdats m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vr5 m) c).loose
  hwaits := Pipeline.hwaits_of_owed_zero _ _ _ _ LH lvH 1 fun _ _ => rfl
  pre c := iprop(StableHlo.held (c : Thread nD τ) (Pipeline.ucRefs τ sig) (W5 m c) ∗ RH c)
  post c := iprop(StableHlo.held (c : Thread nD τ) (Pipeline.ucRefs τ sig) (W6 m c) ∗ RH c)
  X c := iprop(∃ r, prngReg c r)
  Y c := iprop(∃ r, prngReg c r)
  Z c := Pipeline.unscopedRest (Ix := Unit) (Name := ℕ) (U := UR sig nD τ) (Lvl := ℕ) spec1 c (Vr5 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (Vr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (Vr5 m c) (Vr6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg2.lean ====
/- Region 2 of @main as a segment of the run: the thread state it is entered from and the one it leaves, and the four
  entailments that take the region's arrays out of the unscoped buffers and put them back. -/
import proofs.«402628_j81466939670848_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unification of a library lemma stated over `pin pcs a p` with the pinned configuration unfolds plain definitions in a
-- metavariable's type
set_option backward.isDefEq.respectTransparency.types false in
/-- REGION 2 as a segment of @main: entered from every unscoped buffer at `W6`, left at `W7`. Its arrays are split
    out of the unscoped buffers at entry and put back, at the exit contents, at the end; the generator register goes
    into the kernel's invariant and comes back; nothing is owed; the kernel has no semaphore of its own. -/
def reg2 : Pipeline.RegionSeg (pcfgs (F := F)) admH (pdats m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Vr6 m) c).loose
  hwaits := Pipeline.hwaits_of_owed_zero _ _ _ _ LH lvH 2 fun _ _ => rfl
  pre c := iprop(StableHlo.held (c : Thread nD τ) (Pipeline.ucRefs τ sig) (W6 m c) ∗ RH c)
  post c := iprop(StableHlo.held (c : Thread nD τ) (Pipeline.ucRefs τ sig) (W7 m c) ∗ RH c)
  X c := iprop(∃ r, prngReg c r)
  Y c := iprop(∃ r, prngReg c r)
  Z c := Pipeline.unscopedRest (Ix := Unit) (Name := ℕ) (U := UR sig nD τ) (Lvl := ℕ) spec2 c (Vr6 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (Vr6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (Vr6 m c) (Vr7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg3.lean ====
/- Region 3 of @main as a segment of the run: the thread state it is entered from and the one it leaves, and the four
  entailments that take the region's arrays out of the unscoped buffers and put them back. -/
import proofs.«402628_j81466939670848_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unification of a library lemma stated over `pin pcs a p` with the pinned configuration unfolds plain definitions in a
-- metavariable's type
set_option backward.isDefEq.respectTransparency.types false in
/-- REGION 3 as a segment of @main: entered from every unscoped buffer at `W8`, left at `W9`. Its arrays are split
    out of the unscoped buffers at entry and put back, at the exit contents, at the end; the generator register goes
    into the kernel's invariant and comes back; nothing is owed; the kernel has no semaphore of its own. -/
def reg3 : Pipeline.RegionSeg (pcfgs (F := F)) admH (pdats m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (Vr8 m) c).loose
  hwaits := Pipeline.hwaits_of_owed_zero _ _ _ _ LH lvH 3 fun _ _ => rfl
  pre c := iprop(StableHlo.held (c : Thread nD τ) (Pipeline.ucRefs τ sig) (W8 m c) ∗ RH c)
  post c := iprop(StableHlo.held (c : Thread nD τ) (Pipeline.ucRefs τ sig) (W9 m c) ∗ RH c)
  X c := iprop(∃ r, prngReg c r)
  Y c := iprop(∃ r, prngReg c r)
  Z c := Pipeline.unscopedRest (Ix := Unit) (Name := ℕ) (U := UR sig nD τ) (Lvl := ℕ) spec3 c (Vr8 m c)
  hentry c := by
    rw [Pipeline.ownSems0_none]
    have hsplit := Pipeline.arrays_of_unscopedBufs (p := 3) (pcfgs (F := F)) admH (pdats m) launch3.win launch3.arr_whole c
      ((pdats m 3 c).share_full fun _ => rfl) (Vr8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m) ((pdats m 3 c).share_full fun _ => rfl)
      (Vr8 m c) (Vr9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg4.lean ====
/- Region 4 of @main as a segment of the run: the thread state it is entered from and the one it leaves, and the four
  entailments that take the region's arrays out of the unscoped buffers and put them back. -/
import proofs.«402628_j81466939670848_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unification of a library lemma stated over `pin pcs a p` with the pinned configuration unfolds plain definitions in a
-- metavariable's type
set_option backward.isDefEq.respectTransparency.types false in
/-- REGION 4 as a segment of @main: entered from every unscoped buffer at `W9`, left at `W10`. Its arrays are split
    out of the unscoped buffers at entry and put back, at the exit contents, at the end; the generator register goes
    into the kernel's invariant and comes back; nothing is owed; the kernel has no semaphore of its own. -/
def reg4 : Pipeline.RegionSeg (pcfgs (F := F)) admH (pdats m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (Vr9 m) c).loose
  hwaits := Pipeline.hwaits_of_owed_zero _ _ _ _ LH lvH 4 fun _ _ => rfl
  pre c := iprop(StableHlo.held (c : Thread nD τ) (Pipeline.ucRefs τ sig) (W9 m c) ∗ RH c)
  post c := iprop(StableHlo.held (c : Thread nD τ) (Pipeline.ucRefs τ sig) (W10 m c) ∗ RH c)
  X c := iprop(∃ r, prngReg c r)
  Y c := iprop(∃ r, prngReg c r)
  Z c := Pipeline.unscopedRest (Ix := Unit) (Name := ℕ) (U := UR sig nD τ) (Lvl := ℕ) spec4 c (Vr9 m c)
  hentry c := by
    rw [Pipeline.ownSems0_none]
    have hsplit := Pipeline.arrays_of_unscopedBufs (p := 4) (pcfgs (F := F)) admH (pdats m) launch4.win launch4.arr_whole c
      ((pdats m 4 c).share_full fun _ => rfl) (Vr9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m) ((pdats m 4 c).share_full fun _ => rfl)
      (Vr9 m c) (Vr10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg5.lean ====
/- Region 5 of @main as a segment of the run: the thread state it is entered from and the one it leaves, and the four
  entailments that take the region's arrays out of the unscoped buffers and put them back. -/
import proofs.«402628_j81466939670848_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unification of a library lemma stated over `pin pcs a p` with the pinned configuration unfolds plain definitions in a
-- metavariable's type
set_option backward.isDefEq.respectTransparency.types false in
/-- REGION 5 as a segment of @main: entered from every unscoped buffer at `W11`, left at `W12`. Its arrays are split
    out of the unscoped buffers at entry and put back, at the exit contents, at the end; the generator register goes
    into the kernel's invariant and comes back; nothing is owed; the kernel has no semaphore of its own. -/
def reg5 : Pipeline.RegionSeg (pcfgs (F := F)) admH (pdats m) () defs₀ 𝒱H LH lvH 5 where
  win := launch5.win.to₀
  block_pos := launch5.block_pos
  stage_whole := launch5.stage_whole
  K := PEmpty
  osem k := k.elim
  ho := Pipeline.OwnSemFacts.none _
  hbody c := (body_obligation5 (Vr11 m) c).loose
  hwaits := Pipeline.hwaits_of_owed_zero _ _ _ _ LH lvH 5 fun _ _ => rfl
  pre c := iprop(StableHlo.held (c : Thread nD τ) (Pipeline.ucRefs τ sig) (W11 m c) ∗ RH c)
  post c := iprop(StableHlo.held (c : Thread nD τ) (Pipeline.ucRefs τ sig) (W12 m c) ∗ RH c)
  X c := iprop(∃ r, prngReg c r)
  Y c := iprop(∃ r, prngReg c r)
  Z c := Pipeline.unscopedRest (Ix := Unit) (Name := ℕ) (U := UR sig nD τ) (Lvl := ℕ) spec5 c (Vr11 m c)
  hentry c := by
    rw [Pipeline.ownSems0_none]
    have hsplit := Pipeline.arrays_of_unscopedBufs (p := 5) (pcfgs (F := F)) admH (pdats m) launch5.win launch5.arr_whole c
      ((pdats m 5 c).share_full fun _ => rfl) (Vr11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdats m) ((pdats m 5 c).share_full fun _ => rfl)
      (Vr11 m c) (Vr12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg6.lean ====
/- Region 6 of @main (the pooling kernel) as a segment of the run: the thread state it is entered from and the one it
  leaves. Its arrays are split out of the unscoped buffers at entry and put back, at the exit contents, at the end. The
  kernel's invariant takes the generator register and, out of the scoped buffers no window stages, the two accumulator
  buffers; it gives all of them back at the end.
-/
import proofs.«402628_j81466939670848_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- REGION 6 as a segment of @main: entered from every unscoped buffer at `W13`, left at `W14`. -/
def reg6 : Pipeline.RegionSeg (pcfgs (F := F)) admH (pdats m) () defs₀ 𝒱H LH lvH 6 where
  win := launch6.win.to₀
  block_pos := launch6.block_pos
  stage_whole := launch6.stage_whole
  K := PEmpty
  osem k := k.elim
  ho := Pipeline.OwnSemFacts.none _
  hbody c := (body_obligation6 (Vr13 m) c).loose
  hwaits := Pipeline.hwaits_of_owed_zero _ _ _ _ LH lvH 6 fun _ _ => rfl
  pre c := iprop(StableHlo.held (c : Thread nD τ) (Pipeline.ucRefs τ sig) (W13 m c) ∗ RH c)
  post c := iprop(StableHlo.held (c : Thread nD τ) (Pipeline.ucRefs τ sig) (W14 m c) ∗ RH c)
  X c := iprop(∃ r, prngReg c r)
  Y c := iprop(∃ r, prngReg c r)
  Z c := Pipeline.unscopedRest (Ix := Unit) (Name := ℕ) (U := UR sig nD τ) (Lvl := ℕ) spec6 c (Vr13 m c)
  hentry c := by
    rw [Pipeline.ownSems0_none]
    have hsplit := Pipeline.arrays_of_unscopedBufs (p := 6) (pcfgs (F := F)) admH (pdats m) launch6.win launch6.arr_whole c
      ((pdats m 6 c).share_full fun _ => rfl) (Vr13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (Vr13 m) c).Φ 0 from rfl, Φ6_zero,
      show Pipeline.scopedRest (Pipeline.pin (pcfgs (F := F)) admH 6).spec c = Pipeline.scopedRest (Ix := Unit) (Name := ℕ) (U := UR sig nD τ) (Lvl := ℕ) (Val := Elt F) spec6 c from rfl,
      scopedRest6_split]
    iintro ⟨Hp, -, ⟨⟨%f0, H0⟩, ⟨%f1, H1⟩⟩, Hr⟩
    isplitl [H0 H1]
    · isplitl [H0]
      · iexists f0; rw [owns_whole]; iexact H0
      · iexists f1; rw [owns_whole]; iexact H1
    isplitl [Hr]; · iexact Hr
    iexact Hp
  hout c := by
    rw [Pipeline.ownSems0_none, show (pdats m 6 c).Φ (Fin.last _) = (dat6 (Vr13 m) c).Φ (Fin.last cfg6.N) from rfl, Φ6_last,
      show Pipeline.scopedRest (Pipeline.pin (pcfgs (F := F)) admH 6).spec c = Pipeline.scopedRest (Ix := Unit) (Name := ℕ) (U := UR sig nD τ) (Lvl := ℕ) (Val := Elt F) spec6 c from rfl,
      scopedRest6_split]
    iintro ⟨⟨H0, H1⟩, Hr, Hp⟩
    isplitl [Hp]; · iexact Hp
    isplitr; · iempintro
    isplitl [H0 H1]
    · isplitl [H0]
      · iexists _; rw [← owns_whole]; iexact H0
      · iexists _; rw [← owns_whole]; iexact H1
    iexact Hr
  hexit c := by
    have hjoin := Pipeline.unscopedBufs_of_arrays (p := 6) (pcfgs (F := F)) admH (Ix := Unit) (Name := ℕ) (U := UR sig nD τ) (Lvl := ℕ)
      launch6.win launch6.arr_whole c (pdats m) ((pdats m 6 c).share_full fun _ => rfl)
      (Vr13 m c) (Vr14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Kept.lean ====
/- Every argument array, read at the boundary where a stretch or a region of @main reads it and at the last boundary, holds its
  launch contents: no host stretch writes it, and a region reads it through an input window or not at all. -/
import proofs.«402628_j81466939670848_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (c : Dev nD)

theorem W3_main_arg0 : W3 m c (Proc.devRef .tc main_arg0) = m ((c : Thread nD τ).loc main_arg0) :=
  (W3_of m c main_arg0 (by decide)).trans <|
    (W2_of m c main_arg0 (by decide)).trans <|
    (W1_of m c main_arg0 (by decide)).trans <| rfl
theorem W3_main_arg3 : W3 m c (Proc.devRef .tc main_arg3) = m ((c : Thread nD τ).loc main_arg3) :=
  (W3_of m c main_arg3 (by decide)).trans <|
    (W2_of m c main_arg3 (by decide)).trans <|
    (W1_of m c main_arg3 (by decide)).trans <| rfl
theorem W4_main_arg4 : W4 m c (Proc.devRef .tc main_arg4) = m ((c : Thread nD τ).loc main_arg4) :=
  (W4_of_ne m c main_arg4 (by decide)).trans <|
    (W3_of m c main_arg4 (by decide)).trans <|
    (W2_of m c main_arg4 (by decide)).trans <|
    (W1_of m c main_arg4 (by decide)).trans <| rfl
theorem W6_main_arg5 : W6 m c (Proc.devRef .tc main_arg5) = m ((c : Thread nD τ).loc main_arg5) :=
  (W6_of_ne m c main_arg5 (by decide)).trans <|
    (W5_of m c main_arg5 (by decide)).trans <|
    (W4_of_ne m c main_arg5 (by decide)).trans <|
    (W3_of m c main_arg5 (by decide)).trans <|
    (W2_of m c main_arg5 (by decide)).trans <|
    (W1_of m c main_arg5 (by decide)).trans <| rfl
theorem W7_main_arg6 : W7 m c (Proc.devRef .tc main_arg6) = m ((c : Thread nD τ).loc main_arg6) :=
  (W7_of_ne m c main_arg6 (by decide)).trans <|
    (W6_of_ne m c main_arg6 (by decide)).trans <|
    (W5_of m c main_arg6 (by decide)).trans <|
    (W4_of_ne m c main_arg6 (by decide)).trans <|
    (W3_of m c main_arg6 (by decide)).trans <|
    (W2_of m c main_arg6 (by decide)).trans <|
    (W1_of m c main_arg6 (by decide)).trans <| rfl
theorem W9_main_arg7 : W9 m c (Proc.devRef .tc main_arg7) = m ((c : Thread nD τ).loc main_arg7) :=
  (W9_of_ne m c main_arg7 (by decide)).trans <|
    (W8_of m c main_arg7 (by decide)).trans <|
    (W7_of_ne m c main_arg7 (by decide)).trans <|
    (W6_of_ne m c main_arg7 (by decide)).trans <|
    (W5_of m c main_arg7 (by decide)).trans <|
    (W4_of_ne m c main_arg7 (by decide)).trans <|
    (W3_of m c main_arg7 (by decide)).trans <|
    (W2_of m c main_arg7 (by decide)).trans <|
    (W1_of m c main_arg7 (by decide)).trans <| rfl
theorem W10_main_arg8 : W10 m c (Proc.devRef .tc main_arg8) = m ((c : Thread nD τ).loc main_arg8) :=
  (W10_of_ne m c main_arg8 (by decide)).trans <|
    (W9_of_ne m c main_arg8 (by decide)).trans <|
    (W8_of m c main_arg8 (by decide)).trans <|
    (W7_of_ne m c main_arg8 (by decide)).trans <|
    (W6_of_ne m c main_arg8 (by decide)).trans <|
    (W5_of m c main_arg8 (by decide)).trans <|
    (W4_of_ne m c main_arg8 (by decide)).trans <|
    (W3_of m c main_arg8 (by decide)).trans <|
    (W2_of m c main_arg8 (by decide)).trans <|
    (W1_of m c main_arg8 (by decide)).trans <| rfl
theorem W12_main_arg2 : W12 m c (Proc.devRef .tc main_arg2) = m ((c : Thread nD τ).loc main_arg2) :=
  (W12_of_ne m c main_arg2 (by decide)).trans <|
    (W11_of m c main_arg2 (by decide)).trans <|
    (W10_of_ne m c main_arg2 (by decide)).trans <|
    (W9_of_ne m c main_arg2 (by decide)).trans <|
    (W8_of m c main_arg2 (by decide)).trans <|
    (W7_of_ne m c main_arg2 (by decide)).trans <|
    (W6_of_ne m c main_arg2 (by decide)).trans <|
    (W5_of m c main_arg2 (by decide)).trans <|
    (W4_of_ne m c main_arg2 (by decide)).trans <|
    (W3_of m c main_arg2 (by decide)).trans <|
    (W2_of m c main_arg2 (by decide)).trans <|
    (W1_of m c main_arg2 (by decide)).trans <| rfl
theorem W15_main_arg0 : W15 m c (Proc.devRef .tc main_arg0) = m ((c : Thread nD τ).loc main_arg0) :=
  (W15_of m c main_arg0 (by decide)).trans <|
    (W14_of_ne m c main_arg0 (by decide)).trans <|
    (W13_of m c main_arg0 (by decide)).trans <|
    (W12_of_ne m c main_arg0 (by decide)).trans <|
    (W11_of m c main_arg0 (by decide)).trans <|
    (W10_of_ne m c main_arg0 (by decide)).trans <|
    (W9_of_ne m c main_arg0 (by decide)).trans <|
    (W8_of m c main_arg0 (by decide)).trans <|
    (W7_of_ne m c main_arg0 (by decide)).trans <|
    (W6_of_ne m c main_arg0 (by decide)).trans <|
    (W5_of m c main_arg0 (by decide)).trans <|
    ((W4_arr m c 0).trans (((dat0 (Vr3 m) c).arrAt_in 0 rfl _).trans (A_eq0 (Vr3 m) c 0))).trans <|
    (W3_of m c main_arg0 (by decide)).trans <|
    (W2_of m c main_arg0 (by decide)).trans <|
    (W1_of m c main_arg0 (by decide)).trans <| rfl
theorem W15_main_arg1 : W15 m c (Proc.devRef .tc main_arg1) = m ((c : Thread nD τ).loc main_arg1) :=
  (W15_of m c main_arg1 (by decide)).trans <|
    (W14_of_ne m c main_arg1 (by decide)).trans <|
    (W13_of m c main_arg1 (by decide)).trans <|
    (W12_of_ne m c main_arg1 (by decide)).trans <|
    (W11_of m c main_arg1 (by decide)).trans <|
    (W10_of_ne m c main_arg1 (by decide)).trans <|
    (W9_of_ne m c main_arg1 (by decide)).trans <|
    (W8_of m c main_arg1 (by decide)).trans <|
    (W7_of_ne m c main_arg1 (by decide)).trans <|
    (W6_of_ne m c main_arg1 (by decide)).trans <|
    (W5_of m c main_arg1 (by decide)).trans <|
    (W4_of_ne m c main_arg1 (by decide)).trans <|
    (W3_of m c main_arg1 (by decide)).trans <|
    (W2_of m c main_arg1 (by decide)).trans <|
    (W1_of m c main_arg1 (by decide)).trans <| rfl
theorem W15_main_arg2 : W15 m c (Proc.devRef .tc main_arg2) = m ((c : Thread nD τ).loc main_arg2) :=
  (W15_of m c main_arg2 (by decide)).trans <|
    (W14_of_ne m c main_arg2 (by decide)).trans <|
    (W13_of m c main_arg2 (by decide)).trans <|
    (W12_of_ne m c main_arg2 (by decide)).trans <|
    (W11_of m c main_arg2 (by decide)).trans <|
    (W10_of_ne m c main_arg2 (by decide)).trans <|
    (W9_of_ne m c main_arg2 (by decide)).trans <|
    (W8_of m c main_arg2 (by decide)).trans <|
    (W7_of_ne m c main_arg2 (by decide)).trans <|
    (W6_of_ne m c main_arg2 (by decide)).trans <|
    (W5_of m c main_arg2 (by decide)).trans <|
    (W4_of_ne m c main_arg2 (by decide)).trans <|
    (W3_of m c main_arg2 (by decide)).trans <|
    (W2_of m c main_arg2 (by decide)).trans <|
    (W1_of m c main_arg2 (by decide)).trans <| rfl
theorem W15_main_arg3 : W15 m c (Proc.devRef .tc main_arg3) = m ((c : Thread nD τ).loc main_arg3) :=
  (W15_of m c main_arg3 (by decide)).trans <|
    (W14_of_ne m c main_arg3 (by decide)).trans <|
    (W13_of m c main_arg3 (by decide)).trans <|
    (W12_of_ne m c main_arg3 (by decide)).trans <|
    (W11_of m c main_arg3 (by decide)).trans <|
    (W10_of_ne m c main_arg3 (by decide)).trans <|
    (W9_of_ne m c main_arg3 (by decide)).trans <|
    (W8_of m c main_arg3 (by decide)).trans <|
    (W7_of_ne m c main_arg3 (by decide)).trans <|
    (W6_of_ne m c main_arg3 (by decide)).trans <|
    (W5_of m c main_arg3 (by decide)).trans <|
    ((W4_arr m c 1).trans (((dat0 (Vr3 m) c).arrAt_in 1 rfl _).trans (A_eq0 (Vr3 m) c 1))).trans <|
    (W3_of m c main_arg3 (by decide)).trans <|
    (W2_of m c main_arg3 (by decide)).trans <|
    (W1_of m c main_arg3 (by decide)).trans <| rfl
theorem W15_main_arg4 : W15 m c (Proc.devRef .tc main_arg4) = m ((c : Thread nD τ).loc main_arg4) :=
  (W15_of m c main_arg4 (by decide)).trans <|
    (W14_of_ne m c main_arg4 (by decide)).trans <|
    (W13_of m c main_arg4 (by decide)).trans <|
    (W12_of_ne m c main_arg4 (by decide)).trans <|
    (W11_of m c main_arg4 (by decide)).trans <|
    (W10_of_ne m c main_arg4 (by decide)).trans <|
    (W9_of_ne m c main_arg4 (by decide)).trans <|
    (W8_of m c main_arg4 (by decide)).trans <|
    (W7_of_ne m c main_arg4 (by decide)).trans <|
    (W6_of_ne m c main_arg4 (by decide)).trans <|
    (W5_of m c main_arg4 (by decide)).trans <|
    (W4_of_ne m c main_arg4 (by decide)).trans <|
    (W3_of m c main_arg4 (by decide)).trans <|
    (W2_of m c main_arg4 (by decide)).trans <|
    (W1_of m c main_arg4 (by decide)).trans <| rfl
theorem W15_main_arg5 : W15 m c (Proc.devRef .tc main_arg5) = m ((c : Thread nD τ).loc main_arg5) :=
  (W15_of m c main_arg5 (by decide)).trans <|
    (W14_of_ne m c main_arg5 (by decide)).trans <|
    (W13_of m c main_arg5 (by decide)).trans <|
    (W12_of_ne m c main_arg5 (by decide)).trans <|
    (W11_of m c main_arg5 (by decide)).trans <|
    (W10_of_ne m c main_arg5 (by decide)).trans <|
    (W9_of_ne m c main_arg5 (by decide)).trans <|
    (W8_of m c main_arg5 (by decide)).trans <|
    ((W7_arr m c 1).trans (((dat2 (Vr6 m) c).arrAt_in 1 rfl _).trans (A_eq2 (Vr6 m) c 1))).trans <|
    (W6_of_ne m c main_arg5 (by decide)).trans <|
    (W5_of m c main_arg5 (by decide)).trans <|
    (W4_of_ne m c main_arg5 (by decide)).trans <|
    (W3_of m c main_arg5 (by decide)).trans <|
    (W2_of m c main_arg5 (by decide)).trans <|
    (W1_of m c main_arg5 (by decide)).trans <| rfl
theorem W15_main_arg6 : W15 m c (Proc.devRef .tc main_arg6) = m ((c : Thread nD τ).loc main_arg6) :=
  (W15_of m c main_arg6 (by decide)).trans <|
    (W14_of_ne m c main_arg6 (by decide)).trans <|
    (W13_of m c main_arg6 (by decide)).trans <|
    (W12_of_ne m c main_arg6 (by decide)).trans <|
    (W11_of m c main_arg6 (by decide)).trans <|
    (W10_of_ne m c main_arg6 (by decide)).trans <|
    (W9_of_ne m c main_arg6 (by decide)).trans <|
    (W8_of m c main_arg6 (by decide)).trans <|
    (W7_of_ne m c main_arg6 (by decide)).trans <|
    (W6_of_ne m c main_arg6 (by decide)).trans <|
    (W5_of m c main_arg6 (by decide)).trans <|
    (W4_of_ne m c main_arg6 (by decide)).trans <|
    (W3_of m c main_arg6 (by decide)).trans <|
    (W2_of m c main_arg6 (by decide)).trans <|
    (W1_of m c main_arg6 (by decide)).trans <| rfl
theorem W15_main_arg7 : W15 m c (Proc.devRef .tc main_arg7) = m ((c : Thread nD τ).loc main_arg7) :=
  (W15_of m c main_arg7 (by decide)).trans <|
    (W14_of_ne m c main_arg7 (by decide)).trans <|
    (W13_of m c main_arg7 (by decide)).trans <|
    (W12_of_ne m c main_arg7 (by decide)).trans <|
    (W11_of m c main_arg7 (by decide)).trans <|
    ((W10_arr m c 1).trans (((dat4 (Vr9 m) c).arrAt_in 1 rfl _).trans (A_eq4 (Vr9 m) c 1))).trans <|
    (W9_of_ne m c main_arg7 (by decide)).trans <|
    (W8_of m c main_arg7 (by decide)).trans <|
    (W7_of_ne m c main_arg7 (by decide)).trans <|
    (W6_of_ne m c main_arg7 (by decide)).trans <|
    (W5_of m c main_arg7 (by decide)).trans <|
    (W4_of_ne m c main_arg7 (by decide)).trans <|
    (W3_of m c main_arg7 (by decide)).trans <|
    (W2_of m c main_arg7 (by decide)).trans <|
    (W1_of m c main_arg7 (by decide)).trans <| rfl
theorem W15_main_arg8 : W15 m c (Proc.devRef .tc main_arg8) = m ((c : Thread nD τ).loc main_arg8) :=
  (W15_of m c main_arg8 (by decide)).trans <|
    (W14_of_ne m c main_arg8 (by decide)).trans <|
    (W13_of m c main_arg8 (by decide)).trans <|
    (W12_of_ne m c main_arg8 (by decide)).trans <|
    (W11_of m c main_arg8 (by decide)).trans <|
    (W10_of_ne m c main_arg8 (by decide)).trans <|
    (W9_of_ne m c main_arg8 (by decide)).trans <|
    (W8_of m c main_arg8 (by decide)).trans <|
    (W7_of_ne m c main_arg8 (by decide)).trans <|
    (W6_of_ne m c main_arg8 (by decide)).trans <|
    (W5_of m c main_arg8 (by decide)).trans <|
    (W4_of_ne m c main_arg8 (by decide)).trans <|
    (W3_of m c main_arg8 (by decide)).trans <|
    (W2_of m c main_arg8 (by decide)).trans <|
    (W1_of m c main_arg8 (by decide)).trans <| rfl

end Cert.Kernel.Hand

end
-- ==== Proof.K.Run.lean ====
/- The run of the kernel program: @main as the list of its fifteen items (eight stretches of host operations,
  seven kernel regions), each entered from what the one before left; the launch; and, read against the final state, every
  unscoped buffer at the last boundary's contents `W15`; with each argument array read back through the fold unchanged (the
  table in the neighbouring module), that is the frame claim.
-/
import proofs.«402628_j81466939670848_1_alg».proof.Proof.K.Seg0
import proofs.«402628_j81466939670848_1_alg».proof.Proof.K.Seg1
import proofs.«402628_j81466939670848_1_alg».proof.Proof.K.Seg2
import proofs.«402628_j81466939670848_1_alg».proof.Proof.K.Seg3
import proofs.«402628_j81466939670848_1_alg».proof.Proof.K.Seg4
import proofs.«402628_j81466939670848_1_alg».proof.Proof.K.Seg5
import proofs.«402628_j81466939670848_1_alg».proof.Proof.K.Seg6
import proofs.«402628_j81466939670848_1_alg».proof.Proof.K.Kept

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- @main's fifteen items in order. -/
abbrev segsH : List (Pipeline.Seg (pcfgs (F := F)) admH (pdats m) () defs₀ 𝒱H LH lvH) :=
  [ .host (hsegH hostOps0 hostOps0_sub hostOps0_fresh (W0 m)),
    .host (hsegH hostOps0_1 hostOps0_1_sub hostOps0_1_fresh (W1 m)),
    .host (hsegH hostOps0_2 hostOps0_2_sub hostOps0_2_fresh (W2 m)),
    .region (reg0 m),
    .host (hsegH hostOps1 hostOps1_sub hostOps1_fresh (W4 m)),
    .region (reg1 m),
    .region (reg2 m),
    .host (hsegH hostOps3 hostOps3_sub hostOps3_fresh (W7 m)),
    .region (reg3 m),
    .region (reg4 m),
    .host (hsegH hostOps5 hostOps5_sub hostOps5_fresh (W10 m)),
    .region (reg5 m),
    .host (hsegH hostOps6 hostOps6_sub hostOps6_fresh (W12 m)),
    .region (reg6 m),
    .host (hsegH hostOps7 hostOps7_sub hostOps7_fresh (W14 m)) ]

/-- @main IS the run of the items. -/
theorem main_run (c : Dev nD) : main (F := F) c = Pipeline.Seg.run (segsH m) := (main_chain c).trans (by chain_rfl)

set_option backward.isDefEq.respectTransparency.types false in
/-- From any memory with zero counters, every weakly fair execution of @main on the TensorCores terminates, nothing
    faulting, and in every final state each unscoped buffer holds the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W15 m c b) :=
  Pipeline.θ_run_regions_kit (pcfgs (F := F)) admH (pdats m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c))
    (Tₙ := fun c => iprop(StableHlo.held (c : Thread nD τ) (Pipeline.ucRefs τ sig) (W15 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (W15 m c) ∗ RH c) ⊢ _
        iintro ⟨Hh, Hp, Ho⟩
        isplitl [Hh Hp]
        · isplitl [Hh]; · iexact Hh
          iexact Hp
        iexact Ho⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := fun s h c => h c)

/-- The frame claim's post: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_ucH main_arg0 (by decide))).trans (W15_main_arg0 m c),
    (h c _ (mem_ucH main_arg1 (by decide))).trans (W15_main_arg1 m c),
    (h c _ (mem_ucH main_arg2 (by decide))).trans (W15_main_arg2 m c),
    (h c _ (mem_ucH main_arg3 (by decide))).trans (W15_main_arg3 m c),
    (h c _ (mem_ucH main_arg4 (by decide))).trans (W15_main_arg4 m c),
    (h c _ (mem_ucH main_arg5 (by decide))).trans (W15_main_arg5 m c),
    (h c _ (mem_ucH main_arg6 (by decide))).trans (W15_main_arg6 m c),
    (h c _ (mem_ucH main_arg7 (by decide))).trans (W15_main_arg7 m c),
    (h c _ (mem_ucH main_arg8 (by decide))).trans (W15_main_arg8 m c)⟩) (run_all m ρ)

end Cert.Kernel.Hand

end
-- ==== Proof.KI.Reg0.lean ====
/- Region 0 of the program (the first dense layer's product: a block of rows of x by the whole of W1), at the buffer contents `V` the region is entered from:
  the block each window hands the body at a grid point, what the body leaves in the output window's buffer (its one
  store, a function of the two input blocks), the body's triple, and the pipeline's proof data with its body
  obligation at every point. -/
import proofs.«402628_j81466939670848_1_alg».proof.Proof.Gen.KernelIdeal.Launch
import proofs.«402628_j81466939670848_1_alg».proof.Proof.Gen.KernelIdeal.Skeleton
import proofs.«402628_j81466939670848_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (unfetched, the block
    index has not moved), for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads and stores through: each the whole buffer. -/
abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0
abbrev r0_2 : Rect S10000x128 := Rect.unit (s := S10000x128) ![0, 0] S10000x128.size inb_S10000x128_S10000x128_0_0

/-- What the body leaves in the output window's buffer, from the two input blocks: its one store. -/
def out0_2 (x0 : Vec F S10000x128 .f32) (x1 : Vec F S128x128 .f32) : Vec F S10000x128 .f32 :=
  View.canon [⟨r0_2, k0_pay1 (View.ld x0 r0_0) (View.ld x1 r0_1)⟩]

/-- The store covers the buffer. -/
theorem cover0_2 (p0 : Vec F S10000x128 .f32) (y : S10000x128.Idx) :
    ∃ pc ∈ ([⟨r0_2, p0⟩] : List (View.Piece (Elt F) S10000x128 .f32)), y ∈ pc.1.set :=
  View.cover_of_tiled [⟨r0_2, p0⟩] S10000x128.size (by rfl) y

set_option maxHeartbeats 1000000 in
/-- The body on whole staging memrefs, the inputs' at contents `x0`, `x1` and the output's at anything, runs to
    the continuation holding the inputs' as they were and the output's at `out0_2 x0 x1`. -/
theorem sound_kernel0 (c : Dev nD) (i : grid0.Coords) (E : Set ℕ) (arg1 : Memref sig .tc .vmem S10000x128 .f32) (harg1 : arg1.IsWhole)
    (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t`
    each input's buffer at its block and the output's at `out0_2` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c _ Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/- Region 1 of the program (the first layer's bias row added to a block of aggregated rows, then the maximum with zero), at the buffer contents `V` the region is entered from:
  the block each window hands the body at a grid point, what the body leaves in the output window's buffer (its one
  store, a function of the two input blocks), the body's triple, and the pipeline's proof data with its body
  obligation at every point. -/
import proofs.«402628_j81466939670848_1_alg».proof.Proof.Gen.KernelIdeal.Launch
import proofs.«402628_j81466939670848_1_alg».proof.Proof.Gen.KernelIdeal.Skeleton
import proofs.«402628_j81466939670848_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (unfetched, the block
    index has not moved), for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads and stores through: each the whole buffer. -/
abbrev r1_0 : Rect S10000x128 := Rect.unit (s := S10000x128) ![0, 0] S10000x128.size inb_S10000x128_S10000x128_0_0
abbrev r1_1 : Rect S1x128 := Rect.unit (s := S1x128) ![0, 0] S1x128.size inb_S1x128_S1x128_0_0
abbrev r1_2 : Rect S10000x128 := Rect.unit (s := S10000x128) ![0, 0] S10000x128.size inb_S10000x128_S10000x128_0_0

/-- What the body leaves in the output window's buffer, from the two input blocks: its one store. -/
def out1_2 (x0 : Vec F S10000x128 .f32) (x1 : Vec F S1x128 .f32) : Vec F S10000x128 .f32 :=
  View.canon [⟨r1_2, k1_pay1 (View.ld x0 r1_0) (View.ld x1 r1_1)⟩]

/-- The store covers the buffer. -/
theorem cover1_2 (p0 : Vec F S10000x128 .f32) (y : S10000x128.Idx) :
    ∃ pc ∈ ([⟨r1_2, p0⟩] : List (View.Piece (Elt F) S10000x128 .f32)), y ∈ pc.1.set :=
  View.cover_of_tiled [⟨r1_2, p0⟩] S10000x128.size (by rfl) y

set_option maxHeartbeats 1000000 in
/-- The body on whole staging memrefs, the inputs' at contents `x0`, `x1` and the output's at anything, runs to
    the continuation holding the inputs' as they were and the output's at `out1_2 x0 x1`. -/
theorem sound_kernel1 (c : Dev nD) (i : grid1.Coords) (E : Set ℕ) (arg1 : Memref sig .tc .vmem S10000x128 .f32) (harg1 : arg1.IsWhole)
    (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 0 on core `c`: the arrays as the region finds them; after the body at point `t`
    each input's buffer at its block and the output's at `out1_2` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c _ Set.univ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/- Region 2 of the program (the second dense layer's product: a block of rows of the first layer's output by the whole of W2), at the buffer contents `V` the region is entered from:
  the block each window hands the body at a grid point, what the body leaves in the output window's buffer (its one
  store, a function of the two input blocks), the body's triple, and the pipeline's proof data with its body
  obligation at every point. -/
import proofs.«402628_j81466939670848_1_alg».proof.Proof.Gen.KernelIdeal.Launch
import proofs.«402628_j81466939670848_1_alg».proof.Proof.Gen.KernelIdeal.Skeleton
import proofs.«402628_j81466939670848_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not (unfetched, the block
    index has not moved), for any proof data over `V`'s arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body loads and stores through: each the whole buffer. -/
abbrev r2_0 : Rect S10000x128 := Rect.unit (s := S10000x128) ![0, 0] S10000x128.size inb_S10000x128_S10000x128_0_0
abbrev r2_1 : Rect S128x128 := Rect.unit (s := S128x128) ![0, 0] S128x128.size inb_S128x128_S128x128_0_0
abbrev r2_2 : Rect S10000x128 := Rect.unit (s := S10000x128) ![0, 0] S10000x128.size inb_S10000x128_S10000x128_0_0

/-- What the body leaves in the output window's buffer, from the two input blocks: its one store. -/
def out2_2 (x0 : Vec F S10000x128 .f32) (x1 : Vec F S128x128 .f32) : Vec F S10000x128 .f32 :=
  View.canon [⟨r2_2, k2_pay1 (View.ld x0 r2_0) (View.ld x1 r2_1)⟩]

/-- The store covers the buffer. -/
theorem cover2_2 (p0 : Vec F S10000x128 .f32) (y : S10000x128.Idx) :
    ∃ pc ∈ ([⟨r2_2, p0⟩] : List (View.Piece (Elt F) S10000x128 .f32)), y ∈ pc.1.set :=
  View.cover_of_tiled [⟨r2_2, p0⟩] S10000x128.size (by rfl) y

set_option maxHeartbeats 1000000 in
/-- The body on whole staging memrefs, the inputs' at contents `x0`, `x1` and the output's at anything, runs to
    the continuation holding the inputs' as they were and the output's at `out2_2 x0 x1`. -/
theorem sound_kernel2 (c : Dev nD) (i : grid2.Coords) (E : Set ℕ) (arg1 : Memref sig .tc .vmem S10000x128 .f32) (harg1 : arg1.IsWhole)
    (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 0 on core `c`: the arrays as the region finds them; after the body at point `t`
    each input's buffer at its block and the output's at `out2_2` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c _ Set.univ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/- Region 3 of the program (the second layer's bias row added to a block of aggregated rows, then the maximum with zero), at the buffer contents `V` the region is entered from:
  the block each window hands the body at a grid point, what the body leaves in the output window's buffer (its one
  store, a function of the two input blocks), the body's triple, and the pipeline's proof data with its body
  obligation at every point. -/
import proofs.«402628_j81466939670848_1_alg».proof.Proof.Gen.KernelIdeal.Launch
import proofs.«402628_j81466939670848_1_alg».proof.Proof.Gen.KernelIdeal.Skeleton
import proofs.«402628_j81466939670848_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point, fetched there or not (unfetched, the block
    index has not moved), for any proof data over `V`'s arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body loads and stores through: each the whole buffer. -/
abbrev r3_0 : Rect S10000x128 := Rect.unit (s := S10000x128) ![0, 0] S10000x128.size inb_S10000x128_S10000x128_0_0
abbrev r3_1 : Rect S1x128 := Rect.unit (s := S1x128) ![0, 0] S1x128.size inb_S1x128_S1x128_0_0
abbrev r3_2 : Rect S10000x128 := Rect.unit (s := S10000x128) ![0, 0] S10000x128.size inb_S10000x128_S10000x128_0_0

/-- What the body leaves in the output window's buffer, from the two input blocks: its one store. -/
def out3_2 (x0 : Vec F S10000x128 .f32) (x1 : Vec F S1x128 .f32) : Vec F S10000x128 .f32 :=
  View.canon [⟨r3_2, k3_pay1 (View.ld x0 r3_0) (View.ld x1 r3_1)⟩]

/-- The store covers the buffer. -/
theorem cover3_2 (p0 : Vec F S10000x128 .f32) (y : S10000x128.Idx) :
    ∃ pc ∈ ([⟨r3_2, p0⟩] : List (View.Piece (Elt F) S10000x128 .f32)), y ∈ pc.1.set :=
  View.cover_of_tiled [⟨r3_2, p0⟩] S10000x128.size (by rfl) y

set_option maxHeartbeats 1000000 in
/-- The body on whole staging memrefs, the inputs' at contents `x0`, `x1` and the output's at anything, runs to
    the continuation holding the inputs' as they were and the output's at `out3_2 x0 x1`. -/
theorem sound_kernel3 (c : Dev nD) (i : grid3.Coords) (E : Set ℕ) (arg1 : Memref sig .tc .vmem S10000x128 .f32) (harg1 : arg1.IsWhole)
    (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 0 on core `c`: the arrays as the region finds them; after the body at point `t`
    each input's buffer at its block and the output's at `out3_2` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c _ Set.univ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/- Region 4 of the program (the third dense layer's product: a block of rows of the second layer's output by the whole of W3), at the buffer contents `V` the region is entered from:
  the block each window hands the body at a grid point, what the body leaves in the output window's buffer (its one
  store, a function of the two input blocks), the body's triple, and the pipeline's proof data with its body
  obligation at every point. -/
import proofs.«402628_j81466939670848_1_alg».proof.Proof.Gen.KernelIdeal.Launch
import proofs.«402628_j81466939670848_1_alg».proof.Proof.Gen.KernelIdeal.Skeleton
import proofs.«402628_j81466939670848_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current buffer holds its block at every point, fetched there or not (unfetched, the block
    index has not moved), for any proof data over `V`'s arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The rectangles the body loads and stores through: each the whole buffer. -/
abbrev r4_0 : Rect S10000x128 := Rect.unit (s := S10000x128) ![0, 0] S10000x128.size inb_S10000x128_S10000x128_0_0
abbrev r4_1 : Rect S128x64 := Rect.unit (s := S128x64) ![0, 0] S128x64.size inb_S128x64_S128x64_0_0
abbrev r4_2 : Rect S10000x64 := Rect.unit (s := S10000x64) ![0, 0] S10000x64.size inb_S10000x64_S10000x64_0_0

/-- What the body leaves in the output window's buffer, from the two input blocks: its one store. -/
def out4_2 (x0 : Vec F S10000x128 .f32) (x1 : Vec F S128x64 .f32) : Vec F S10000x64 .f32 :=
  View.canon [⟨r4_2, k4_pay1 (View.ld x0 r4_0) (View.ld x1 r4_1)⟩]

/-- The store covers the buffer. -/
theorem cover4_2 (p0 : Vec F S10000x64 .f32) (y : S10000x64.Idx) :
    ∃ pc ∈ ([⟨r4_2, p0⟩] : List (View.Piece (Elt F) S10000x64 .f32)), y ∈ pc.1.set :=
  View.cover_of_tiled [⟨r4_2, p0⟩] S10000x64.size (by rfl) y

set_option maxHeartbeats 1000000 in
/-- The body on whole staging memrefs, the inputs' at contents `x0`, `x1` and the output's at anything, runs to
    the continuation holding the inputs' as they were and the output's at `out4_2 x0 x1`. -/
theorem sound_kernel4 (c : Dev nD) (i : grid4.Coords) (E : Set ℕ) (arg1 : Memref sig .tc .vmem S10000x128 .f32) (harg1 : arg1.IsWhole)
    (arg2 : Memref sig .tc .vmem S128x64 .f32) (harg2 : arg2.IsWhole) (arg3 : Memref sig .tc .vmem S10000x64 .f32) (harg3 : arg3.IsWhole)
    (x0 : Vec F S10000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of pipeline 0 on core `c`: the arrays as the region finds them; after the body at point `t`
    each input's buffer at its block and the output's at `out4_2` of the input blocks; the invariant the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c _ Set.univ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
/- Region 5 of the program (the third layer's bias row added to a block of aggregated rows), at the buffer contents `V` the region is entered from:
  the block each window hands the body at a grid point, what the body leaves in the output window's buffer (its one
  store, a function of the two input blocks), the body's triple, and the pipeline's proof data with its body
  obligation at every point. -/
import proofs.«402628_j81466939670848_1_alg».proof.Proof.Gen.KernelIdeal.Launch
import proofs.«402628_j81466939670848_1_alg».proof.Proof.Gen.KernelIdeal.Skeleton
import proofs.«402628_j81466939670848_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current buffer holds its block at every point, fetched there or not (unfetched, the block
    index has not moved), for any proof data over `V`'s arrays whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The rectangles the body loads and stores through: each the whole buffer. -/
abbrev r5_0 : Rect S10000x64 := Rect.unit (s := S10000x64) ![0, 0] S10000x64.size inb_S10000x64_S10000x64_0_0
abbrev r5_1 : Rect S1x64 := Rect.unit (s := S1x64) ![0, 0] S1x64.size inb_S1x64_S1x64_0_0
abbrev r5_2 : Rect S10000x64 := Rect.unit (s := S10000x64) ![0, 0] S10000x64.size inb_S10000x64_S10000x64_0_0

/-- What the body leaves in the output window's buffer, from the two input blocks: its one store. -/
def out5_2 (x0 : Vec F S10000x64 .f32) (x1 : Vec F S1x64 .f32) : Vec F S10000x64 .f32 :=
  View.canon [⟨r5_2, k5_pay1 (View.ld x0 r5_0) (View.ld x1 r5_1)⟩]

/-- The store covers the buffer. -/
theorem cover5_2 (p0 : Vec F S10000x64 .f32) (y : S10000x64.Idx) :
    ∃ pc ∈ ([⟨r5_2, p0⟩] : List (View.Piece (Elt F) S10000x64 .f32)), y ∈ pc.1.set :=
  View.cover_of_tiled [⟨r5_2, p0⟩] S10000x64.size (by rfl) y

set_option maxHeartbeats 1000000 in
/-- The body on whole staging memrefs, the inputs' at contents `x0`, `x1` and the output's at anything, runs to
    the continuation holding the inputs' as they were and the output's at `out5_2 x0 x1`. -/
theorem sound_kernel5 (c : Dev nD) (i : grid5.Coords) (E : Set ℕ) (arg1 : Memref sig .tc .vmem S10000x64 .f32) (harg1 : arg1.IsWhole)
    (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5_kernel i arg1 harg1 arg2 harg2 arg3 harg3) K := by
  simp only [cc5_kernel_eq_skeleton]; unfold cc5_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The proof data of pipeline 0 on core `c`: the arrays as the region finds them; after the body at point `t`
    each input's buffer at its block and the output's at `out5_2` of the input blocks; the invariant the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c _ Set.univ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
/-
  Region 6 of the idealized kernel program (the pooling kernel), at the buffer contents `V` the region is entered
  from. The body keeps two running accumulators in scratch buffers: a [128, 64] array of per-graph sums and a
  [1, 128] row of per-graph counts. At the first grid point it resets both; at every point it adds the point's
  contribution (a function of the point's block of node rows and of graph ids); at the last point it copies both
  accumulators to the output windows. So there are three control cases (first, middle, last), the accumulators after
  `n` points are a fold over the points' blocks (`sums6`, `cnts6`), and the output windows are idle until the last
  point, where they receive the fold over all points.
-/
import proofs.«402628_j81466939670848_1_alg».proof.Proof.Gen.KernelIdeal.Launch
import proofs.«402628_j81466939670848_1_alg».proof.Proof.Gen.KernelIdeal.Skeleton
import proofs.«402628_j81466939670848_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's two conditions, decided over the grid -/

/-- "This is the first grid point", as the body computes it. -/
abbrev first6 (i : grid6.Coords) : Prop :=
  (Scalar.cmpi .ne (Scalar.extui (Scalar.cmpi .eq (BitVec.ofNat 32 (i 0).val) 0#32)) 0#32) = 1#1
theorem first6_iff : ∀ t : Fin cfg6.N, first6 (grid6.coords t) ↔ t.val = 0 :=
  (by decide +kernel : ∀ t : Fin grid6.N, first6 (grid6.coords t) ↔ t.val = 0)
/-- "This is the last grid point" (the printed condition `k6_cond2`). -/
theorem last6_iff : ∀ t : Fin cfg6.N, k6_cond2 (grid6.coords t) = 1#1 ↔ t.val = 4 :=
  (by decide +kernel : ∀ t : Fin grid6.N, k6_cond2 (grid6.coords t) = 1#1 ↔ t.val = 4)
/-- The output windows are idle exactly before the last point, and written back exactly at it. -/
theorem idle6_2 : ∀ t : Fin cfg6.N, cfg6.idle 2 (cfg6.grid.coords t) = !decide (t.val = 4) :=
  (by decide +kernel : ∀ t : Fin grid6.N, idle6 2 (grid6.coords t) = !decide (t.val = 4))
theorem idle6_3 : ∀ t : Fin cfg6.N, cfg6.idle 3 (cfg6.grid.coords t) = !decide (t.val = 4) :=
  (by decide +kernel : ∀ t : Fin grid6.N, idle6 3 (grid6.coords t) = !decide (t.val = 4))
theorem flushes6_2 : ∀ t : Fin cfg6.N, (cfg6.win 2).flush t = decide (t.val = 4) :=
  (by decide +kernel : ∀ t : Fin grid6.N, win6_2.flush t = decide (t.val = 4))
theorem flushes6_3 : ∀ t : Fin cfg6.N, (cfg6.win 3).flush t = decide (t.val = 4) :=
  (by decide +kernel : ∀ t : Fin grid6.N, win6_3.flush t = decide (t.val = 4))

/-! ## Reading back a buffer whose last store wrote it whole -/

theorem hz2 : (![0, 0] : Fin 2 → Nat) = fun _ => 0 := funext fun a => by fin_cases a <;> rfl

/-- After a list of stores of which the LAST (the head) wrote the whole buffer, the buffer holds that store's value. -/
theorem read_writes_head_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-- Closes "the buffer now holds this payload": the last store wrote it whole; loads through the whole rectangle read
    the contents, and a load after a whole store reads that store's value. -/
macro "pool_read" : tactic => `(tactic| (
  first
  | rfl
  | (simp only [read_writes_head_whole (S := S128x64) _ _ hz2, read_writes_head_whole (S := S1x128) _ _ hz2, View.readAt_eq_ld, View.ld_unit_zero (S := S10000x1) hz2,
      View.ld_unit_zero (S := S10000x64) hz2, View.ld_unit_zero (S := S128x64) hz2, View.ld_unit_zero (S := S1x128) hz2,
      View.readCov_unit_zero (S := S128x64) _ hz2, View.readCov_unit_zero (S := S1x128) _ hz2]) ))

/-! ## The body's triple, case by case -/

set_option maxHeartbeats 4000000 in
/-- The FIRST point: the accumulators, found at anything, are reset and then updated; the output windows' buffers are left as found. -/
theorem sound_kernel6_first (c : Dev nD) (i : grid6.Coords) (E : Set ℕ)
  (arg1 : Memref sig .tc .vmem S10000x64 .f32) (harg1 : arg1.IsWhole) (arg2 : Memref sig .tc .vmem S10000x1 .i32) (harg2 : arg2.IsWhole)
  (arg3 : Memref sig .tc .vmem S128x64 .f32) (harg3 : arg3.IsWhole) (arg4 : Memref sig .tc .vmem S1x128 .f32) (harg4 : arg4.IsWhole)
  (arg5 : Memref sig .tc .vmem S128x64 .f32) (harg5 : arg5.IsWhole) (arg6 : Memref sig .tc .vmem S1x128 .f32) (harg6 : arg6.IsWhole)
  (x0 : Vec F S10000x64 .f32) (x1 : Vec F S10000x1 .i32) (d3 : Vec F S128x64 .f32) (d4 : Vec F S1x128 .f32)
  (s0 : Vec F S128x64 .f32) (s1 : Vec F S1x128 .f32) (K : PUnit → sProp 𝕄)
    (h1 : first6 i) (h2 : ¬ k6_cond2 i = 1#1) :
    iprop(owns (c : Thread nD τ) arg1 fullShare x0 ∗ owns (c : Thread nD τ) arg2 fullShare x1
        ∗ owns (c : Thread nD τ) arg3 fullShare d3 ∗ owns (c : Thread nD τ) arg4 fullShare d4
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d3 ∗ owns (c : Thread nD τ) arg4 fullShare d4
            ∗ owns (c : Thread nD τ) arg5 fullShare (k6_pay4 x1 x0 k6_pay1) ∗ owns (c : Thread nD τ) arg6 fullShare (k6_pay5 x1 k6_pay2)) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f0, %hf0, H0⟩, ⟨%f1, %hf1, H1⟩, ⟨%f3, %hf3, H3⟩, ⟨%f4, %hf4, H4⟩, ⟨%f5, %hf5, H5⟩, ⟨%f6, %hf6, H6⟩, Hk⟩
  subst hf0; subst hf1; subst hf3; subst hf4; subst hf5; subst hf6
  sl_exec (disch := first | exact h1 | exact h2)
  sl_step
  iapply Hk
  isplitl [H0]
  · iexists _; isplitr; swap; · iexact H0
    ipureintro; rfl
  isplitl [H1]
  · iexists _; isplitr; swap; · iexact H1
    ipureintro; rfl
  isplitl [H3]
  · iexists _; isplitr; swap; · iexact H3
    ipureintro; sl_unfold_words; pool_read
  isplitl [H4]
  · iexists _; isplitr; swap; · iexact H4
    ipureintro; sl_unfold_words; pool_read
  isplitl [H5]
  · iexists _; isplitr; swap; · iexact H5
    ipureintro; sl_unfold_words; pool_read
  · iexists _; isplitr; swap; · iexact H6
    ipureintro; sl_unfold_words; pool_read

set_option maxHeartbeats 4000000 in
/-- A MIDDLE point: the accumulators, found at `s0`, `s1`, are left at the point's update of them; everything else as found. -/
theorem sound_kernel6_mid (c : Dev nD) (i : grid6.Coords) (E : Set ℕ)
  (arg1 : Memref sig .tc .vmem S10000x64 .f32) (harg1 : arg1.IsWhole) (arg2 : Memref sig .tc .vmem S10000x1 .i32) (harg2 : arg2.IsWhole)
  (arg3 : Memref sig .tc .vmem S128x64 .f32) (harg3 : arg3.IsWhole) (arg4 : Memref sig .tc .vmem S1x128 .f32) (harg4 : arg4.IsWhole)
  (arg5 : Memref sig .tc .vmem S128x64 .f32) (harg5 : arg5.IsWhole) (arg6 : Memref sig .tc .vmem S1x128 .f32) (harg6 : arg6.IsWhole)
  (x0 : Vec F S10000x64 .f32) (x1 : Vec F S10000x1 .i32) (d3 : Vec F S128x64 .f32) (d4 : Vec F S1x128 .f32)
  (s0 : Vec F S128x64 .f32) (s1 : Vec F S1x128 .f32) (K : PUnit → sProp 𝕄)
    (h1 : ¬ first6 i) (h2 : ¬ k6_cond2 i = 1#1) :
    iprop(owns (c : Thread nD τ) arg1 fullShare x0 ∗ owns (c : Thread nD τ) arg2 fullShare x1
        ∗ owns (c : Thread nD τ) arg3 fullShare d3 ∗ owns (c : Thread nD τ) arg4 fullShare d4
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare d3 ∗ owns (c : Thread nD τ) arg4 fullShare d4
            ∗ owns (c : Thread nD τ) arg5 fullShare (k6_pay4 x1 x0 s0) ∗ owns (c : Thread nD τ) arg6 fullShare (k6_pay5 x1 s1)) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f0, %hf0, H0⟩, ⟨%f1, %hf1, H1⟩, ⟨%f3, %hf3, H3⟩, ⟨%f4, %hf4, H4⟩, ⟨%f5, %hf5, H5⟩, ⟨%f6, %hf6, H6⟩, Hk⟩
  subst hf0; subst hf1; subst hf3; subst hf4; subst hf5; subst hf6
  sl_exec (disch := first | exact h1 | exact h2)
  sl_step
  iapply Hk
  isplitl [H0]
  · iexists _; isplitr; swap; · iexact H0
    ipureintro; rfl
  isplitl [H1]
  · iexists _; isplitr; swap; · iexact H1
    ipureintro; rfl
  isplitl [H3]
  · iexists _; isplitr; swap; · iexact H3
    ipureintro; sl_unfold_words; pool_read
  isplitl [H4]
  · iexists _; isplitr; swap; · iexact H4
    ipureintro; sl_unfold_words; pool_read
  isplitl [H5]
  · iexists _; isplitr; swap; · iexact H5
    ipureintro; sl_unfold_words; pool_read
  · iexists _; isplitr; swap; · iexact H6
    ipureintro; sl_unfold_words; pool_read

set_option maxHeartbeats 4000000 in
/-- The LAST point: the accumulators are updated and then copied to the output windows' buffers. -/
theorem sound_kernel6_last (c : Dev nD) (i : grid6.Coords) (E : Set ℕ)
  (arg1 : Memref sig .tc .vmem S10000x64 .f32) (harg1 : arg1.IsWhole) (arg2 : Memref sig .tc .vmem S10000x1 .i32) (harg2 : arg2.IsWhole)
  (arg3 : Memref sig .tc .vmem S128x64 .f32) (harg3 : arg3.IsWhole) (arg4 : Memref sig .tc .vmem S1x128 .f32) (harg4 : arg4.IsWhole)
  (arg5 : Memref sig .tc .vmem S128x64 .f32) (harg5 : arg5.IsWhole) (arg6 : Memref sig .tc .vmem S1x128 .f32) (harg6 : arg6.IsWhole)
  (x0 : Vec F S10000x64 .f32) (x1 : Vec F S10000x1 .i32) (d3 : Vec F S128x64 .f32) (d4 : Vec F S1x128 .f32)
  (s0 : Vec F S128x64 .f32) (s1 : Vec F S1x128 .f32) (K : PUnit → sProp 𝕄)
    (h1 : ¬ first6 i) (h2 : k6_cond2 i = 1#1) :
    iprop(owns (c : Thread nD τ) arg1 fullShare x0 ∗ owns (c : Thread nD τ) arg2 fullShare x1
        ∗ owns (c : Thread nD τ) arg3 fullShare d3 ∗ owns (c : Thread nD τ) arg4 fullShare d4
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare (k6_pay4 x1 x0 s0) ∗ owns (c : Thread nD τ) arg4 fullShare (k6_pay5 x1 s1)
            ∗ owns (c : Thread nD τ) arg5 fullShare (k6_pay4 x1 x0 s0) ∗ owns (c : Thread nD τ) arg6 fullShare (k6_pay5 x1 s1)) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f0, %hf0, H0⟩, ⟨%f1, %hf1, H1⟩, ⟨%f3, %hf3, H3⟩, ⟨%f4, %hf4, H4⟩, ⟨%f5, %hf5, H5⟩, ⟨%f6, %hf6, H6⟩, Hk⟩
  subst hf0; subst hf1; subst hf3; subst hf4; subst hf5; subst hf6
  sl_exec (disch := first | exact h1 | exact h2)
  sl_step
  iapply Hk
  isplitl [H0]
  · iexists _; isplitr; swap; · iexact H0
    ipureintro; rfl
  isplitl [H1]
  · iexists _; isplitr; swap; · iexact H1
    ipureintro; rfl
  isplitl [H3]
  · iexists _; isplitr; swap; · iexact H3
    ipureintro; sl_unfold_words; pool_read
  isplitl [H4]
  · iexists _; isplitr; swap; · iexact H4
    ipureintro; sl_unfold_words; pool_read
  isplitl [H5]
  · iexists _; isplitr; swap; · iexact H5
    ipureintro; sl_unfold_words; pool_read
  · iexists _; isplitr; swap; · iexact H6
    ipureintro; sl_unfold_words; pool_read

/-! ## The running accumulators -/

/-- The per-graph sums after the first `n` grid points: zero at the start, each point adds its contribution. -/
def sums6 (c : Dev nD) : Nat → Vec F S128x64 .f32
  | 0 => k6_pay1
  | n + 1 => if h : n < cfg6.N then k6_pay4 (iblk6 V c 1 ⟨n, h⟩) (iblk6 V c 0 ⟨n, h⟩) (sums6 c n) else sums6 c n
/-- The per-graph counts after the first `n` grid points. -/
def cnts6 (c : Dev nD) : Nat → Vec F S1x128 .f32
  | 0 => k6_pay2
  | n + 1 => if h : n < cfg6.N then k6_pay5 (iblk6 V c 1 ⟨n, h⟩) (cnts6 c n) else cnts6 c n

theorem sums6_zero (c : Dev nD) : sums6 V c 0 = k6_pay1 := rfl
theorem cnts6_zero (c : Dev nD) : cnts6 V c 0 = k6_pay2 := rfl
theorem sums6_succ (c : Dev nD) (t : Fin cfg6.N) :
    sums6 V c (t.val + 1) = k6_pay4 (iblk6 V c 1 t) (iblk6 V c 0 t) (sums6 V c t.val) := by
  rw [sums6, dif_pos t.isLt]
theorem cnts6_succ (c : Dev nD) (t : Fin cfg6.N) :
    cnts6 V c (t.val + 1) = k6_pay5 (iblk6 V c 1 t) (cnts6 V c t.val) := by
  rw [cnts6, dif_pos t.isLt]

/-! ## The pipeline's proof data -/

/-- The two accumulators' buffers between points: at anything before the first point, at the running fold after. -/
def accs6 (c : Dev nD) (n : Nat) : sProp 𝕄 :=
  if n = 0 then iprop((∃ s, owns (c : Thread nD τ) (Memref.whole cc6_scratch0 : Memref sig .tc .vmem S128x64 .f32) fullShare s)
      ∗ (∃ s, owns (c : Thread nD τ) (Memref.whole cc6_scratch1 : Memref sig .tc .vmem S1x128 .f32) fullShare s))
  else iprop(owns (c : Thread nD τ) (Memref.whole cc6_scratch0 : Memref sig .tc .vmem S128x64 .f32) fullShare (sums6 V c n)
      ∗ owns (c : Thread nD τ) (Memref.whole cc6_scratch1 : Memref sig .tc .vmem S1x128 .f32) fullShare (cnts6 V c n))

/-- The proof data of pipeline 6 on core `c`: the arrays as the region finds them; the two input windows' buffers left
    at their blocks; the output windows' buffers, where a point writes them (the last), at the accumulators after that
    point; the invariant: the accumulators' buffers, every other scoped buffer, the generator register; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => sums6 V c (t.val + 1)
    | ⟨3, _⟩ => cnts6 V c (t.val + 1)
  Φ t := iprop(accs6 V c t.val
    ∗ Pipeline.scopedRestBut (Ix := Unit) (Name := ℕ) (U := UR sig nD τ) (Lvl := ℕ) (Val := Elt F) spec6 c [cc6_scratch0, cc6_scratch1]
    ∗ ∃ r, prngReg c r)
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = sums6 V c (t.val + 1) := by dsimp only [dat6]
theorem after6_3 (c : Dev nD) (t : Fin cfg6.N) : (dat6 V c).after 3 t = cnts6 V c (t.val + 1) := by dsimp only [dat6]
theorem Φ6_eq (c : Dev nD) (t : Fin (cfg6.N + 1)) : (dat6 V c).Φ t = iprop(accs6 V c t.val
    ∗ Pipeline.scopedRestBut (Ix := Unit) (Name := ℕ) (U := UR sig nD τ) (Lvl := ℕ) (Val := Elt F) spec6 c [cc6_scratch0, cc6_scratch1]
    ∗ ∃ r, prngReg c r) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation -/

/-- What the body is called with at point `t`, the windows one by one. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- What it returns at a point before the last: the output windows' buffers as found. -/
def bodyPostIdle6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ (∃ d, owns (c : Thread nD τ) (st6_2 t) fullShare ((dat6 V c).before 2 t d))
    ∗ (∃ d, owns (c : Thread nD τ) (st6_3 t) fullShare ((dat6 V c).before 3 t d)))

/-- What it returns at the last point: the output windows' buffers at the accumulators. -/
def bodyPostLast6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6_first (c : Dev nD) (t : Fin cfg6.N) (h0 : t.val = 0) :
    bodyPre6 V c t ⊢ wp frame (wpE (defs₀ (F := F)) Variants.none c none) Set.univ (bodyAt6 t) (fun _ => bodyPostIdle6 V c t) := by
  have hf : first6 (grid6.coords t) := (first6_iff t).mpr h0
  have hl : ¬ k6_cond2 (grid6.coords t) = 1#1 := fun h => by have := (last6_iff t).mp h; omega
  unfold bodyPre6 bodyPostIdle6 bodyAt6
  simp only [before6_0, before6_1]
  rw [show (dat6 V c).owesAt () t.succ = (dat6 V c).owesAt () t.castSucc from rfl, after6_0, after6_1, Φ6_eq, Φ6_eq]
  rw [show (t.castSucc : Fin (cfg6.N + 1)).val = 0 from h0, show (t.succ : Fin (cfg6.N + 1)).val = t.val + 1 from rfl]
  unfold accs6
  rw [if_pos rfl, if_neg (Nat.succ_ne_zero _), sums6_succ, cnts6_succ, h0, sums6_zero, cnts6_zero]
  iintro ⟨⟨⟨⟨%s0, Hs0⟩, ⟨%s1, Hs1⟩⟩, Hrest, Hp⟩, Ho, ⟨%d0, H0⟩, ⟨%d1, H1⟩, ⟨%d2, H2⟩, ⟨%d3, H3⟩⟩
  iapply (sound_kernel6_first c _ Set.univ _ _ _ _ _ _ _ _ _ _ _ _ (iblk6 V c 0 t) (iblk6 V c 1 t) _ _ s0 s1 _ hf hl)
  isplitl [H0]; · iexact H0
  isplitl [H1]; · iexact H1
  isplitl [H2]; · iexact H2
  isplitl [H3]; · iexact H3
  isplitl [Hs0]; · iexact Hs0
  isplitl [Hs1]; · iexact Hs1
  iintro ⟨H0, H1, H2, H3, Hs0, Hs1⟩
  isplitl [Hs0 Hs1 Hrest Hp]
  · isplitl [Hs0 Hs1]
    · isplitl [Hs0]; · iexact Hs0
      iexact Hs1
    isplitl [Hrest]; · iexact Hrest
    iexact Hp
  isplitl [Ho]; · iexact Ho
  isplitl [H0]; · iexact H0
  isplitl [H1]; · iexact H1
  isplitl [H2]; · iexists _; iexact H2
  iexists _; iexact H3

theorem sound_body6_mid (c : Dev nD) (t : Fin cfg6.N) (h0 : t.val ≠ 0) (h4 : t.val ≠ 4) :
    bodyPre6 V c t ⊢ wp frame (wpE (defs₀ (F := F)) Variants.none c none) Set.univ (bodyAt6 t) (fun _ => bodyPostIdle6 V c t) := by
  have hf : ¬ first6 (grid6.coords t) := fun h => h0 ((first6_iff t).mp h)
  have hl : ¬ k6_cond2 (grid6.coords t) = 1#1 := fun h => h4 ((last6_iff t).mp h)
  unfold bodyPre6 bodyPostIdle6 bodyAt6
  simp only [before6_0, before6_1]
  rw [show (dat6 V c).owesAt () t.succ = (dat6 V c).owesAt () t.castSucc from rfl, after6_0, after6_1, Φ6_eq, Φ6_eq]
  rw [show (t.castSucc : Fin (cfg6.N + 1)).val = t.val from rfl, show (t.succ : Fin (cfg6.N + 1)).val = t.val + 1 from rfl]
  unfold accs6
  rw [if_neg h0, if_neg (Nat.succ_ne_zero _), sums6_succ, cnts6_succ]
  iintro ⟨⟨⟨Hs0, Hs1⟩, Hrest, Hp⟩, Ho, ⟨%d0, H0⟩, ⟨%d1, H1⟩, ⟨%d2, H2⟩, ⟨%d3, H3⟩⟩
  iapply (sound_kernel6_mid c _ Set.univ _ _ _ _ _ _ _ _ _ _ _ _ (iblk6 V c 0 t) (iblk6 V c 1 t) _ _ (sums6 V c t.val) (cnts6 V c t.val) _ hf hl)
  isplitl [H0]; · iexact H0
  isplitl [H1]; · iexact H1
  isplitl [H2]; · iexact H2
  isplitl [H3]; · iexact H3
  isplitl [Hs0]; · iexact Hs0
  isplitl [Hs1]; · iexact Hs1
  iintro ⟨H0, H1, H2, H3, Hs0, Hs1⟩
  isplitl [Hs0 Hs1 Hrest Hp]
  · isplitl [Hs0 Hs1]
    · isplitl [Hs0]; · iexact Hs0
      iexact Hs1
    isplitl [Hrest]; · iexact Hrest
    iexact Hp
  isplitl [Ho]; · iexact Ho
  isplitl [H0]; · iexact H0
  isplitl [H1]; · iexact H1
  isplitl [H2]; · iexists _; iexact H2
  iexists _; iexact H3

theorem sound_body6_last (c : Dev nD) (t : Fin cfg6.N) (h4 : t.val = 4) :
    bodyPre6 V c t ⊢ wp frame (wpE (defs₀ (F := F)) Variants.none c none) Set.univ (bodyAt6 t) (fun _ => bodyPostLast6 V c t) := by
  have h0 : t.val ≠ 0 := by omega
  have hf : ¬ first6 (grid6.coords t) := fun h => h0 ((first6_iff t).mp h)
  have hl : k6_cond2 (grid6.coords t) = 1#1 := (last6_iff t).mpr h4
  unfold bodyPre6 bodyPostLast6 bodyAt6
  simp only [before6_0, before6_1]
  rw [show (dat6 V c).owesAt () t.succ = (dat6 V c).owesAt () t.castSucc from rfl, after6_0, after6_1, after6_2, after6_3, Φ6_eq, Φ6_eq]
  rw [show (t.castSucc : Fin (cfg6.N + 1)).val = t.val from rfl, show (t.succ : Fin (cfg6.N + 1)).val = t.val + 1 from rfl]
  unfold accs6
  rw [if_neg h0, if_neg (Nat.succ_ne_zero _), sums6_succ, cnts6_succ]
  iintro ⟨⟨⟨Hs0, Hs1⟩, Hrest, Hp⟩, Ho, ⟨%d0, H0⟩, ⟨%d1, H1⟩, ⟨%d2, H2⟩, ⟨%d3, H3⟩⟩
  iapply (sound_kernel6_last c _ Set.univ _ _ _ _ _ _ _ _ _ _ _ _ (iblk6 V c 0 t) (iblk6 V c 1 t) _ _ (sums6 V c t.val) (cnts6 V c t.val) _ hf hl)
  isplitl [H0]; · iexact H0
  isplitl [H1]; · iexact H1
  isplitl [H2]; · iexact H2
  isplitl [H3]; · iexact H3
  isplitl [Hs0]; · iexact Hs0
  isplitl [Hs1]; · iexact Hs1
  iintro ⟨H0, H1, H2, H3, Hs0, Hs1⟩
  isplitl [Hs0 Hs1 Hrest Hp]
  · isplitl [Hs0 Hs1]
    · isplitl [Hs0]; · iexact Hs0
      iexact Hs1
    isplitl [Hrest]; · iexact Hrest
    iexact Hp
  isplitl [Ho]; · iexact Ho
  isplitl [H0]; · iexact H0
  isplitl [H1]; · iexact H1
  isplitl [H2]; · iexact H2
  iexact H3

/-- The library's body obligation, at every point: by the point's control case. -/
theorem body_obligation6 (c : Dev nD) : BodyObligation (dat6 (F := F) V c) (defs₀ (F := F)) Variants.none () Set.univ := fun t => by
  rw [bigSep_W6, bigSep_W6]
  by_cases h4 : t.val = 4
  · have hi2 : cfg6.idle 2 (cfg6.grid.coords t) = false := by rw [idle6_2]; simp [h4]
    have hi3 : cfg6.idle 3 (cfg6.grid.coords t) = false := by rw [idle6_3]; simp [h4]
    rw [hi2]
    try rw [hi3]
    exact sound_body6_last V c t h4
  · have hi2 : cfg6.idle 2 (cfg6.grid.coords t) = true := by rw [idle6_2]; simp [h4]
    have hi3 : cfg6.idle 3 (cfg6.grid.coords t) = true := by rw [idle6_3]; simp [h4]
    have hf2 : (cfg6.win 2).flush t = false := by rw [flushes6_2]; simp [h4]
    have hf3 : (cfg6.win 3).flush t = false := by rw [flushes6_3]; simp [h4]
    rw [hi2]
    try rw [hi3]
    rw [hf2, hf3]
    by_cases h0 : t.val = 0
    · exact sound_body6_first V c t h0
    · exact sound_body6_mid V c t h0 h4

/-! ## The invariant at the region's two ends -/

theorem Φ6_zero (c : Dev nD) : (dat6 V c).Φ 0 = iprop(iprop((∃ s, owns (c : Thread nD τ) (Memref.whole cc6_scratch0 : Memref sig .tc .vmem S128x64 .f32) fullShare s)
      ∗ (∃ s, owns (c : Thread nD τ) (Memref.whole cc6_scratch1 : Memref sig .tc .vmem S1x128 .f32) fullShare s))
    ∗ Pipeline.scopedRestBut (Ix := Unit) (Name := ℕ) (U := UR sig nD τ) (Lvl := ℕ) (Val := Elt F) spec6 c [cc6_scratch0, cc6_scratch1]
    ∗ ∃ r, prngReg c r) := by
  rw [Φ6_eq]; unfold accs6; rw [if_pos (show ((0 : Fin (cfg6.N + 1)).val) = 0 from rfl)]
theorem Φ6_last (c : Dev nD) : (dat6 V c).Φ (Fin.last cfg6.N) = iprop(iprop(owns (c : Thread nD τ) (Memref.whole cc6_scratch0 : Memref sig .tc .vmem S128x64 .f32) fullShare (sums6 V c 5)
      ∗ owns (c : Thread nD τ) (Memref.whole cc6_scratch1 : Memref sig .tc .vmem S1x128 .f32) fullShare (cnts6 V c 5))
    ∗ Pipeline.scopedRestBut (Ix := Unit) (Name := ℕ) (U := UR sig nD τ) (Lvl := ℕ) (Val := Elt F) spec6 c [cc6_scratch0, cc6_scratch1]
    ∗ ∃ r, prngReg c r) := by
  have h5 : ((Fin.last cfg6.N : Fin (cfg6.N + 1)).val) = 5 := by rw [Fin.val_last]; exact N_6
  rw [Φ6_eq]; unfold accs6; rw [h5, if_neg (by decide)]

end Cert.KernelIdeal.Hand

end
-- ==== Proof.KI.Fold.lean ====
/- The contents of the program's unscoped buffers at every boundary between two items of @main, as a fold from the launch
  memory: after a stretch of host operations, what those operations compute from the contents before; after a kernel
  region, the region's arrays at what its write-backs leave and every other buffer as before. Then every region's proof
  data at the contents its region is entered from, and what rides beside the buffers through every item. -/
import proofs.«402628_j81466939670848_1_alg».proof.Proof.KI.Reg0
import proofs.«402628_j81466939670848_1_alg».proof.Proof.KI.Reg1
import proofs.«402628_j81466939670848_1_alg».proof.Proof.KI.Reg2
import proofs.«402628_j81466939670848_1_alg».proof.Proof.KI.Reg3
import proofs.«402628_j81466939670848_1_alg».proof.Proof.KI.Reg4
import proofs.«402628_j81466939670848_1_alg».proof.Proof.KI.Reg5
import proofs.«402628_j81466939670848_1_alg».proof.Proof.KI.Reg6
import proofs.«402628_j81466939670848_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- The same read at the TensorCore's references. -/
abbrev Vr1 : (c : Dev nD) → (b : Ref sig .tc) → Buf (Elt F) ((c : Thread nD τ).loc b) := fun c b => W1 m c b
theorem W1_of (c : Dev nD) (r : Ref sig .tc) (h : r ∉ hostOps0_W) : W1 m c r = W0 m c r :=
  StableHlo.after_of_writes_sub hostOps0 _ hostOps0_writes h
/-- After the host stretch `hostOps0_1`. -/
abbrev W2 : Dev nD → Valuation τ sig (Elt F) := fun c => StableHlo.after hostOps0_1 (W1 m c)
/-- The same read at the TensorCore's references. -/
abbrev Vr2 : (c : Dev nD) → (b : Ref sig .tc) → Buf (Elt F) ((c : Thread nD τ).loc b) := fun c b => W2 m c b
theorem W2_of (c : Dev nD) (r : Ref sig .tc) (h : r ∉ hostOps0_1_W) : W2 m c r = W1 m c r :=
  StableHlo.after_of_writes_sub hostOps0_1 _ hostOps0_1_writes h
/-- After the host stretch `hostOps0_2`. -/
abbrev W3 : Dev nD → Valuation τ sig (Elt F) := fun c => StableHlo.after hostOps0_2 (W2 m c)
/-- The same read at the TensorCore's references. -/
abbrev Vr3 : (c : Dev nD) → (b : Ref sig .tc) → Buf (Elt F) ((c : Thread nD τ).loc b) := fun c b => W3 m c b
theorem W3_of (c : Dev nD) (r : Ref sig .tc) (h : r ∉ hostOps0_2_W) : W3 m c r = W2 m c r :=
  StableHlo.after_of_writes_sub hostOps0_2 _ hostOps0_2_writes h
/-- At region 0's exit: its arrays at what the pipeline leaves, every other buffer as entered. -/
def W4 (c : Dev nD) : Valuation τ sig (Elt F) :=
  Pipeline.withArrays spec0 c (W3 m c) fun w => (dat0 (Vr3 m) c).arrAt w cfg0.N
theorem W4_arr (c : Dev nD) (w : Fin cfg0.W) :
    W4 m c (Proc.devRef .tc (Pipeline.arrRef spec0 w)) = (dat0 (Vr3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the TensorCore's references. -/
abbrev Vr4 : (c : Dev nD) → (b : Ref sig .tc) → Buf (Elt F) ((c : Thread nD τ).loc b) := fun c b => W4 m c b
theorem hF0 (c : Dev nD) (w : Fin cfg0.W) : (dat0 (Vr3 m) c).arrAt w cfg0.N = Vr4 m c (Pipeline.arrRef spec0 w) :=
  (W4_arr m c w).symm
theorem hrest0 (c : Dev nD) : ∀ b, b ∉ Finset.univ.image (Pipeline.arrRef spec0) → Vr4 m c b = Vr3 m c b :=
  fun b hb => W4_of_ne m c b fun w e => hb (Finset.mem_image.mpr ⟨w, Finset.mem_univ _, e⟩)
/-- After the host stretch `hostOps1`. -/
abbrev W5 : Dev nD → Valuation τ sig (Elt F) := fun c => StableHlo.after hostOps1 (W4 m c)
/-- The same read at the TensorCore's references. -/
abbrev Vr5 : (c : Dev nD) → (b : Ref sig .tc) → Buf (Elt F) ((c : Thread nD τ).loc b) := fun c b => W5 m c b
theorem W5_of (c : Dev nD) (r : Ref sig .tc) (h : r ∉ hostOps1_W) : W5 m c r = W4 m c r :=
  StableHlo.after_of_writes_sub hostOps1 _ hostOps1_writes h
/-- At region 1's exit: its arrays at what the pipeline leaves, every other buffer as entered. -/
def W6 (c : Dev nD) : Valuation τ sig (Elt F) :=
  Pipeline.withArrays spec1 c (W5 m c) fun w => (dat1 (Vr5 m) c).arrAt w cfg1.N
theorem W6_arr (c : Dev nD) (w : Fin cfg1.W) :
    W6 m c (Proc.devRef .tc (Pipeline.arrRef spec1 w)) = (dat1 (Vr5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the TensorCore's references. -/
abbrev Vr6 : (c : Dev nD) → (b : Ref sig .tc) → Buf (Elt F) ((c : Thread nD τ).loc b) := fun c b => W6 m c b
theorem hF1 (c : Dev nD) (w : Fin cfg1.W) : (dat1 (Vr5 m) c).arrAt w cfg1.N = Vr6 m c (Pipeline.arrRef spec1 w) :=
  (W6_arr m c w).symm
theorem hrest1 (c : Dev nD) : ∀ b, b ∉ Finset.univ.image (Pipeline.arrRef spec1) → Vr6 m c b = Vr5 m c b :=
  fun b hb => W6_of_ne m c b fun w e => hb (Finset.mem_image.mpr ⟨w, Finset.mem_univ _, e⟩)
/-- At region 2's exit: its arrays at what the pipeline leaves, every other buffer as entered. -/
def W7 (c : Dev nD) : Valuation τ sig (Elt F) :=
  Pipeline.withArrays spec2 c (W6 m c) fun w => (dat2 (Vr6 m) c).arrAt w cfg2.N
theorem W7_arr (c : Dev nD) (w : Fin cfg2.W) :
    W7 m c (Proc.devRef .tc (Pipeline.arrRef spec2 w)) = (dat2 (Vr6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The same read at the TensorCore's references. -/
abbrev Vr7 : (c : Dev nD) → (b : Ref sig .tc) → Buf (Elt F) ((c : Thread nD τ).loc b) := fun c b => W7 m c b
theorem hF2 (c : Dev nD) (w : Fin cfg2.W) : (dat2 (Vr6 m) c).arrAt w cfg2.N = Vr7 m c (Pipeline.arrRef spec2 w) :=
  (W7_arr m c w).symm
theorem hrest2 (c : Dev nD) : ∀ b, b ∉ Finset.univ.image (Pipeline.arrRef spec2) → Vr7 m c b = Vr6 m c b :=
  fun b hb => W7_of_ne m c b fun w e => hb (Finset.mem_image.mpr ⟨w, Finset.mem_univ _, e⟩)
/-- After the host stretch `hostOps3`. -/
abbrev W8 : Dev nD → Valuation τ sig (Elt F) := fun c => StableHlo.after hostOps3 (W7 m c)
/-- The same read at the TensorCore's references. -/
abbrev Vr8 : (c : Dev nD) → (b : Ref sig .tc) → Buf (Elt F) ((c : Thread nD τ).loc b) := fun c b => W8 m c b
theorem W8_of (c : Dev nD) (r : Ref sig .tc) (h : r ∉ hostOps3_W) : W8 m c r = W7 m c r :=
  StableHlo.after_of_writes_sub hostOps3 _ hostOps3_writes h
/-- At region 3's exit: its arrays at what the pipeline leaves, every other buffer as entered. -/
def W9 (c : Dev nD) : Valuation τ sig (Elt F) :=
  Pipeline.withArrays spec3 c (W8 m c) fun w => (dat3 (Vr8 m) c).arrAt w cfg3.N
theorem W9_arr (c : Dev nD) (w : Fin cfg3.W) :
    W9 m c (Proc.devRef .tc (Pipeline.arrRef spec3 w)) = (dat3 (Vr8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
/-- The same read at the TensorCore's references. -/
abbrev Vr9 : (c : Dev nD) → (b : Ref sig .tc) → Buf (Elt F) ((c : Thread nD τ).loc b) := fun c b => W9 m c b
theorem hF3 (c : Dev nD) (w : Fin cfg3.W) : (dat3 (Vr8 m) c).arrAt w cfg3.N = Vr9 m c (Pipeline.arrRef spec3 w) :=
  (W9_arr m c w).symm
theorem hrest3 (c : Dev nD) : ∀ b, b ∉ Finset.univ.image (Pipeline.arrRef spec3) → Vr9 m c b = Vr8 m c b :=
  fun b hb => W9_of_ne m c b fun w e => hb (Finset.mem_image.mpr ⟨w, Finset.mem_univ _, e⟩)
/-- At region 4's exit: its arrays at what the pipeline leaves, every other buffer as entered. -/
def W10 (c : Dev nD) : Valuation τ sig (Elt F) :=
  Pipeline.withArrays spec4 c (W9 m c) fun w => (dat4 (Vr9 m) c).arrAt w cfg4.N
theorem W10_arr (c : Dev nD) (w : Fin cfg4.W) :
    W10 m c (Proc.devRef .tc (Pipeline.arrRef spec4 w)) = (dat4 (Vr9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
/-- The same read at the TensorCore's references. -/
abbrev Vr10 : (c : Dev nD) → (b : Ref sig .tc) → Buf (Elt F) ((c : Thread nD τ).loc b) := fun c b => W10 m c b
theorem hF4 (c : Dev nD) (w : Fin cfg4.W) : (dat4 (Vr9 m) c).arrAt w cfg4.N = Vr10 m c (Pipeline.arrRef spec4 w) :=
  (W10_arr m c w).symm
theorem hrest4 (c : Dev nD) : ∀ b, b ∉ Finset.univ.image (Pipeline.arrRef spec4) → Vr10 m c b = Vr9 m c b :=
  fun b hb => W10_of_ne m c b fun w e => hb (Finset.mem_image.mpr ⟨w, Finset.mem_univ _, e⟩)
/-- After the host stretch `hostOps5`. -/
abbrev W11 : Dev nD → Valuation τ sig (Elt F) := fun c => StableHlo.after hostOps5 (W10 m c)
/-- The same read at the TensorCore's references. -/
abbrev Vr11 : (c : Dev nD) → (b : Ref sig .tc) → Buf (Elt F) ((c : Thread nD τ).loc b) := fun c b => W11 m c b
theorem W11_of (c : Dev nD) (r : Ref sig .tc) (h : r ∉ hostOps5_W) : W11 m c r = W10 m c r :=
  StableHlo.after_of_writes_sub hostOps5 _ hostOps5_writes h
/-- At region 5's exit: its arrays at what the pipeline leaves, every other buffer as entered. -/
def W12 (c : Dev nD) : Valuation τ sig (Elt F) :=
  Pipeline.withArrays spec5 c (W11 m c) fun w => (dat5 (Vr11 m) c).arrAt w cfg5.N
theorem W12_arr (c : Dev nD) (w : Fin cfg5.W) :
    W12 m c (Proc.devRef .tc (Pipeline.arrRef spec5 w)) = (dat5 (Vr11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
/-- The same read at the TensorCore's references. -/
abbrev Vr12 : (c : Dev nD) → (b : Ref sig .tc) → Buf (Elt F) ((c : Thread nD τ).loc b) := fun c b => W12 m c b
theorem hF5 (c : Dev nD) (w : Fin cfg5.W) : (dat5 (Vr11 m) c).arrAt w cfg5.N = Vr12 m c (Pipeline.arrRef spec5 w) :=
  (W12_arr m c w).symm
theorem hrest5 (c : Dev nD) : ∀ b, b ∉ Finset.univ.image (Pipeline.arrRef spec5) → Vr12 m c b = Vr11 m c b :=
  fun b hb => W12_of_ne m c b fun w e => hb (Finset.mem_image.mpr ⟨w, Finset.mem_univ _, e⟩)
/-- After the host stretch `hostOps6`. -/
abbrev W13 : Dev nD → Valuation τ sig (Elt F) := fun c => StableHlo.after hostOps6 (W12 m c)
/-- The same read at the TensorCore's references. -/
abbrev Vr13 : (c : Dev nD) → (b : Ref sig .tc) → Buf (Elt F) ((c : Thread nD τ).loc b) := fun c b => W13 m c b
theorem W13_of (c : Dev nD) (r : Ref sig .tc) (h : r ∉ hostOps6_W) : W13 m c r = W12 m c r :=
  StableHlo.after_of_writes_sub hostOps6 _ hostOps6_writes h
/-- At region 6's exit: its arrays at what the pipeline leaves, every other buffer as entered. -/
def W14 (c : Dev nD) : Valuation τ sig (Elt F) :=
  Pipeline.withArrays spec6 c (W13 m c) fun w => (dat6 (Vr13 m) c).arrAt w cfg6.N
theorem W14_arr (c : Dev nD) (w : Fin cfg6.W) :
    W14 m c (Proc.devRef .tc (Pipeline.arrRef spec6 w)) = (dat6 (Vr13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
/-- The same read at the TensorCore's references. -/
abbrev Vr14 : (c : Dev nD) → (b : Ref sig .tc) → Buf (Elt F) ((c : Thread nD τ).loc b) := fun c b => W14 m c b
theorem hF6 (c : Dev nD) (w : Fin cfg6.W) : (dat6 (Vr13 m) c).arrAt w cfg6.N = Vr14 m c (Pipeline.arrRef spec6 w) :=
  (W14_arr m c w).symm
theorem hrest6 (c : Dev nD) : ∀ b, b ∉ Finset.univ.image (Pipeline.arrRef spec6) → Vr14 m c b = Vr13 m c b :=
  fun b hb => W14_of_ne m c b fun w e => hb (Finset.mem_image.mpr ⟨w, Finset.mem_univ _, e⟩)
/-- After the host stretch `hostOps7`. -/
abbrev W15 : Dev nD → Valuation τ sig (Elt F) := fun c => StableHlo.after hostOps7 (W14 m c)
/-- The same read at the TensorCore's references. -/
abbrev Vr15 : (c : Dev nD) → (b : Ref sig .tc) → Buf (Elt F) ((c : Thread nD τ).loc b) := fun c b => W15 m c b
theorem W15_of (c : Dev nD) (r : Ref sig .tc) (h : r ∉ hostOps7_W) : W15 m c r = W14 m c r :=
  StableHlo.after_of_writes_sub hostOps7 _ hostOps7_writes h

/-! ## The proof data family and what rides beside the buffers -/

/-- No pipeline has a prefetched table. -/
abbrev admH : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) admH p) c
  | ⟨0, _⟩ => fun c => dat0 (Vr3 m) c
  | ⟨1, _⟩ => fun c => dat1 (Vr5 m) c
  | ⟨2, _⟩ => fun c => dat2 (Vr6 m) c
  | ⟨3, _⟩ => fun c => dat3 (Vr8 m) c
  | ⟨4, _⟩ => fun c => dat4 (Vr9 m) c
  | ⟨5, _⟩ => fun c => dat5 (Vr11 m) c
  | ⟨6, _⟩ => fun c => dat6 (Vr13 m) c
abbrev 𝒱H : Variants := Variants.none
/-- No core owes another anything: no level is assigned. -/
abbrev LH : GSem nD τ sig → Finset Unit := fun _ => ∅
abbrev lvH : GSem nD τ sig → Unit → ℕ := fun _ _ => 0
/-- Beside the buffers: the core's generator register at some state, and its `owes`, at nothing. -/
abbrev RH (c : Dev nD) : sProp 𝕄 := iprop((∃ r, prngReg c r) ∗ ∃ W, owes (c : Thread nD τ) (0 : CellTallies nD τ sig Unit) W)
/-- A host stretch as a segment over the unscoped references from the contents `W`, `RH` riding along. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those held through the run. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Seg0.lean ====
/- Region 0 of @main as a segment of the run: the thread state it is entered from and the one it leaves, and the four
  entailments that take the region's arrays out of the unscoped buffers and put them back. -/
import proofs.«402628_j81466939670848_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unification of a library lemma stated over `pin pcs a p` with the pinned configuration unfolds plain definitions in a
-- metavariable's type
set_option backward.isDefEq.respectTransparency.types false in
/-- REGION 0 as a segment of @main: entered from every unscoped buffer at `W3`, left at `W4`. Its arrays are split
    out of the unscoped buffers at entry and put back, at the exit contents, at the end; the generator register goes
    into the kernel's invariant and comes back; nothing is owed; the kernel has no semaphore of its own. -/
def reg0 : Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vr3 m) c).loose
  hwaits := Pipeline.hwaits_of_owed_zero _ _ _ _ LH lvH 0 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec0 c (Vr3 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (Vr3 m c) (Vr4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
/- Region 1 of @main as a segment of the run: the thread state it is entered from and the one it leaves, and the four
  entailments that take the region's arrays out of the unscoped buffers and put them back. -/
import proofs.«402628_j81466939670848_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unification of a library lemma stated over `pin pcs a p` with the pinned configuration unfolds plain definitions in a
-- metavariable's type
set_option backward.isDefEq.respectTransparency.types false in
/-- REGION 1 as a segment of @main: entered from every unscoped buffer at `W5`, left at `W6`. Its arrays are split
    out of the unscoped buffers at entry and put back, at the exit contents, at the end; the generator register goes
    into the kernel's invariant and comes back; nothing is owed; the kernel has no semaphore of its own. -/
def reg1 : Pipeline.RegionSeg (pcfgs (F := F)) admH (pdats m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vr5 m) c).loose
  hwaits := Pipeline.hwaits_of_owed_zero _ _ _ _ LH lvH 1 fun _ _ => rfl
  pre c := iprop(StableHlo.held (c : Thread nD τ) (Pipeline.ucRefs τ sig) (W5 m c) ∗ RH c)
  post c := iprop(StableHlo.held (c : Thread nD τ) (Pipeline.ucRefs τ sig) (W6 m c) ∗ RH c)
  X c := iprop(∃ r, prngReg c r)
  Y c := iprop(∃ r, prngReg c r)
  Z c := Pipeline.unscopedRest (Ix := Unit) (Name := ℕ) (U := UR sig nD τ) (Lvl := ℕ) spec1 c (Vr5 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (Vr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (Vr5 m c) (Vr6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
/- Region 2 of @main as a segment of the run: the thread state it is entered from and the one it leaves, and the four
  entailments that take the region's arrays out of the unscoped buffers and put them back. -/
import proofs.«402628_j81466939670848_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unification of a library lemma stated over `pin pcs a p` with the pinned configuration unfolds plain definitions in a
-- metavariable's type
set_option backward.isDefEq.respectTransparency.types false in
/-- REGION 2 as a segment of @main: entered from every unscoped buffer at `W6`, left at `W7`. Its arrays are split
    out of the unscoped buffers at entry and put back, at the exit contents, at the end; the generator register goes
    into the kernel's invariant and comes back; nothing is owed; the kernel has no semaphore of its own. -/
def reg2 : Pipeline.RegionSeg (pcfgs (F := F)) admH (pdats m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Vr6 m) c).loose
  hwaits := Pipeline.hwaits_of_owed_zero _ _ _ _ LH lvH 2 fun _ _ => rfl
  pre c := iprop(StableHlo.held (c : Thread nD τ) (Pipeline.ucRefs τ sig) (W6 m c) ∗ RH c)
  post c := iprop(StableHlo.held (c : Thread nD τ) (Pipeline.ucRefs τ sig) (W7 m c) ∗ RH c)
  X c := iprop(∃ r, prngReg c r)
  Y c := iprop(∃ r, prngReg c r)
  Z c := Pipeline.unscopedRest (Ix := Unit) (Name := ℕ) (U := UR sig nD τ) (Lvl := ℕ) spec2 c (Vr6 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (Vr6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (Vr6 m c) (Vr7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
/- Region 3 of @main as a segment of the run: the thread state it is entered from and the one it leaves, and the four
  entailments that take the region's arrays out of the unscoped buffers and put them back. -/
import proofs.«402628_j81466939670848_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unification of a library lemma stated over `pin pcs a p` with the pinned configuration unfolds plain definitions in a
-- metavariable's type
set_option backward.isDefEq.respectTransparency.types false in
/-- REGION 3 as a segment of @main: entered from every unscoped buffer at `W8`, left at `W9`. Its arrays are split
    out of the unscoped buffers at entry and put back, at the exit contents, at the end; the generator register goes
    into the kernel's invariant and comes back; nothing is owed; the kernel has no semaphore of its own. -/
def reg3 : Pipeline.RegionSeg (pcfgs (F := F)) admH (pdats m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (Vr8 m) c).loose
  hwaits := Pipeline.hwaits_of_owed_zero _ _ _ _ LH lvH 3 fun _ _ => rfl
  pre c := iprop(StableHlo.held (c : Thread nD τ) (Pipeline.ucRefs τ sig) (W8 m c) ∗ RH c)
  post c := iprop(StableHlo.held (c : Thread nD τ) (Pipeline.ucRefs τ sig) (W9 m c) ∗ RH c)
  X c := iprop(∃ r, prngReg c r)
  Y c := iprop(∃ r, prngReg c r)
  Z c := Pipeline.unscopedRest (Ix := Unit) (Name := ℕ) (U := UR sig nD τ) (Lvl := ℕ) spec3 c (Vr8 m c)
  hentry c := by
    rw [Pipeline.ownSems0_none]
    have hsplit := Pipeline.arrays_of_unscopedBufs (p := 3) (pcfgs (F := F)) admH (pdats m) launch3.win launch3.arr_whole c
      ((pdats m 3 c).share_full fun _ => rfl) (Vr8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m) ((pdats m 3 c).share_full fun _ => rfl)
      (Vr8 m c) (Vr9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
/- Region 4 of @main as a segment of the run: the thread state it is entered from and the one it leaves, and the four
  entailments that take the region's arrays out of the unscoped buffers and put them back. -/
import proofs.«402628_j81466939670848_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unification of a library lemma stated over `pin pcs a p` with the pinned configuration unfolds plain definitions in a
-- metavariable's type
set_option backward.isDefEq.respectTransparency.types false in
/-- REGION 4 as a segment of @main: entered from every unscoped buffer at `W9`, left at `W10`. Its arrays are split
    out of the unscoped buffers at entry and put back, at the exit contents, at the end; the generator register goes
    into the kernel's invariant and comes back; nothing is owed; the kernel has no semaphore of its own. -/
def reg4 : Pipeline.RegionSeg (pcfgs (F := F)) admH (pdats m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (Vr9 m) c).loose
  hwaits := Pipeline.hwaits_of_owed_zero _ _ _ _ LH lvH 4 fun _ _ => rfl
  pre c := iprop(StableHlo.held (c : Thread nD τ) (Pipeline.ucRefs τ sig) (W9 m c) ∗ RH c)
  post c := iprop(StableHlo.held (c : Thread nD τ) (Pipeline.ucRefs τ sig) (W10 m c) ∗ RH c)
  X c := iprop(∃ r, prngReg c r)
  Y c := iprop(∃ r, prngReg c r)
  Z c := Pipeline.unscopedRest (Ix := Unit) (Name := ℕ) (U := UR sig nD τ) (Lvl := ℕ) spec4 c (Vr9 m c)
  hentry c := by
    rw [Pipeline.ownSems0_none]
    have hsplit := Pipeline.arrays_of_unscopedBufs (p := 4) (pcfgs (F := F)) admH (pdats m) launch4.win launch4.arr_whole c
      ((pdats m 4 c).share_full fun _ => rfl) (Vr9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m) ((pdats m 4 c).share_full fun _ => rfl)
      (Vr9 m c) (Vr10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg5.lean ====
/- Region 5 of @main as a segment of the run: the thread state it is entered from and the one it leaves, and the four
  entailments that take the region's arrays out of the unscoped buffers and put them back. -/
import proofs.«402628_j81466939670848_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- unification of a library lemma stated over `pin pcs a p` with the pinned configuration unfolds plain definitions in a
-- metavariable's type
set_option backward.isDefEq.respectTransparency.types false in
/-- REGION 5 as a segment of @main: entered from every unscoped buffer at `W11`, left at `W12`. Its arrays are split
    out of the unscoped buffers at entry and put back, at the exit contents, at the end; the generator register goes
    into the kernel's invariant and comes back; nothing is owed; the kernel has no semaphore of its own. -/
def reg5 : Pipeline.RegionSeg (pcfgs (F := F)) admH (pdats m) () defs₀ 𝒱H LH lvH 5 where
  win := launch5.win.to₀
  block_pos := launch5.block_pos
  stage_whole := launch5.stage_whole
  K := PEmpty
  osem k := k.elim
  ho := Pipeline.OwnSemFacts.none _
  hbody c := (body_obligation5 (Vr11 m) c).loose
  hwaits := Pipeline.hwaits_of_owed_zero _ _ _ _ LH lvH 5 fun _ _ => rfl
  pre c := iprop(StableHlo.held (c : Thread nD τ) (Pipeline.ucRefs τ sig) (W11 m c) ∗ RH c)
  post c := iprop(StableHlo.held (c : Thread nD τ) (Pipeline.ucRefs τ sig) (W12 m c) ∗ RH c)
  X c := iprop(∃ r, prngReg c r)
  Y c := iprop(∃ r, prngReg c r)
  Z c := Pipeline.unscopedRest (Ix := Unit) (Name := ℕ) (U := UR sig nD τ) (Lvl := ℕ) spec5 c (Vr11 m c)
  hentry c := by
    rw [Pipeline.ownSems0_none]
    have hsplit := Pipeline.arrays_of_unscopedBufs (p := 5) (pcfgs (F := F)) admH (pdats m) launch5.win launch5.arr_whole c
      ((pdats m 5 c).share_full fun _ => rfl) (Vr11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdats m) ((pdats m 5 c).share_full fun _ => rfl)
      (Vr11 m c) (Vr12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg6.lean ====
/-
  Region 6 of @main (the pooling kernel) as a segment of the run: the thread state it is entered from and the one it
  leaves. Its arrays are split out of the unscoped buffers at entry and put back, at the exit contents, at the end. The
  kernel's invariant takes the generator register and, out of the scoped buffers no window stages, the two accumulator
  buffers; it gives all of them back at the end.
-/
import proofs.«402628_j81466939670848_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- REGION 6 as a segment of @main: entered from every unscoped buffer at `W13`, left at `W14`. -/
def reg6 : Pipeline.RegionSeg (pcfgs (F := F)) admH (pdats m) () defs₀ 𝒱H LH lvH 6 where
  win := launch6.win.to₀
  block_pos := launch6.block_pos
  stage_whole := launch6.stage_whole
  K := PEmpty
  osem k := k.elim
  ho := Pipeline.OwnSemFacts.none _
  hbody c := (body_obligation6 (Vr13 m) c).loose
  hwaits := Pipeline.hwaits_of_owed_zero _ _ _ _ LH lvH 6 fun _ _ => rfl
  pre c := iprop(StableHlo.held (c : Thread nD τ) (Pipeline.ucRefs τ sig) (W13 m c) ∗ RH c)
  post c := iprop(StableHlo.held (c : Thread nD τ) (Pipeline.ucRefs τ sig) (W14 m c) ∗ RH c)
  X c := iprop(∃ r, prngReg c r)
  Y c := iprop(∃ r, prngReg c r)
  Z c := Pipeline.unscopedRest (Ix := Unit) (Name := ℕ) (U := UR sig nD τ) (Lvl := ℕ) spec6 c (Vr13 m c)
  hentry c := by
    rw [Pipeline.ownSems0_none]
    have hsplit := Pipeline.arrays_of_unscopedBufs (p := 6) (pcfgs (F := F)) admH (pdats m) launch6.win launch6.arr_whole c
      ((pdats m 6 c).share_full fun _ => rfl) (Vr13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (Vr13 m) c).Φ 0 from rfl, Φ6_zero,
      show Pipeline.scopedRest (Pipeline.pin (pcfgs (F := F)) admH 6).spec c = Pipeline.scopedRest (Ix := Unit) (Name := ℕ) (U := UR sig nD τ) (Lvl := ℕ) (Val := Elt F) spec6 c from rfl,
      scopedRest6_split]
    iintro ⟨Hp, -, ⟨⟨%f0, H0⟩, ⟨%f1, H1⟩⟩, Hr⟩
    isplitl [H0 H1]
    · isplitl [H0]
      · iexists f0; rw [owns_whole]; iexact H0
      · iexists f1; rw [owns_whole]; iexact H1
    isplitl [Hr]; · iexact Hr
    iexact Hp
  hout c := by
    rw [Pipeline.ownSems0_none, show (pdats m 6 c).Φ (Fin.last _) = (dat6 (Vr13 m) c).Φ (Fin.last cfg6.N) from rfl, Φ6_last,
      show Pipeline.scopedRest (Pipeline.pin (pcfgs (F := F)) admH 6).spec c = Pipeline.scopedRest (Ix := Unit) (Name := ℕ) (U := UR sig nD τ) (Lvl := ℕ) (Val := Elt F) spec6 c from rfl,
      scopedRest6_split]
    iintro ⟨⟨H0, H1⟩, Hr, Hp⟩
    isplitl [Hp]; · iexact Hp
    isplitr; · iempintro
    isplitl [H0 H1]
    · isplitl [H0]
      · iexists _; rw [← owns_whole]; iexact H0
      · iexists _; rw [← owns_whole]; iexact H1
    iexact Hr
  hexit c := by
    have hjoin := Pipeline.unscopedBufs_of_arrays (p := 6) (pcfgs (F := F)) admH (Ix := Unit) (Name := ℕ) (U := UR sig nD τ) (Lvl := ℕ)
      launch6.win launch6.arr_whole c (pdats m) ((pdats m 6 c).share_full fun _ => rfl)
      (Vr13 m c) (Vr14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Kept.lean ====
/- Every argument array, read at the boundary where a stretch or a region of @main reads it and at the last boundary, holds its
  launch contents: no host stretch writes it, and a region reads it through an input window or not at all. -/
import proofs.«402628_j81466939670848_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (c : Dev nD)

theorem W3_main_arg0 : W3 m c (Proc.devRef .tc main_arg0) = m ((c : Thread nD τ).loc main_arg0) :=
  (W3_of m c main_arg0 (by decide)).trans <|
    (W2_of m c main_arg0 (by decide)).trans <|
    (W1_of m c main_arg0 (by decide)).trans <| rfl
theorem W3_main_arg3 : W3 m c (Proc.devRef .tc main_arg3) = m ((c : Thread nD τ).loc main_arg3) :=
  (W3_of m c main_arg3 (by decide)).trans <|
    (W2_of m c main_arg3 (by decide)).trans <|
    (W1_of m c main_arg3 (by decide)).trans <| rfl
theorem W4_main_arg4 : W4 m c (Proc.devRef .tc main_arg4) = m ((c : Thread nD τ).loc main_arg4) :=
  (W4_of_ne m c main_arg4 (by decide)).trans <|
    (W3_of m c main_arg4 (by decide)).trans <|
    (W2_of m c main_arg4 (by decide)).trans <|
    (W1_of m c main_arg4 (by decide)).trans <| rfl
theorem W6_main_arg5 : W6 m c (Proc.devRef .tc main_arg5) = m ((c : Thread nD τ).loc main_arg5) :=
  (W6_of_ne m c main_arg5 (by decide)).trans <|
    (W5_of m c main_arg5 (by decide)).trans <|
    (W4_of_ne m c main_arg5 (by decide)).trans <|
    (W3_of m c main_arg5 (by decide)).trans <|
    (W2_of m c main_arg5 (by decide)).trans <|
    (W1_of m c main_arg5 (by decide)).trans <| rfl
theorem W7_main_arg6 : W7 m c (Proc.devRef .tc main_arg6) = m ((c : Thread nD τ).loc main_arg6) :=
  (W7_of_ne m c main_arg6 (by decide)).trans <|
    (W6_of_ne m c main_arg6 (by decide)).trans <|
    (W5_of m c main_arg6 (by decide)).trans <|
    (W4_of_ne m c main_arg6 (by decide)).trans <|
    (W3_of m c main_arg6 (by decide)).trans <|
    (W2_of m c main_arg6 (by decide)).trans <|
    (W1_of m c main_arg6 (by decide)).trans <| rfl
theorem W9_main_arg7 : W9 m c (Proc.devRef .tc main_arg7) = m ((c : Thread nD τ).loc main_arg7) :=
  (W9_of_ne m c main_arg7 (by decide)).trans <|
    (W8_of m c main_arg7 (by decide)).trans <|
    (W7_of_ne m c main_arg7 (by decide)).trans <|
    (W6_of_ne m c main_arg7 (by decide)).trans <|
    (W5_of m c main_arg7 (by decide)).trans <|
    (W4_of_ne m c main_arg7 (by decide)).trans <|
    (W3_of m c main_arg7 (by decide)).trans <|
    (W2_of m c main_arg7 (by decide)).trans <|
    (W1_of m c main_arg7 (by decide)).trans <| rfl
theorem W10_main_arg8 : W10 m c (Proc.devRef .tc main_arg8) = m ((c : Thread nD τ).loc main_arg8) :=
  (W10_of_ne m c main_arg8 (by decide)).trans <|
    (W9_of_ne m c main_arg8 (by decide)).trans <|
    (W8_of m c main_arg8 (by decide)).trans <|
    (W7_of_ne m c main_arg8 (by decide)).trans <|
    (W6_of_ne m c main_arg8 (by decide)).trans <|
    (W5_of m c main_arg8 (by decide)).trans <|
    (W4_of_ne m c main_arg8 (by decide)).trans <|
    (W3_of m c main_arg8 (by decide)).trans <|
    (W2_of m c main_arg8 (by decide)).trans <|
    (W1_of m c main_arg8 (by decide)).trans <| rfl
theorem W12_main_arg2 : W12 m c (Proc.devRef .tc main_arg2) = m ((c : Thread nD τ).loc main_arg2) :=
  (W12_of_ne m c main_arg2 (by decide)).trans <|
    (W11_of m c main_arg2 (by decide)).trans <|
    (W10_of_ne m c main_arg2 (by decide)).trans <|
    (W9_of_ne m c main_arg2 (by decide)).trans <|
    (W8_of m c main_arg2 (by decide)).trans <|
    (W7_of_ne m c main_arg2 (by decide)).trans <|
    (W6_of_ne m c main_arg2 (by decide)).trans <|
    (W5_of m c main_arg2 (by decide)).trans <|
    (W4_of_ne m c main_arg2 (by decide)).trans <|
    (W3_of m c main_arg2 (by decide)).trans <|
    (W2_of m c main_arg2 (by decide)).trans <|
    (W1_of m c main_arg2 (by decide)).trans <| rfl
theorem W15_main_arg0 : W15 m c (Proc.devRef .tc main_arg0) = m ((c : Thread nD τ).loc main_arg0) :=
  (W15_of m c main_arg0 (by decide)).trans <|
    (W14_of_ne m c main_arg0 (by decide)).trans <|
    (W13_of m c main_arg0 (by decide)).trans <|
    (W12_of_ne m c main_arg0 (by decide)).trans <|
    (W11_of m c main_arg0 (by decide)).trans <|
    (W10_of_ne m c main_arg0 (by decide)).trans <|
    (W9_of_ne m c main_arg0 (by decide)).trans <|
    (W8_of m c main_arg0 (by decide)).trans <|
    (W7_of_ne m c main_arg0 (by decide)).trans <|
    (W6_of_ne m c main_arg0 (by decide)).trans <|
    (W5_of m c main_arg0 (by decide)).trans <|
    ((W4_arr m c 0).trans (((dat0 (Vr3 m) c).arrAt_in 0 rfl _).trans (A_eq0 (Vr3 m) c 0))).trans <|
    (W3_of m c main_arg0 (by decide)).trans <|
    (W2_of m c main_arg0 (by decide)).trans <|
    (W1_of m c main_arg0 (by decide)).trans <| rfl
theorem W15_main_arg1 : W15 m c (Proc.devRef .tc main_arg1) = m ((c : Thread nD τ).loc main_arg1) :=
  (W15_of m c main_arg1 (by decide)).trans <|
    (W14_of_ne m c main_arg1 (by decide)).trans <|
    (W13_of m c main_arg1 (by decide)).trans <|
    (W12_of_ne m c main_arg1 (by decide)).trans <|
    (W11_of m c main_arg1 (by decide)).trans <|
    (W10_of_ne m c main_arg1 (by decide)).trans <|
    (W9_of_ne m c main_arg1 (by decide)).trans <|
    (W8_of m c main_arg1 (by decide)).trans <|
    (W7_of_ne m c main_arg1 (by decide)).trans <|
    (W6_of_ne m c main_arg1 (by decide)).trans <|
    (W5_of m c main_arg1 (by decide)).trans <|
    (W4_of_ne m c main_arg1 (by decide)).trans <|
    (W3_of m c main_arg1 (by decide)).trans <|
    (W2_of m c main_arg1 (by decide)).trans <|
    (W1_of m c main_arg1 (by decide)).trans <| rfl
theorem W15_main_arg2 : W15 m c (Proc.devRef .tc main_arg2) = m ((c : Thread nD τ).loc main_arg2) :=
  (W15_of m c main_arg2 (by decide)).trans <|
    (W14_of_ne m c main_arg2 (by decide)).trans <|
    (W13_of m c main_arg2 (by decide)).trans <|
    (W12_of_ne m c main_arg2 (by decide)).trans <|
    (W11_of m c main_arg2 (by decide)).trans <|
    (W10_of_ne m c main_arg2 (by decide)).trans <|
    (W9_of_ne m c main_arg2 (by decide)).trans <|
    (W8_of m c main_arg2 (by decide)).trans <|
    (W7_of_ne m c main_arg2 (by decide)).trans <|
    (W6_of_ne m c main_arg2 (by decide)).trans <|
    (W5_of m c main_arg2 (by decide)).trans <|
    (W4_of_ne m c main_arg2 (by decide)).trans <|
    (W3_of m c main_arg2 (by decide)).trans <|
    (W2_of m c main_arg2 (by decide)).trans <|
    (W1_of m c main_arg2 (by decide)).trans <| rfl
theorem W15_main_arg3 : W15 m c (Proc.devRef .tc main_arg3) = m ((c : Thread nD τ).loc main_arg3) :=
  (W15_of m c main_arg3 (by decide)).trans <|
    (W14_of_ne m c main_arg3 (by decide)).trans <|
    (W13_of m c main_arg3 (by decide)).trans <|
    (W12_of_ne m c main_arg3 (by decide)).trans <|
    (W11_of m c main_arg3 (by decide)).trans <|
    (W10_of_ne m c main_arg3 (by decide)).trans <|
    (W9_of_ne m c main_arg3 (by decide)).trans <|
    (W8_of m c main_arg3 (by decide)).trans <|
    (W7_of_ne m c main_arg3 (by decide)).trans <|
    (W6_of_ne m c main_arg3 (by decide)).trans <|
    (W5_of m c main_arg3 (by decide)).trans <|
    ((W4_arr m c 1).trans (((dat0 (Vr3 m) c).arrAt_in 1 rfl _).trans (A_eq0 (Vr3 m) c 1))).trans <|
    (W3_of m c main_arg3 (by decide)).trans <|
    (W2_of m c main_arg3 (by decide)).trans <|
    (W1_of m c main_arg3 (by decide)).trans <| rfl
theorem W15_main_arg4 : W15 m c (Proc.devRef .tc main_arg4) = m ((c : Thread nD τ).loc main_arg4) :=
  (W15_of m c main_arg4 (by decide)).trans <|
    (W14_of_ne m c main_arg4 (by decide)).trans <|
    (W13_of m c main_arg4 (by decide)).trans <|
    (W12_of_ne m c main_arg4 (by decide)).trans <|
    (W11_of m c main_arg4 (by decide)).trans <|
    (W10_of_ne m c main_arg4 (by decide)).trans <|
    (W9_of_ne m c main_arg4 (by decide)).trans <|
    (W8_of m c main_arg4 (by decide)).trans <|
    (W7_of_ne m c main_arg4 (by decide)).trans <|
    (W6_of_ne m c main_arg4 (by decide)).trans <|
    (W5_of m c main_arg4 (by decide)).trans <|
    (W4_of_ne m c main_arg4 (by decide)).trans <|
    (W3_of m c main_arg4 (by decide)).trans <|
    (W2_of m c main_arg4 (by decide)).trans <|
    (W1_of m c main_arg4 (by decide)).trans <| rfl
theorem W15_main_arg5 : W15 m c (Proc.devRef .tc main_arg5) = m ((c : Thread nD τ).loc main_arg5) :=
  (W15_of m c main_arg5 (by decide)).trans <|
    (W14_of_ne m c main_arg5 (by decide)).trans <|
    (W13_of m c main_arg5 (by decide)).trans <|
    (W12_of_ne m c main_arg5 (by decide)).trans <|
    (W11_of m c main_arg5 (by decide)).trans <|
    (W10_of_ne m c main_arg5 (by decide)).trans <|
    (W9_of_ne m c main_arg5 (by decide)).trans <|
    (W8_of m c main_arg5 (by decide)).trans <|
    ((W7_arr m c 1).trans (((dat2 (Vr6 m) c).arrAt_in 1 rfl _).trans (A_eq2 (Vr6 m) c 1))).trans <|
    (W6_of_ne m c main_arg5 (by decide)).trans <|
    (W5_of m c main_arg5 (by decide)).trans <|
    (W4_of_ne m c main_arg5 (by decide)).trans <|
    (W3_of m c main_arg5 (by decide)).trans <|
    (W2_of m c main_arg5 (by decide)).trans <|
    (W1_of m c main_arg5 (by decide)).trans <| rfl
theorem W15_main_arg6 : W15 m c (Proc.devRef .tc main_arg6) = m ((c : Thread nD τ).loc main_arg6) :=
  (W15_of m c main_arg6 (by decide)).trans <|
    (W14_of_ne m c main_arg6 (by decide)).trans <|
    (W13_of m c main_arg6 (by decide)).trans <|
    (W12_of_ne m c main_arg6 (by decide)).trans <|
    (W11_of m c main_arg6 (by decide)).trans <|
    (W10_of_ne m c main_arg6 (by decide)).trans <|
    (W9_of_ne m c main_arg6 (by decide)).trans <|
    (W8_of m c main_arg6 (by decide)).trans <|
    (W7_of_ne m c main_arg6 (by decide)).trans <|
    (W6_of_ne m c main_arg6 (by decide)).trans <|
    (W5_of m c main_arg6 (by decide)).trans <|
    (W4_of_ne m c main_arg6 (by decide)).trans <|
    (W3_of m c main_arg6 (by decide)).trans <|
    (W2_of m c main_arg6 (by decide)).trans <|
    (W1_of m c main_arg6 (by decide)).trans <| rfl
theorem W15_main_arg7 : W15 m c (Proc.devRef .tc main_arg7) = m ((c : Thread nD τ).loc main_arg7) :=
  (W15_of m c main_arg7 (by decide)).trans <|
    (W14_of_ne m c main_arg7 (by decide)).trans <|
    (W13_of m c main_arg7 (by decide)).trans <|
    (W12_of_ne m c main_arg7 (by decide)).trans <|
    (W11_of m c main_arg7 (by decide)).trans <|
    ((W10_arr m c 1).trans (((dat4 (Vr9 m) c).arrAt_in 1 rfl _).trans (A_eq4 (Vr9 m) c 1))).trans <|
    (W9_of_ne m c main_arg7 (by decide)).trans <|
    (W8_of m c main_arg7 (by decide)).trans <|
    (W7_of_ne m c main_arg7 (by decide)).trans <|
    (W6_of_ne m c main_arg7 (by decide)).trans <|
    (W5_of m c main_arg7 (by decide)).trans <|
    (W4_of_ne m c main_arg7 (by decide)).trans <|
    (W3_of m c main_arg7 (by decide)).trans <|
    (W2_of m c main_arg7 (by decide)).trans <|
    (W1_of m c main_arg7 (by decide)).trans <| rfl
theorem W15_main_arg8 : W15 m c (Proc.devRef .tc main_arg8) = m ((c : Thread nD τ).loc main_arg8) :=
  (W15_of m c main_arg8 (by decide)).trans <|
    (W14_of_ne m c main_arg8 (by decide)).trans <|
    (W13_of m c main_arg8 (by decide)).trans <|
    (W12_of_ne m c main_arg8 (by decide)).trans <|
    (W11_of m c main_arg8 (by decide)).trans <|
    (W10_of_ne m c main_arg8 (by decide)).trans <|
    (W9_of_ne m c main_arg8 (by decide)).trans <|
    (W8_of m c main_arg8 (by decide)).trans <|
    (W7_of_ne m c main_arg8 (by decide)).trans <|
    (W6_of_ne m c main_arg8 (by decide)).trans <|
    (W5_of m c main_arg8 (by decide)).trans <|
    (W4_of_ne m c main_arg8 (by decide)).trans <|
    (W3_of m c main_arg8 (by decide)).trans <|
    (W2_of m c main_arg8 (by decide)).trans <|
    (W1_of m c main_arg8 (by decide)).trans <| rfl

end Cert.KernelIdeal.Hand

end
-- ==== Proof.KI.Run.lean ====
/-
  The run of the idealized kernel program: @main as the list of its fifteen items (eight stretches of host operations,
  seven kernel regions), each entered from what the one before left; the launch; and, read against the final state, every
  unscoped buffer at the last boundary's contents `W15`; with each argument array read back through the fold unchanged (the
  table in the neighbouring module), that is the frame claim.
-/
import proofs.«402628_j81466939670848_1_alg».proof.Proof.KI.Seg0
import proofs.«402628_j81466939670848_1_alg».proof.Proof.KI.Seg1
import proofs.«402628_j81466939670848_1_alg».proof.Proof.KI.Seg2
import proofs.«402628_j81466939670848_1_alg».proof.Proof.KI.Seg3
import proofs.«402628_j81466939670848_1_alg».proof.Proof.KI.Seg4
import proofs.«402628_j81466939670848_1_alg».proof.Proof.KI.Seg5
import proofs.«402628_j81466939670848_1_alg».proof.Proof.KI.Seg6
import proofs.«402628_j81466939670848_1_alg».proof.Proof.KI.Kept

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- @main's fifteen items in order. -/
abbrev segsH : List (Pipeline.Seg (pcfgs (F := F)) admH (pdats m) () defs₀ 𝒱H LH lvH) :=
  [ .host (hsegH hostOps0 hostOps0_sub hostOps0_fresh (W0 m)),
    .host (hsegH hostOps0_1 hostOps0_1_sub hostOps0_1_fresh (W1 m)),
    .host (hsegH hostOps0_2 hostOps0_2_sub hostOps0_2_fresh (W2 m)),
    .region (reg0 m),
    .host (hsegH hostOps1 hostOps1_sub hostOps1_fresh (W4 m)),
    .region (reg1 m),
    .region (reg2 m),
    .host (hsegH hostOps3 hostOps3_sub hostOps3_fresh (W7 m)),
    .region (reg3 m),
    .region (reg4 m),
    .host (hsegH hostOps5 hostOps5_sub hostOps5_fresh (W10 m)),
    .region (reg5 m),
    .host (hsegH hostOps6 hostOps6_sub hostOps6_fresh (W12 m)),
    .region (reg6 m),
    .host (hsegH hostOps7 hostOps7_sub hostOps7_fresh (W14 m)) ]

/-- @main IS the run of the items. -/
theorem main_run (c : Dev nD) : main (F := F) c = Pipeline.Seg.run (segsH m) := (main_chain c).trans (by chain_rfl)

set_option backward.isDefEq.respectTransparency.types false in
/-- From any memory with zero counters, every weakly fair execution of @main on the TensorCores terminates, nothing
    faulting, and in every final state each unscoped buffer holds the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W15 m c b) :=
  Pipeline.θ_run_regions_kit (pcfgs (F := F)) admH (pdats m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c))
    (Tₙ := fun c => iprop(StableHlo.held (c : Thread nD τ) (Pipeline.ucRefs τ sig) (W15 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (W15 m c) ∗ RH c) ⊢ _
        iintro ⟨Hh, Hp, Ho⟩
        isplitl [Hh Hp]
        · isplitl [Hh]; · iexact Hh
          iexact Hp
        iexact Ho⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := fun s h c => h c)

/-- The frame claim's post: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_ucH main_arg0 (by decide))).trans (W15_main_arg0 m c),
    (h c _ (mem_ucH main_arg1 (by decide))).trans (W15_main_arg1 m c),
    (h c _ (mem_ucH main_arg2 (by decide))).trans (W15_main_arg2 m c),
    (h c _ (mem_ucH main_arg3 (by decide))).trans (W15_main_arg3 m c),
    (h c _ (mem_ucH main_arg4 (by decide))).trans (W15_main_arg4 m c),
    (h c _ (mem_ucH main_arg5 (by decide))).trans (W15_main_arg5 m c),
    (h c _ (mem_ucH main_arg6 (by decide))).trans (W15_main_arg6 m c),
    (h c _ (mem_ucH main_arg7 (by decide))).trans (W15_main_arg7 m c),
    (h c _ (mem_ucH main_arg8 (by decide))).trans (W15_main_arg8 m c)⟩) (run_all m ρ)

end Cert.KernelIdeal.Hand

end
-- ==== Proof.KI.Layout.lean ====
/-
  One array written two ways.

  The kernel program's host code lays a vector of n entries out as one row [1, n], or as one column [n, 1], by a
  reshape; the reference does it by a broadcast along the one axis the vector keeps. Both read the vector's entry i at
  (0, i), respectively (i, 0): the arrays are equal, over any element type.

  The mean pool ends by dividing the per-graph sums [128, 64] by the per-graph counts, clamped below by one and
  repeated along the 64 columns. The kernel program holds the counts as one row [1, 128] and reshapes it to a column
  before the clamp; the reference holds them as a vector [128], clamps, and then lays the vector out as a column.
  Entry (g, 0) of either column is the maximum of graph g's count and one, so the two divisors are equal.
-/
import proofs.«402628_j81466939670848_1_alg».proof.Proof.Gen.KernelIdeal
import proofs.«402628_j81466939670848_1_alg».proof.Proof.RefReadP
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.SL.Sem
open Idealize.ShloMosaic.ValueIdx

/-! ## A vector as one row, as one column -/

section Layouts
variable {α : Type} {a : ℕ}

/-- A vector laid along axis 1 of a one-row array reads, at (u, i), the vector at i. -/
theorem vecRow_inDim_apply (hd : (⟨1, ![a]⟩ : Shape).BroadcastsInDim ⟨2, ![1, a]⟩ ![1])
    (x : (⟨1, ![a]⟩ : Shape).Idx → α) (u : Fin 1) (i : Fin a) :
    broadcastInDim ⟨2, ![1, a]⟩ ![1] hd x (ix2 u i) = x (ix1 i) := by
  refine broadcastInDim_apply ![1] hd x (ix2 u i) (ix1 i) fun ax => ?_
  match ax with
  | ⟨0, _⟩ =>
    show i.val = if a = 1 then 0 else i.val
    split
    · have := i.isLt; omega
    · rfl

/-- A vector laid along axis 0 of a one-column array reads, at (i, u), the vector at i. -/
theorem vecCol_inDim_apply (hd : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] hd x (ix2 i u) = x (ix1 i) := by
  refine broadcastInDim_apply ![0] hd x (ix2 i u) (ix1 i) fun ax => ?_
  match ax with
  | ⟨0, _⟩ =>
    show i.val = if a = 1 then 0 else i.val
    split
    · have := i.isLt; omega
    · rfl

/-- A vector reshaped to one column reads, at (i, u), the vector at i. -/
theorem vecCol_cast_apply (h : (⟨1, ![a]⟩ : Shape).ShapeCasts ⟨2, ![a, 1]⟩)
    (x : (⟨1, ![a]⟩ : Shape).Idx → α) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- One row reshaped to one column reads, at (i, u), the row at (0, i). -/
theorem rowCol_cast_apply (h : (⟨2, ![1, a]⟩ : Shape).ShapeCasts ⟨2, ![a, 1]⟩)
    (x : (⟨2, ![1, a]⟩ : Shape).Idx → α) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    omega)

/-- A vector as one row: the reshape is the broadcast along axis 1. -/
theorem vecRow_cast_eq_inDim (h : (⟨1, ![a]⟩ : Shape).ShapeCasts ⟨2, ![1, a]⟩)
    (hd : (⟨1, ![a]⟩ : Shape).BroadcastsInDim ⟨2, ![1, a]⟩ ![1]) (x : (⟨1, ![a]⟩ : Shape).Idx → α) :
    shapeCast ⟨2, ![1, a]⟩ x h = broadcastInDim ⟨2, ![1, a]⟩ ![1] hd x := by
  funext j
  obtain ⟨u, i, rfl⟩ : ∃ (u : Fin 1) (i : Fin a), j = ix2 u i := ⟨j 0, j 1, eq_ix2 j⟩
  rw [shapeCast_a_1a_apply, vecRow_inDim_apply]

/-- A vector as one column: the reshape is the broadcast along axis 0. -/
theorem vecCol_cast_eq_inDim (h : (⟨1, ![a]⟩ : Shape).ShapeCasts ⟨2, ![a, 1]⟩)
    (hd : (⟨1, ![a]⟩ : Shape).BroadcastsInDim ⟨2, ![a, 1]⟩ ![0]) (x : (⟨1, ![a]⟩ : Shape).Idx → α) :
    shapeCast ⟨2, ![a, 1]⟩ x h = broadcastInDim ⟨2, ![a, 1]⟩ ![0] hd x := by
  funext j
  obtain ⟨i, u, rfl⟩ : ∃ (i : Fin a) (u : Fin 1), j = ix2 i u := ⟨j 0, j 1, eq_ix2 j⟩
  rw [vecCol_cast_apply, vecCol_inDim_apply]

end Layouts

variable {F : FTy → Type} [FloatOps F]

/-- A bias vector of 128 entries as one row. -/
theorem row128 (b : (⟨S128, .f32⟩ : BufTy).Contents (Elt F)) : shapeCast S1x128 b shapeCasts_S128_S1x128 = broadcastInDim Cert.ReferenceIdeal.S1x128 ![1] Cert.ReferenceIdeal.Gen.bcast_S128_S1x128_1 b :=
  vecRow_cast_eq_inDim _ _ b

/-- A bias vector of 64 entries as one row. -/
theorem row64 (b : (⟨S64, .f32⟩ : BufTy).Contents (Elt F)) : shapeCast S1x64 b shapeCasts_S64_S1x64 = broadcastInDim Cert.ReferenceIdeal.S1x64 ![1] Cert.ReferenceIdeal.Gen.bcast_S64_S1x64_1 b :=
  vecRow_cast_eq_inDim _ _ b

/-- The vector of graph ids as one column. -/
theorem col50000 (ids : (⟨S50000, .i32⟩ : BufTy).Contents (Elt F)) : shapeCast S50000x1 ids shapeCasts_S50000_S50000x1 = broadcastInDim Cert.ReferenceIdeal.S50000x1 ![0] Cert.ReferenceIdeal.Gen.bcast_S50000_S50000x1_0 ids :=
  vecCol_cast_eq_inDim _ _ ids

/-- The mean pool's last step: the sums divided by the counts clamped below by one, the counts held as one row on the
    one side and as a vector on the other. -/
theorem pool_tail (sums : (⟨S128x64, .f32⟩ : BufTy).Contents (Elt F)) (cntrow : (⟨S1x128, .f32⟩ : BufTy).Contents (Elt F)) (cvec : (⟨S128, .f32⟩ : BufTy).Contents (Elt F)) (h : ∀ g : Fin 128, cntrow (ValueIdx.ix2 0 g) = cvec (ValueIdx.ix1 g)) :
      Host.divf sums (broadcastInDim S128x64 ![0, 1] bcast_S128x1_S128x64_0_1 (maximumf (shapeCast S128x1 cntrow shapeCasts_S1x128_S128x1) (broadcastInDim S128x1 ![] bcast_S_S128x1 (constant S_ .f32 0x3F800000#32))))
      = Host.divf sums (broadcastInDim Cert.ReferenceIdeal.S128x64 ![0, 1] Cert.ReferenceIdeal.Gen.bcast_S128x1_S128x64_0_1 (broadcastInDim Cert.ReferenceIdeal.S128x1 ![0] Cert.ReferenceIdeal.Gen.bcast_S128_S128x1_0 (maximumf cvec (broadcastInDim Cert.ReferenceIdeal.S128 ![] Cert.ReferenceIdeal.Gen.bcast_S_S128 (constant Cert.ReferenceIdeal.S_ .f32 0x3F800000#32))))) := by
  refine congrArg (Host.divf sums) ?_
  refine congrArg (broadcastInDim S128x64 ![0, 1] bcast_S128x1_S128x64_0_1 :
    (⟨S128x1, .f32⟩ : BufTy).Contents (Elt F) → (⟨S128x64, .f32⟩ : BufTy).Contents (Elt F)) ?_
  funext j
  obtain ⟨g, u, rfl⟩ : ∃ (g : Fin 128) (u : Fin 1), j = ix2 g u := ⟨j 0, j 1, eq_ix2 j⟩
  refine Eq.trans ?_ (vecCol_inDim_apply Cert.ReferenceIdeal.Gen.bcast_S128_S128x1_0 _ g u).symm
  show FloatOps.maximumf (shapeCast S128x1 cntrow shapeCasts_S1x128_S128x1 (ix2 g u)) (FloatOps.ofBits .f32 0x3F800000#32)
    = FloatOps.maximumf (cvec (ix1 g)) (FloatOps.ofBits .f32 0x3F800000#32)
  rw [rowCol_cast_apply, h]

end Cert.KernelIdeal.Hand

end
-- ==== Proof.KI.Chain.lean ====
/-
  What each stretch of host operations of the kernel program computes, in the reference's own names: the reference's
  read module names every value of the reference as a function of the nine arguments (`val_main_vN`), and, stretch by
  stretch, the kernel program's buffer after the stretch IS that function of the launch arguments — given, for a stretch
  that reads a kernel region's output, that the output holds the reference's value for it. The host operations of the two
  programs are the same operations; the reference recomputes the edge normalisation per layer where the kernel program
  computes it once (the same term).
-/
import proofs.«402628_j81466939670848_1_alg».proof.Proof.KI.Kept
import proofs.«402628_j81466939670848_1_alg».proof.Proof.KI.Layout
import proofs.«402628_j81466939670848_1_alg».proof.Proof.RefReadP
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ)
variable (c : Dev nD)

/-- The launch contents of the nine arguments on core `c`. -/
abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)

/-! ## The first three stretches: the edge lists with self-loops, the degrees, the edge normalisation -/

set_option maxHeartbeats 2000000 in
theorem W1_v3 : W1 m c main_v3 = ReferenceIdeal.ReadP.val_main_v3 (F := F) (x1 m c) := by
  show StableHlo.after hostOps0 (W0 m c) (Proc.devRef .tc main_v3) = _
  after_results; rfl
set_option maxHeartbeats 2000000 in
theorem W1_v6 : W1 m c main_v6 = ReferenceIdeal.ReadP.val_main_v6 (F := F) (x1 m c) := by
  show StableHlo.after hostOps0 (W0 m c) (Proc.devRef .tc main_v6) = _
  after_results; rfl
set_option maxHeartbeats 2000000 in
theorem W1_v12 : W1 m c main_v12 = ReferenceIdeal.ReadP.val_main_v12 (F := F) (x1 m c) := by
  show StableHlo.after hostOps0 (W0 m c) (Proc.devRef .tc main_v12) = _
  after_results; rfl
set_option maxHeartbeats 2000000 in
theorem W1_v13 : W1 m c main_v13 = ReferenceIdeal.ReadP.val_main_v13 (F := F) (x1 m c) := by
  show StableHlo.after hostOps0 (W0 m c) (Proc.devRef .tc main_v13) = _
  after_results; rfl
set_option maxHeartbeats 2000000 in
theorem W1_cst_2 : W1 m c main_cst_2 = ReferenceIdeal.ReadP.val_main_cst_2 (F := F) := by
  show StableHlo.after hostOps0 (W0 m c) (Proc.devRef .tc main_cst_2) = _
  after_results; rfl

set_option maxHeartbeats 2000000 in
theorem W2_v14 : W2 m c main_v14 = ReferenceIdeal.ReadP.val_main_v14 (F := F) (x1 m c) := by
  have h12 := W1_v12 m c; have h13 := W1_v13 m c; have hc := W1_cst_2 m c
  show StableHlo.after hostOps0_1 (W1 m c) (Proc.devRef .tc main_v14) = _
  generalize W1 m c = W at h12 h13 hc ⊢
  after_results
  rw [h12, h13, hc]; rfl

theorem W2_v3 : W2 m c main_v3 = ReferenceIdeal.ReadP.val_main_v3 (F := F) (x1 m c) := (W2_of m c main_v3 (by decide)).trans (W1_v3 m c)
theorem W2_v6 : W2 m c main_v6 = ReferenceIdeal.ReadP.val_main_v6 (F := F) (x1 m c) := (W2_of m c main_v6 (by decide)).trans (W1_v6 m c)

set_option maxHeartbeats 4000000 in
/-- The edge normalisation, computed once by the kernel program, is the reference's (first) one. -/
theorem W3_v29 : W3 m c main_v29 = ReferenceIdeal.ReadP.val_main_v30 (F := F) (x1 m c) := by
  have h3 := W2_v3 m c; have h6 := W2_v6 m c; have h14 := W2_v14 m c
  show StableHlo.after hostOps0_2 (W2 m c) (Proc.devRef .tc main_v29) = _
  generalize W2 m c = W at h3 h6 h14 ⊢
  after_results
  rw [h3, h6, h14]; rfl
theorem W3_v3 : W3 m c main_v3 = ReferenceIdeal.ReadP.val_main_v3 (F := F) (x1 m c) := (W3_of m c main_v3 (by decide)).trans (W2_v3 m c)
theorem W3_v6 : W3 m c main_v6 = ReferenceIdeal.ReadP.val_main_v6 (F := F) (x1 m c) := (W3_of m c main_v6 (by decide)).trans (W2_v6 m c)

/-- The reference recomputes the normalisation for the second and the third layer: the same term. -/
theorem norm_second (x : (⟨ReferenceIdeal.S2x500000, .i32⟩ : BufTy).Contents (Elt F)) : ReferenceIdeal.ReadP.val_main_v63 (F := F) x = ReferenceIdeal.ReadP.val_main_v30 (F := F) x := rfl
theorem norm_third (x : (⟨ReferenceIdeal.S2x500000, .i32⟩ : BufTy).Contents (Elt F)) : ReferenceIdeal.ReadP.val_main_v96 (F := F) x = ReferenceIdeal.ReadP.val_main_v30 (F := F) x := rfl

/-! ## Layer 1: the stretch `hostOps1` (gather the rows at the sources, scale by the normalisation, add up at the destinations) -/

theorem W4_v3 : W4 m c main_v3 = ReferenceIdeal.ReadP.val_main_v3 (F := F) (x1 m c) := ((W4_of_ne m c main_v3 (by decide)).trans <| rfl).trans (W3_v3 m c)
theorem W4_v6 : W4 m c main_v6 = ReferenceIdeal.ReadP.val_main_v6 (F := F) (x1 m c) := ((W4_of_ne m c main_v6 (by decide)).trans <| rfl).trans (W3_v6 m c)
theorem W4_v29 : W4 m c main_v29 = ReferenceIdeal.ReadP.val_main_v30 (F := F) (x1 m c) := ((W4_of_ne m c main_v29 (by decide)).trans <| rfl).trans (W3_v29 m c)

set_option maxHeartbeats 4000000 in
/-- Given that the layer's dense product holds the reference's, the aggregated rows are the reference's. -/
theorem W5_main_v43 (h30 : W4 m c main_v30 = ReferenceIdeal.ReadP.val_main_v15 (F := F) (x0 m c) (x3 m c)) :
    W5 m c main_v43 = ReferenceIdeal.ReadP.val_main_v43 (F := F) (x0 m c) (x1 m c) (x3 m c) := by
  have h3 := W4_v3 m c; have h6 := W4_v6 m c; have h29 := W4_v29 m c
  show StableHlo.after hostOps1 (W4 m c) (Proc.devRef .tc main_v43) = _
  generalize W4 m c = W at h3 h6 h29 h30 ⊢
  after_results
  rw [h3, h6, h29, h30]; rfl

set_option maxHeartbeats 2000000 in
/-- The layer's bias as one row: the kernel program reshapes the vector, the reference broadcasts it in dimensions. -/
theorem W5_main_v44 : W5 m c main_v44 = ReferenceIdeal.ReadP.val_main_v44 (F := F) (x4 m c) := by
  have ha := W4_main_arg4 m c
  show StableHlo.after hostOps1 (W4 m c) (Proc.devRef .tc main_v44) = _
  generalize W4 m c = W at ha ⊢
  after_results
  rw [ha]
  exact row128 (x4 m c)

/-! ## Layer 2: the stretch `hostOps3` (gather the rows at the sources, scale by the normalisation, add up at the destinations) -/

theorem W7_v3 : W7 m c main_v3 = ReferenceIdeal.ReadP.val_main_v3 (F := F) (x1 m c) := ((W7_of_ne m c main_v3 (by decide)).trans <| (W6_of_ne m c main_v3 (by decide)).trans <| (W5_of m c main_v3 (by decide)).trans <| (W4_of_ne m c main_v3 (by decide)).trans <| rfl).trans (W3_v3 m c)
theorem W7_v6 : W7 m c main_v6 = ReferenceIdeal.ReadP.val_main_v6 (F := F) (x1 m c) := ((W7_of_ne m c main_v6 (by decide)).trans <| (W6_of_ne m c main_v6 (by decide)).trans <| (W5_of m c main_v6 (by decide)).trans <| (W4_of_ne m c main_v6 (by decide)).trans <| rfl).trans (W3_v6 m c)
theorem W7_v29 : W7 m c main_v29 = ReferenceIdeal.ReadP.val_main_v30 (F := F) (x1 m c) := ((W7_of_ne m c main_v29 (by decide)).trans <| (W6_of_ne m c main_v29 (by decide)).trans <| (W5_of m c main_v29 (by decide)).trans <| (W4_of_ne m c main_v29 (by decide)).trans <| rfl).trans (W3_v29 m c)

set_option maxHeartbeats 4000000 in
/-- Given that the layer's dense product holds the reference's, the aggregated rows are the reference's. -/
theorem W8_main_v59 (h46 : W7 m c main_v46 = ReferenceIdeal.ReadP.val_main_v48 (F := F) (x0 m c) (x1 m c) (x3 m c) (x4 m c) (x5 m c)) :
    W8 m c main_v59 = ReferenceIdeal.ReadP.val_main_v76 (F := F) (x0 m c) (x1 m c) (x3 m c) (x4 m c) (x5 m c) := by
  have h3 := W7_v3 m c; have h6 := W7_v6 m c; have h29 := W7_v29 m c
  show StableHlo.after hostOps3 (W7 m c) (Proc.devRef .tc main_v59) = _
  generalize W7 m c = W at h3 h6 h29 h46 ⊢
  after_results
  rw [h3, h6, h29, h46]; rfl

set_option maxHeartbeats 2000000 in
/-- The layer's bias as one row: the kernel program reshapes the vector, the reference broadcasts it in dimensions. -/
theorem W8_main_v60 : W8 m c main_v60 = ReferenceIdeal.ReadP.val_main_v77 (F := F) (x6 m c) := by
  have ha := W7_main_arg6 m c
  show StableHlo.after hostOps3 (W7 m c) (Proc.devRef .tc main_v60) = _
  generalize W7 m c = W at ha ⊢
  after_results
  rw [ha]
  exact row128 (x6 m c)

/-! ## Layer 3: the stretch `hostOps5` (gather the rows at the sources, scale by the normalisation, add up at the destinations) -/

theorem W10_v3 : W10 m c main_v3 = ReferenceIdeal.ReadP.val_main_v3 (F := F) (x1 m c) := ((W10_of_ne m c main_v3 (by decide)).trans <| (W9_of_ne m c main_v3 (by decide)).trans <| (W8_of m c main_v3 (by decide)).trans <| (W7_of_ne m c main_v3 (by decide)).trans <| (W6_of_ne m c main_v3 (by decide)).trans <| (W5_of m c main_v3 (by decide)).trans <| (W4_of_ne m c main_v3 (by decide)).trans <| rfl).trans (W3_v3 m c)
theorem W10_v6 : W10 m c main_v6 = ReferenceIdeal.ReadP.val_main_v6 (F := F) (x1 m c) := ((W10_of_ne m c main_v6 (by decide)).trans <| (W9_of_ne m c main_v6 (by decide)).trans <| (W8_of m c main_v6 (by decide)).trans <| (W7_of_ne m c main_v6 (by decide)).trans <| (W6_of_ne m c main_v6 (by decide)).trans <| (W5_of m c main_v6 (by decide)).trans <| (W4_of_ne m c main_v6 (by decide)).trans <| rfl).trans (W3_v6 m c)
theorem W10_v29 : W10 m c main_v29 = ReferenceIdeal.ReadP.val_main_v30 (F := F) (x1 m c) := ((W10_of_ne m c main_v29 (by decide)).trans <| (W9_of_ne m c main_v29 (by decide)).trans <| (W8_of m c main_v29 (by decide)).trans <| (W7_of_ne m c main_v29 (by decide)).trans <| (W6_of_ne m c main_v29 (by decide)).trans <| (W5_of m c main_v29 (by decide)).trans <| (W4_of_ne m c main_v29 (by decide)).trans <| rfl).trans (W3_v29 m c)

set_option maxHeartbeats 4000000 in
/-- Given that the layer's dense product holds the reference's, the aggregated rows are the reference's. -/
theorem W11_main_v75 (h62 : W10 m c main_v62 = ReferenceIdeal.ReadP.val_main_v81 (F := F) (x0 m c) (x1 m c) (x3 m c) (x4 m c) (x5 m c) (x6 m c) (x7 m c)) :
    W11 m c main_v75 = ReferenceIdeal.ReadP.val_main_v109 (F := F) (x0 m c) (x1 m c) (x3 m c) (x4 m c) (x5 m c) (x6 m c) (x7 m c) := by
  have h3 := W10_v3 m c; have h6 := W10_v6 m c; have h29 := W10_v29 m c
  show StableHlo.after hostOps5 (W10 m c) (Proc.devRef .tc main_v75) = _
  generalize W10 m c = W at h3 h6 h29 h62 ⊢
  after_results
  rw [h3, h6, h29, h62]; rfl

set_option maxHeartbeats 2000000 in
/-- The layer's bias as one row: the kernel program reshapes the vector, the reference broadcasts it in dimensions. -/
theorem W11_main_v76 : W11 m c main_v76 = ReferenceIdeal.ReadP.val_main_v110 (F := F) (x8 m c) := by
  have ha := W10_main_arg8 m c
  show StableHlo.after hostOps5 (W10 m c) (Proc.devRef .tc main_v76) = _
  generalize W10 m c = W at ha ⊢
  after_results
  rw [ha]
  exact row64 (x8 m c)

/-! ## Before and after the pooling region -/

set_option maxHeartbeats 2000000 in
/-- The graph ids as one column: the kernel program reshapes the vector, the reference broadcasts it in dimensions. -/
theorem W13_v78 : W13 m c main_v78 = ReferenceIdeal.ReadP.val_main_v114 (F := F) (x2 m c) := by
  have ha := W12_main_arg2 m c
  show StableHlo.after hostOps6 (W12 m c) (Proc.devRef .tc main_v78) = _
  generalize W12 m c = W at ha ⊢
  after_results
  rw [ha]
  exact col50000 (x2 m c)

theorem W13_v77 : W13 m c main_v77 = W12 m c main_v77 := W13_of m c main_v77 (by decide)

set_option maxHeartbeats 2000000 in
/-- The last stretch: the sums divided, row by row, by the larger of the count and one. -/
theorem W15_v84 : W15 m c main_v84 = Host.divf (W14 m c main_v79_0)
    (broadcastInDim S128x64 ![0, 1] bcast_S128x1_S128x64_0_1 (maximumf (shapeCast S128x1 (W14 m c main_v79_1) shapeCasts_S1x128_S128x1)
      (broadcastInDim S128x1 ![] bcast_S_S128x1 (constant S_ .f32 0x3F800000#32)))) := by
  show StableHlo.after hostOps7 (W14 m c) (Proc.devRef .tc main_v84) = _
  generalize W14 m c = W
  after_results
  rfl

end Cert.KernelIdeal.Hand

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.KI.ValDense.lean ====
/-
  What the three dense-product regions leave in their output arrays, each as one whole-array function of the region's
  two input arrays.

  Each region multiplies a [50000, k] array X by a small [k, n] array W, five blocks of 10000 rows at a time: at grid
  point t the body loads rows 10000·t … 10000·t + 9999 of X and the whole of W, casts both to another float format
  (the identity on the extended reals), multiplies them into a zero accumulator and stores the [10000, n] result, which
  is written back as rows 10000·t … of the output. On the extended reals the product into zero at (p, q) is
  Σ_l x(p, l)·w(l, q), so the block written at t is the restriction to those rows of the one function
  (r, h) ↦ Σ_l X(r, l)·W(l, h); row r lies in the block of point r / 10000 and every point writes its block back, so the
  five blocks cover the array, which therefore ends holding that function: the host's product of the two whole arrays.
-/
import proofs.«402628_j81466939670848_1_alg».proof.Proof.KI.Reg0
import proofs.«402628_j81466939670848_1_alg».proof.Proof.KI.Reg2
import proofs.«402628_j81466939670848_1_alg».proof.Proof.KI.Reg4
import proofs.«402628_j81466939670848_1_alg».proof.Proof.RefReadP
import proofs.«402628_j81466939670848_1_alg».proof.Proof.LibDenseLayer
import Idealize.ShloMosaic.Lib.Pipeline.Value
import Idealize.ShloMosaic.Lib.ValueIdx
import Idealize.ShloMosaic.PureOps.Ideal.Laws

set_option maxRecDepth 16384

noncomputable section

/-! ## The product of an M×k matrix with a k×n matrix, as one function of the result's index -/

namespace Cert.KernelIdeal.Hand.DenseProduct

open Idealize.ShloMosaic Idealize.ShloMosaic.ValueIdx Idealize.ShloMosaic.DenseLayer

section General
variable {m M k n : ℕ}

/-- Entry (r, h) of X·W is Σ_l X(r, l)·W(l, h). -/
def rowsByCols (X : (⟨2, ![M, k]⟩ : Shape).Idx → EReal) (W : (⟨2, ![k, n]⟩ : Shape).Idx → EReal) :
    (⟨2, ![M, n]⟩ : Shape).Idx → EReal :=
  fun i => ∑ l : Fin k, X (ix2 (i 0 : Fin M) l) * W (ix2 l (i 1 : Fin n))

/-- The host's product of the two whole arrays is X·W. -/
theorem dotGeneral_eq (w : DotDims.WF ⟨2, ![M, k]⟩ ⟨2, ![k, n]⟩ ⟨2, ![M, n]⟩ [1] [0] [0] [1] [] [])
    (X : (⟨2, ![M, k]⟩ : Shape).Idx → EReal) (W : (⟨2, ![k, n]⟩ : Shape).Idx → EReal) :
    FloatOps.dotGeneral (F := Ideal) (φ₁ := .f32) (φ₂ := .f32) (⟨[1], [0], [0], [1], [], [], w⟩ : DotDims _ _ _) none .single X W
      = rowsByCols X W := by
  funext i
  obtain ⟨r, h, rfl⟩ : ∃ (r : Fin M) (h : Fin n), i = ix2 r h := ⟨i 0, i 1, eq_ix2 i⟩
  exact dotGeneral_rows_apply (φ₁ := .f32) (φ₂ := .f32) w none .single X W r h

/-- The kernel's product into the zero accumulator, its operands cast to another float format first, is A·B. -/
theorem matmul_eq {φ₁ φ₂ : FTy} (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) :
    FloatOps.matmul (⟨[1], [0], [0], [1], [], [], w⟩ : DotDims _ _ _) none A B (constant ⟨2, ![m, n]⟩ .f32 0x00000000#32)
      = rowsByCols A B := by
  funext i
  obtain ⟨r, h, rfl⟩ : ∃ (r : Fin m) (h : Fin n), i = ix2 r h := ⟨i 0, i 1, eq_ix2 i⟩
  exact matmul_rows_apply w none A B r h

/-- Rows b·m … b·m + m − 1 of X·W are the product of that block of rows of X with W: if the block `x0` reads X at
    row b·m + (its own row) and `x1` is W, then x0·x1 at (p, q) is X·W at (b·m + p, q). -/
theorem rowsByCols_block (X : (⟨2, ![M, k]⟩ : Shape).Idx → EReal) (W : (⟨2, ![k, n]⟩ : Shape).Idx → EReal)
    (x0 : (⟨2, ![m, k]⟩ : Shape).Idx → EReal) (x1 : (⟨2, ![k, n]⟩ : Shape).Idx → EReal) (b : ℕ)
    (hx0 : ∀ (y : (⟨2, ![m, k]⟩ : Shape).Idx) (i : (⟨2, ![M, k]⟩ : Shape).Idx),
      (i 0).val = b * m + (y 0).val → (i 1).val = (y 1).val → x0 y = X i)
    (hx1 : x1 = W) (j : (⟨2, ![m, n]⟩ : Shape).Idx) (i : (⟨2, ![M, n]⟩ : Shape).Idx)
    (hi0 : (i 0).val = b * m + (j 0).val) (hi1 : (i 1).val = (j 1).val) :
    rowsByCols x0 x1 j = rowsByCols X W i := by
  subst hx1
  unfold rowsByCols
  refine Finset.sum_congr rfl fun l _ => ?_
  rw [hx0 (ix2 (j 0 : Fin m) l) (ix2 (i 0 : Fin M) l) hi0 rfl]
  exact congrArg (fun q : Fin n => X (ix2 (i 0 : Fin M) l) * x1 (ix2 l q)) (Fin.ext hi1.symm)

end General

/-! ## The three regions, block by block -/

open Cert.KernelIdeal Cert.KernelIdeal.Gen Idealize.ShloMosaic.TcCoe Idealize.SL.Sem
open Idealize.ShloMosaic.Pipeline (Dat)

variable (V : (c : Dev nD) → (b : Ref sig .tc) → Buf (Elt Ideal) ((c : Thread nD τ).loc b))

/-- The zero offsets the bodies load and store through, however spelt. -/
theorem zeroOffsets : (![0, 0] : Fin 2 → Nat) = fun _ => 0 := funext fun a => by fin_cases a <;> rfl

/-! ## Region 0 -/

/-- Where region 0's three windows sit at each of the five grid points: the two row-blocked ones at the point's own
    row block, the small operand at its one block. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The payload of region 0 is the product of its two loaded blocks. -/
theorem k0_pay1_eq (x0 : Vec Ideal S10000x128 .f32) (x1 : Vec Ideal S128x128 .f32) :
    k0_pay1 (F := Ideal) x0 x1 = rowsByCols x0 x1 := by
  unfold k0_pay1
  exact matmul_eq dot_S10000x128_S128x128_S10000x128_1_0_0_1_n_n.wf _ _

/-- The block of the [50000, 128] input at point `t` is its rows 10000·t … 10000·t + 9999. -/
theorem iblk0_0_apply (c : Dev nD) (t : Fin cfg0.N) (y : S10000x128.Idx) (i : S50000x128.Idx)
    (hi0 : (i 0).val = t.val * 10000 + (y 0).val) (hi1 : (i 1).val = (y 1).val) :
    (iblk0 V c 0 t : Vec Ideal S10000x128 .f32) y = (V c main_arg0 : S50000x128.Idx → EReal) i := by
  obtain ⟨e0, e1, -⟩ := blockIndex0 t
  unfold iblk0
  rw [View.read_apply]
  show V c main_arg0 _ = V c main_arg0 _
  congr 1
  funext a
  apply Fin.ext
  match a with
  | ⟨0, _⟩ => show win0_0.index t 0 * 10000 + 1 * (y 0).val = (i 0).val; rw [e0, hi0]; omega
  | ⟨1, _⟩ => show win0_0.index t 1 * 128 + 1 * (y 1).val = (i 1).val; rw [e1, hi1]; omega

/-- The one block of the small operand is the whole of it, at every point. -/
theorem iblk0_1_eq (c : Dev nD) (t : Fin cfg0.N) :
    (iblk0 V c 1 t : Vec Ideal S128x128 .f32) = (V c main_arg3 : S128x128.Idx → EReal) := by
  obtain ⟨-, -, e0, e1, -⟩ := blockIndex0 t
  funext y
  unfold iblk0
  rw [View.read_apply]
  show V c main_arg3 _ = V c main_arg3 y
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- What point `t` writes back is rows 10000·t … of the product of the two whole arrays. -/
theorem flushed0_eq (c : Dev nD) (t : Fin cfg0.N) :
    (dat0 (F := Ideal) V c).flushed 2 t
      = ((cfg0.win 2).blk t).view.read (Elt Ideal) (rowsByCols (V c main_arg0 : S50000x128.Idx → EReal) (V c main_arg3 : S128x128.Idx → EReal)) := by
  show (cfg0.win 2).cut (grid0.coords t) ((dat0 V c).after 2 t) = _
  rw [after0_2]
  unfold out0_2
  rw [View.canon_unit_zero zeroOffsets]
  simp only [View.ld_unit_zero (S := S10000x128) zeroOffsets, View.ld_unit_zero (S := S128x128) zeroOffsets]
  obtain ⟨-, -, -, -, e0, e1⟩ := blockIndex0 t
  funext j
  rw [View.read_apply]
  refine (congrFun (k0_pay1_eq (iblk0 V c 0 t) (iblk0 V c 1 t)) j).trans ?_
  refine rowsByCols_block (m := 10000) (M := 50000) (k := 128) (n := 128) _ _ _ _ t.val (fun y i => iblk0_0_apply V c t y i) (iblk0_1_eq V c t) j _ ?_ ?_
  · show win0_2.index t 0 * 10000 + 1 * (j 0).val = t.val * 10000 + (j 0).val; rw [e0]; omega
  · show win0_2.index t 1 * 128 + 1 * (j 1).val = (j 1).val; rw [e1]; omega

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Row r of the output is in the block of point r / 10000, and every point writes its block back. -/
theorem cover0 (i : S50000x128.Idx) :
    ∃ t : Fin cfg0.N, (cfg0.win 2).flush t = true ∧ i ∈ ((cfg0.win 2).blk t).view.set := by
  have h0 : (i 0).val < 50000 := (i 0).isLt
  have h1 : (i 1).val < 128 := (i 1).isLt
  have hN : cfg0.N = 5 := N_0
  obtain ⟨t, ht⟩ : ∃ t : Fin cfg0.N, t.val = (i 0).val / 10000 := ⟨⟨(i 0).val / 10000, by rw [hN]; omega⟩, rfl⟩
  obtain ⟨-, -, -, -, e0, e1⟩ := blockIndex0 t
  refine ⟨t, flush0_2 t, ?_⟩
  rw [mem_blk0]
  intro a
  match a with
  | ⟨0, _⟩ => show win0_2.index t 0 * 10000 ≤ (i 0).val ∧ (i 0).val < win0_2.index t 0 * 10000 + 10000; rw [e0, ht]; omega
  | ⟨1, _⟩ => show win0_2.index t 1 * 128 ≤ (i 1).val ∧ (i 1).val < win0_2.index t 1 * 128 + 128; rw [e1]; omega

/-! ## Region 2 -/

/-- Where region 2's three windows sit at each of the five grid points: the two row-blocked ones at the point's own
    row block, the small operand at its one block. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The payload of region 2 is the product of its two loaded blocks: the cast of the first to its own shape changes nothing. -/
theorem k2_pay1_eq (x0 : Vec Ideal S10000x128 .f32) (x1 : Vec Ideal S128x128 .f32) :
    k2_pay1 (F := Ideal) x0 x1 = rowsByCols x0 x1 := by
  unfold k2_pay1
  refine (matmul_eq dot_S10000x128_S128x128_S10000x128_1_0_0_1_n_n.wf _ _).trans ?_
  exact congrArg (fun a : S10000x128.Idx → EReal => rowsByCols a x1) (shapeCast_self x0 _)

/-- The block of the [50000, 128] input at point `t` is its rows 10000·t … 10000·t + 9999. -/
theorem iblk2_0_apply (c : Dev nD) (t : Fin cfg2.N) (y : S10000x128.Idx) (i : S50000x128.Idx)
    (hi0 : (i 0).val = t.val * 10000 + (y 0).val) (hi1 : (i 1).val = (y 1).val) :
    (iblk2 V c 0 t : Vec Ideal S10000x128 .f32) y = (V c main_v45 : S50000x128.Idx → EReal) i := by
  obtain ⟨e0, e1, -⟩ := blockIndex2 t
  unfold iblk2
  rw [View.read_apply]
  show V c main_v45 _ = V c main_v45 _
  congr 1
  funext a
  apply Fin.ext
  match a with
  | ⟨0, _⟩ => show win2_0.index t 0 * 10000 + 1 * (y 0).val = (i 0).val; rw [e0, hi0]; omega
  | ⟨1, _⟩ => show win2_0.index t 1 * 128 + 1 * (y 1).val = (i 1).val; rw [e1, hi1]; omega

/-- The one block of the small operand is the whole of it, at every point. -/
theorem iblk2_1_eq (c : Dev nD) (t : Fin cfg2.N) :
    (iblk2 V c 1 t : Vec Ideal S128x128 .f32) = (V c main_arg5 : S128x128.Idx → EReal) := by
  obtain ⟨-, -, e0, e1, -⟩ := blockIndex2 t
  funext y
  unfold iblk2
  rw [View.read_apply]
  show V c main_arg5 _ = V c main_arg5 y
  congr 1
  funext a
  apply Fin.ext
  match a with
  | ⟨0, _⟩ => show win2_1.index t 0 * 128 + 1 * (y 0).val = (y 0).val; rw [e0]; omega
  | ⟨1, _⟩ => show win2_1.index t 1 * 128 + 1 * (y 1).val = (y 1).val; rw [e1]; omega

/-- What point `t` writes back is rows 10000·t … of the product of the two whole arrays. -/
theorem flushed2_eq (c : Dev nD) (t : Fin cfg2.N) :
    (dat2 (F := Ideal) V c).flushed 2 t
      = ((cfg2.win 2).blk t).view.read (Elt Ideal) (rowsByCols (V c main_v45 : S50000x128.Idx → EReal) (V c main_arg5 : S128x128.Idx → EReal)) := by
  show (cfg2.win 2).cut (grid2.coords t) ((dat2 V c).after 2 t) = _
  rw [after2_2]
  unfold out2_2
  rw [View.canon_unit_zero zeroOffsets]
  simp only [View.ld_unit_zero (S := S10000x128) zeroOffsets, View.ld_unit_zero (S := S128x128) zeroOffsets]
  obtain ⟨-, -, -, -, e0, e1⟩ := blockIndex2 t
  funext j
  rw [View.read_apply]
  refine (congrFun (k2_pay1_eq (iblk2 V c 0 t) (iblk2 V c 1 t)) j).trans ?_
  refine rowsByCols_block (m := 10000) (M := 50000) (k := 128) (n := 128) _ _ _ _ t.val (fun y i => iblk2_0_apply V c t y i) (iblk2_1_eq V c t) j _ ?_ ?_
  · show win2_2.index t 0 * 10000 + 1 * (j 0).val = t.val * 10000 + (j 0).val; rw [e0]; omega
  · show win2_2.index t 1 * 128 + 1 * (j 1).val = (j 1).val; rw [e1]; omega

/-- An index of the output array is in point `t`'s block iff each coordinate is in the block's range on its axis. -/
theorem mem_blk2 (t : Fin cfg2.N) (i : S50000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v46).slice (win2_2.rect t)).set ↔ _
  rw [View.set_slice_whole, Rect.mem_set_unit]
  exact Iff.rfl

/-- Row r of the output is in the block of point r / 10000, and every point writes its block back. -/
theorem cover2 (i : S50000x128.Idx) :
    ∃ t : Fin cfg2.N, (cfg2.win 2).flush t = true ∧ i ∈ ((cfg2.win 2).blk t).view.set := by
  have h0 : (i 0).val < 50000 := (i 0).isLt
  have h1 : (i 1).val < 128 := (i 1).isLt
  have hN : cfg2.N = 5 := N_2
  obtain ⟨t, ht⟩ : ∃ t : Fin cfg2.N, t.val = (i 0).val / 10000 := ⟨⟨(i 0).val / 10000, by rw [hN]; omega⟩, rfl⟩
  obtain ⟨-, -, -, -, e0, e1⟩ := blockIndex2 t
  refine ⟨t, flush2_2 t, ?_⟩
  rw [mem_blk2]
  intro a
  match a with
  | ⟨0, _⟩ => show win2_2.index t 0 * 10000 ≤ (i 0).val ∧ (i 0).val < win2_2.index t 0 * 10000 + 10000; rw [e0, ht]; omega
  | ⟨1, _⟩ => show win2_2.index t 1 * 128 ≤ (i 1).val ∧ (i 1).val < win2_2.index t 1 * 128 + 128; rw [e1]; omega

/-! ## Region 4 -/

/-- Where region 4's three windows sit at each of the five grid points: the two row-blocked ones at the point's own
    row block, the small operand at its one block. -/
theorem blockIndex4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The payload of region 4 is the product of its two loaded blocks: the cast of the first to its own shape changes nothing. -/
theorem k4_pay1_eq (x0 : Vec Ideal S10000x128 .f32) (x1 : Vec Ideal S128x64 .f32) :
    k4_pay1 (F := Ideal) x0 x1 = rowsByCols x0 x1 := by
  unfold k4_pay1
  refine (matmul_eq dot_S10000x128_S128x64_S10000x64_1_0_0_1_n_n.wf _ _).trans ?_
  exact congrArg (fun a : S10000x128.Idx → EReal => rowsByCols a x1) (shapeCast_self x0 _)

/-- The block of the [50000, 128] input at point `t` is its rows 10000·t … 10000·t + 9999. -/
theorem iblk4_0_apply (c : Dev nD) (t : Fin cfg4.N) (y : S10000x128.Idx) (i : S50000x128.Idx)
    (hi0 : (i 0).val = t.val * 10000 + (y 0).val) (hi1 : (i 1).val = (y 1).val) :
    (iblk4 V c 0 t : Vec Ideal S10000x128 .f32) y = (V c main_v61 : S50000x128.Idx → EReal) i := by
  obtain ⟨e0, e1, -⟩ := blockIndex4 t
  unfold iblk4
  rw [View.read_apply]
  show V c main_v61 _ = V c main_v61 _
  congr 1
  funext a
  apply Fin.ext
  match a with
  | ⟨0, _⟩ => show win4_0.index t 0 * 10000 + 1 * (y 0).val = (i 0).val; rw [e0, hi0]; omega
  | ⟨1, _⟩ => show win4_0.index t 1 * 128 + 1 * (y 1).val = (i 1).val; rw [e1, hi1]; omega

/-- The one block of the small operand is the whole of it, at every point. -/
theorem iblk4_1_eq (c : Dev nD) (t : Fin cfg4.N) :
    (iblk4 V c 1 t : Vec Ideal S128x64 .f32) = (V c main_arg7 : S128x64.Idx → EReal) := by
  obtain ⟨-, -, e0, e1, -⟩ := blockIndex4 t
  funext y
  unfold iblk4
  rw [View.read_apply]
  show V c main_arg7 _ = V c main_arg7 y
  congr 1
  funext a
  apply Fin.ext
  match a with
  | ⟨0, _⟩ => show win4_1.index t 0 * 128 + 1 * (y 0).val = (y 0).val; rw [e0]; omega
  | ⟨1, _⟩ => show win4_1.index t 1 * 64 + 1 * (y 1).val = (y 1).val; rw [e1]; omega

/-- What point `t` writes back is rows 10000·t … of the product of the two whole arrays. -/
theorem flushed4_eq (c : Dev nD) (t : Fin cfg4.N) :
    (dat4 (F := Ideal) V c).flushed 2 t
      = ((cfg4.win 2).blk t).view.read (Elt Ideal) (rowsByCols (V c main_v61 : S50000x128.Idx → EReal) (V c main_arg7 : S128x64.Idx → EReal)) := by
  show (cfg4.win 2).cut (grid4.coords t) ((dat4 V c).after 2 t) = _
  rw [after4_2]
  unfold out4_2
  rw [View.canon_unit_zero zeroOffsets]
  simp only [View.ld_unit_zero (S := S10000x128) zeroOffsets, View.ld_unit_zero (S := S128x64) zeroOffsets]
  obtain ⟨-, -, -, -, e0, e1⟩ := blockIndex4 t
  funext j
  rw [View.read_apply]
  refine (congrFun (k4_pay1_eq (iblk4 V c 0 t) (iblk4 V c 1 t)) j).trans ?_
  refine rowsByCols_block (m := 10000) (M := 50000) (k := 128) (n := 64) _ _ _ _ t.val (fun y i => iblk4_0_apply V c t y i) (iblk4_1_eq V c t) j _ ?_ ?_
  · show win4_2.index t 0 * 10000 + 1 * (j 0).val = t.val * 10000 + (j 0).val; rw [e0]; omega
  · show win4_2.index t 1 * 64 + 1 * (j 1).val = (j 1).val; rw [e1]; omega

/-- An index of the output array is in point `t`'s block iff each coordinate is in the block's range on its axis. -/
theorem mem_blk4 (t : Fin cfg4.N) (i : S50000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v62).slice (win4_2.rect t)).set ↔ _
  rw [View.set_slice_whole, Rect.mem_set_unit]
  exact Iff.rfl

/-- Row r of the output is in the block of point r / 10000, and every point writes its block back. -/
theorem cover4 (i : S50000x64.Idx) :
    ∃ t : Fin cfg4.N, (cfg4.win 2).flush t = true ∧ i ∈ ((cfg4.win 2).blk t).view.set := by
  have h0 : (i 0).val < 50000 := (i 0).isLt
  have h1 : (i 1).val < 64 := (i 1).isLt
  have hN : cfg4.N = 5 := N_4
  obtain ⟨t, ht⟩ : ∃ t : Fin cfg4.N, t.val = (i 0).val / 10000 := ⟨⟨(i 0).val / 10000, by rw [hN]; omega⟩, rfl⟩
  obtain ⟨-, -, -, -, e0, e1⟩ := blockIndex4 t
  refine ⟨t, flush4_2 t, ?_⟩
  rw [mem_blk4]
  intro a
  match a with
  | ⟨0, _⟩ => show win4_2.index t 0 * 10000 ≤ (i 0).val ∧ (i 0).val < win4_2.index t 0 * 10000 + 10000; rw [e0, ht]; omega
  | ⟨1, _⟩ => show win4_2.index t 1 * 64 ≤ (i 1).val ∧ (i 1).val < win4_2.index t 1 * 64 + 64; rw [e1]; omega

end Cert.KernelIdeal.Hand.DenseProduct

/-! ## The three output arrays after their regions -/

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Hand.DenseProduct

variable (V : (c : Dev nD) → (b : Ref sig .tc) → Buf (Elt Ideal) ((c : Thread nD τ).loc b))

/-- After region 0 its output array holds the host's product of the two whole input arrays. -/
theorem dense0 (c : Dev nD) :
    (dat0 (F := Ideal) V c).arrAt 2 cfg0.N
      = Host.dotGeneral (F := Ideal) (φ₁ := .f32) (φ₂ := .f32) Cert.ReferenceIdeal.dot_S50000x128_S128x128_S50000x128_1_0_0_1_n_n none (V c main_arg0) (V c main_arg3) :=
  ((dat0 V c).arrAt_eq_of_cover 2 (rowsByCols (V c main_arg0 : S50000x128.Idx → EReal) (V c main_arg3 : S128x128.Idx → EReal))
      (fun t _ => flushed0_eq V c t) cover0).trans
    (dotGeneral_eq Cert.ReferenceIdeal.dot_S50000x128_S128x128_S50000x128_1_0_0_1_n_n.wf (V c main_arg0) (V c main_arg3)).symm

/-- After region 2 its output array holds the host's product of the two whole input arrays. -/
theorem dense2 (c : Dev nD) :
    (dat2 (F := Ideal) V c).arrAt 2 cfg2.N
      = Host.dotGeneral (F := Ideal) (φ₁ := .f32) (φ₂ := .f32) Cert.ReferenceIdeal.dot_S50000x128_S128x128_S50000x128_1_0_0_1_n_n none (V c main_v45) (V c main_arg5) :=
  ((dat2 V c).arrAt_eq_of_cover 2 (rowsByCols (V c main_v45 : S50000x128.Idx → EReal) (V c main_arg5 : S128x128.Idx → EReal))
      (fun t _ => flushed2_eq V c t) cover2).trans
    (dotGeneral_eq Cert.ReferenceIdeal.dot_S50000x128_S128x128_S50000x128_1_0_0_1_n_n.wf (V c main_v45) (V c main_arg5)).symm

/-- After region 4 its output array holds the host's product of the two whole input arrays. -/
theorem dense4 (c : Dev nD) :
    (dat4 (F := Ideal) V c).arrAt 2 cfg4.N
      = Host.dotGeneral (F := Ideal) (φ₁ := .f32) (φ₂ := .f32) Cert.ReferenceIdeal.dot_S50000x128_S128x64_S50000x64_1_0_0_1_n_n none (V c main_v61) (V c main_arg7) :=
  ((dat4 V c).arrAt_eq_of_cover 2 (rowsByCols (V c main_v61 : S50000x128.Idx → EReal) (V c main_arg7 : S128x64.Idx → EReal))
      (fun t _ => flushed4_eq V c t) cover4).trans
    (dotGeneral_eq Cert.ReferenceIdeal.dot_S50000x128_S128x64_S50000x64_1_0_0_1_n_n.wf (V c main_v61) (V c main_arg7)).symm

end Cert.KernelIdeal.Hand

end
-- ==== Proof.KI.ValBias.lean ====
/-
  What the three bias regions leave in their output arrays.

  Each of the three layers ends by adding a bias, a vector of n entries held as a one-row array [1, n], to every row
  of a [50000, n] array; the first two layers then take the maximum with zero. A region does this five times, on blocks
  of 10000 rows: at grid point t it reads rows 10000·t … 10000·t + 9999 of the input and the whole bias row, and writes
  the same rows of the output. Entry (p, q) of the block it stores is the input block's entry (p, q) plus the bias
  row's entry q (then the maximum with zero), and the input block's entry (p, q) is the array's entry
  (10000·t + p, q): so what point t writes back is block t of ONE function of the two arrays,

      (r, h) ↦ X (r, h) + B (0, h)            (then the maximum with zero for the first two layers).

  Row r lies in the block of point r / 10000, so the five blocks cover the array and the array ends holding that
  function. The host spells the same function as the one-row array broadcast down the rows, an add, and the maximum
  with a broadcast zero constant; read at an index the two spellings agree, and the three theorems at the end state
  each output array in the host's spelling.
-/
import proofs.«402628_j81466939670848_1_alg».proof.Proof.KI.Reg1
import proofs.«402628_j81466939670848_1_alg».proof.Proof.KI.Reg3
import proofs.«402628_j81466939670848_1_alg».proof.Proof.KI.Reg5
import proofs.«402628_j81466939670848_1_alg».proof.Proof.RefReadP
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

/-! ## The function, and its two spellings read at an index -/

/-- The bias row added to every row: entry (r, h) of the array plus entry h of the row. -/
def biasRows {a b : ℕ} (X : (⟨2, ![a, b]⟩ : Shape).Idx → EReal) (B : (⟨2, ![1, b]⟩ : Shape).Idx → EReal) :
    (⟨2, ![a, b]⟩ : Shape).Idx → EReal :=
  fun i => X i + B (ix2 (0 : Fin 1) (i 1 : Fin b))

/-- The same, then the maximum with zero. -/
def biasRowsRelu {a b : ℕ} (X : (⟨2, ![a, b]⟩ : Shape).Idx → EReal) (B : (⟨2, ![1, b]⟩ : Shape).Idx → EReal) :
    (⟨2, ![a, b]⟩ : Shape).Idx → EReal :=
  fun i => max (X i + B (ix2 (0 : Fin 1) (i 1 : Fin b))) 0

/-- The offsets of a rectangle that is its whole buffer. -/
theorem zeroOffsets2 : (![0, 0] : Fin 2 → Nat) = fun _ => 0 := funext fun a => by fin_cases a <;> rfl

/-- A block of rows plus the row laid down its rows, read at (p, q). -/
theorem addf_row_apply {a b : ℕ} (x : FVec Ideal ⟨2, ![a, b]⟩ .f32) (v : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    addf (shapeCast ⟨2, ![a, b]⟩ x h0) (broadcastTo ⟨2, ![a, b]⟩ (shapeCast ⟨2, ![1, b]⟩ v h1) hb) (ix2 p q)
      = x (ix2 p q) + v (ix2 (0 : Fin 1) q) := by
  rw [addf_apply, shapeCast_self, shapeCast_self, broadcastTo_1b_ab_apply]

/-- The kernel's spelling without the maximum, at an entry y of a block x of rows whose entry is the array's at i (same
    column): the function at i. -/
theorem addf_row_at {a b n : ℕ} (x : FVec Ideal ⟨2, ![a, b]⟩ .f32) (v : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩)
    (X : (⟨2, ![n, b]⟩ : Shape).Idx → EReal) (B : (⟨2, ![1, b]⟩ : Shape).Idx → EReal)
    (y : (⟨2, ![a, b]⟩ : Shape).Idx) (i : (⟨2, ![n, b]⟩ : Shape).Idx)
    (hx : x y = X i) (hv : ∀ z, v z = B z) (hc : (i 1).val = (y 1).val) :
    addf (shapeCast ⟨2, ![a, b]⟩ x h0) (broadcastTo ⟨2, ![a, b]⟩ (shapeCast ⟨2, ![1, b]⟩ v h1) hb) y
      = biasRows X B i := by
  obtain ⟨p, q, rfl⟩ : ∃ (p : Fin a) (q : Fin b), y = ix2 p q := ⟨y 0, y 1, eq_ix2 y⟩
  rw [addf_row_apply, hx, hv]
  unfold biasRows
  have hq : (i 1 : Fin b) = q := Fin.ext hc
  rw [hq]

/-- The kernel's spelling with the maximum against a splat zero, likewise. -/
theorem relu_addf_row_at {a b n : ℕ} (x : FVec Ideal ⟨2, ![a, b]⟩ .f32) (v : FVec Ideal ⟨2, ![1, b]⟩ .f32)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩)
    (X : (⟨2, ![n, b]⟩ : Shape).Idx → EReal) (B : (⟨2, ![1, b]⟩ : Shape).Idx → EReal)
    (y : (⟨2, ![a, b]⟩ : Shape).Idx) (i : (⟨2, ![n, b]⟩ : Shape).Idx)
    (hx : x y = X i) (hv : ∀ z, v z = B z) (hc : (i 1).val = (y 1).val) :
    maximumf (addf (shapeCast ⟨2, ![a, b]⟩ x h0) (broadcastTo ⟨2, ![a, b]⟩ (shapeCast ⟨2, ![1, b]⟩ v h1) hb))
        (broadcast ⟨2, ![a, b]⟩ (Scalar.ofBits .f32 0x00000000#32 : Ideal .f32)) y
      = biasRowsRelu X B i := by
  refine (maximumf_apply _ _ _).trans ?_
  rw [addf_row_at x v h0 h1 hb X B y i hx hv hc, broadcast_apply]
  show max _ (Ideal.ofBits .f32 0x00000000#32) = _
  rw [Ideal.ofBits_zero_f32]
  rfl

/-- The host's spelling: the one-row array broadcast down the rows, added, then the maximum with a broadcast zero. -/
theorem host_biasRowsRelu {a b : ℕ} (hbc : (⟨2, ![1, b]⟩ : Shape).BroadcastsInDim ⟨2, ![a, b]⟩ ![0, 1])
    (hz0 : (⟨0, ![]⟩ : Shape).BroadcastsInDim ⟨2, ![a, b]⟩ ![])
    (X : FVec Ideal ⟨2, ![a, b]⟩ .f32) (B : FVec Ideal ⟨2, ![1, b]⟩ .f32) :
    maximumf (addf X (broadcastInDim ⟨2, ![a, b]⟩ ![0, 1] hbc B))
        (broadcastInDim ⟨2, ![a, b]⟩ ![] hz0 (constant (F := Ideal) ⟨0, ![]⟩ .f32 0x00000000#32))
      = biasRowsRelu X B := by
  funext i
  obtain ⟨p, q, rfl⟩ : ∃ (p : Fin a) (q : Fin b), i = ix2 p q := ⟨i 0, i 1, eq_ix2 i⟩
  rw [maximumf_apply, addf_apply, broadcastInDim_oneRow_apply]
  unfold biasRowsRelu
  show max _ (Ideal.ofBits .f32 0x00000000#32) = _
  rw [Ideal.ofBits_zero_f32]
  rfl

/-- The host's spelling without the maximum. -/
theorem host_biasRows {a b : ℕ} (hbc : (⟨2, ![1, b]⟩ : Shape).BroadcastsInDim ⟨2, ![a, b]⟩ ![0, 1])
    (X : FVec Ideal ⟨2, ![a, b]⟩ .f32) (B : FVec Ideal ⟨2, ![1, b]⟩ .f32) :
    addf X (broadcastInDim ⟨2, ![a, b]⟩ ![0, 1] hbc B) = biasRows X B := by
  funext i
  obtain ⟨p, q, rfl⟩ : ∃ (p : Fin a) (q : Fin b), i = ix2 p q := ⟨i 0, i 1, eq_ix2 i⟩
  rw [addf_apply, broadcastInDim_oneRow_apply]
  rfl

variable (V : (c : Dev nD) → (b : Ref sig .tc) → Buf (Elt Ideal) ((c : Thread nD τ).loc b))

/-! ## Region 1: the first layer's bias and maximum with zero -/

/-- The body's store at an entry y of the block whose row sits at row i of the array: the function at i. -/
theorem pay1_at (x0 : Vec Ideal S10000x128 .f32) (x1 : Vec Ideal S1x128 .f32) (X : S50000x128.Idx → EReal)
    (B : S1x128.Idx → EReal) (y : S10000x128.Idx) (i : S50000x128.Idx) (hx : x0 y = X i) (hv : ∀ z, x1 z = B z)
    (hc : (i 1).val = (y 1).val) : k1_pay1 x0 x1 y = biasRowsRelu X B i := by
  unfold k1_pay1
  exact relu_addf_row_at x0 x1 _ _ _ X B y i hx hv hc

/-- The printed index maps over the grid: the row block is the grid coordinate for the input and the output alike, the
    bias row's block is the one there is. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An input block's entry is the array's entry at the block's rows. -/
theorem rows1_apply (c : Dev nD) (t : Fin cfg1.N) (y : S10000x128.Idx) (i : S50000x128.Idx)
    (h0 : (i 0).val = t.val * 10000 + (y 0).val) (h1 : (i 1).val = (y 1).val) :
    (iblk1 V c 0 t : Vec Ideal S10000x128 .f32) y = (V c main_v43 : S50000x128.Idx → EReal) i := by
  obtain ⟨e0, e1, -⟩ := idx_facts1 t
  unfold iblk1
  rw [View.read_apply]
  show V c main_v43 _ = V c main_v43 _
  congr 1
  funext a
  apply Fin.ext
  match a with
  | ⟨0, _⟩ => show win1_0.index t 0 * 10000 + 1 * (y 0).val = (i 0).val; rw [e0, h0]; omega
  | ⟨1, _⟩ => show win1_0.index t 1 * 128 + 1 * (y 1).val = (i 1).val; rw [e1, h1]; omega

/-- The bias window's one block is the bias row. -/
theorem row1_apply (c : Dev nD) (t : Fin cfg1.N) (y : S1x128.Idx) :
    (iblk1 V c 1 t : Vec Ideal S1x128 .f32) y = (V c main_v44 : S1x128.Idx → EReal) y := by
  obtain ⟨-, -, e0, e1, -⟩ := idx_facts1 t
  unfold iblk1
  rw [View.read_apply]
  show V c main_v44 _ = V c main_v44 _
  congr 1
  funext a
  apply Fin.ext
  match a with
  | ⟨0, _⟩ => show win1_1.index t 0 * 1 + 1 * (y 0).val = (y 0).val; rw [e0]; omega
  | ⟨1, _⟩ => show win1_1.index t 1 * 128 + 1 * (y 1).val = (y 1).val; rw [e1]; omega

/-- What point t writes back is block t of the bias row added to every row of the input array, then the maximum with zero. -/
theorem flushed1_eq (c : Dev nD) (t : Fin cfg1.N) :
    (dat1 (F := Ideal) V c).flushed 2 t
      = ((cfg1.win 2).blk t).view.read (Elt Ideal) (biasRowsRelu (V c main_v43) (V c main_v44)) := by
  show (cfg1.win 2).cut (grid1.coords t) ((dat1 V c).after 2 t) = _
  rw [after1_2]
  unfold out1_2
  rw [View.canon_unit_zero zeroOffsets2]
  simp only [View.ld_unit_zero (S := S10000x128) zeroOffsets2, View.ld_unit_zero (S := S1x128) zeroOffsets2]
  obtain ⟨-, -, -, -, e0, e1⟩ := idx_facts1 t
  funext j
  show k1_pay1 (iblk1 V c 0 t) (iblk1 V c 1 t) j
    = biasRowsRelu (V c main_v43) (V c main_v44) (((cfg1.win 2).blk t).view.emb j)
  have c0 : ((((cfg1.win 2).blk t).view.emb j : S50000x128.Idx) 0).val = t.val * 10000 + (j 0).val := by
    show win1_2.index t 0 * 10000 + 1 * (j 0).val = _; rw [e0]; omega
  have c1 : ((((cfg1.win 2).blk t).view.emb j : S50000x128.Idx) 1).val = (j 1).val := by
    show win1_2.index t 1 * 128 + 1 * (j 1).val = _; rw [e1]; omega
  exact pay1_at _ _ _ _ j _ (rows1_apply V c t j _ c0 c1) (row1_apply V c t) c1

/-- An index of the array is in point t's block iff each coordinate is in the block's range on its axis. -/
theorem mem_blk1 (t : Fin cfg1.N) (i : S50000x128.Idx) :
    i ∈ ((cfg1.win 2).blk t).view.set
      ↔ ∀ a : Fin 2, win1_2.index t a * S10000x128.size a ≤ (i a).val
          ∧ (i a).val < win1_2.index t a * S10000x128.size a + S10000x128.size a := by
  show i ∈ ((View.whole main_v45).slice (win1_2.rect t)).set ↔ _
  rw [View.set_slice_whole, Rect.mem_set_unit]
  exact Iff.rfl

/-- Row r of the array is in the block of point r / 10000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 5 := N_1
  let t : Fin cfg1.N := ⟨(i 0).val / 10000, by rw [hN]; omega⟩
  obtain ⟨-, -, -, -, e0, e1⟩ := idx_facts1 t
  have ht : t.val = (i 0).val / 10000 := rfl
  refine ⟨t, flush1_2 t, ?_⟩
  rw [mem_blk1]
  intro a
  match a with
  | ⟨0, _⟩ =>
    show win1_2.index t 0 * 10000 ≤ (i 0).val ∧ (i 0).val < win1_2.index t 0 * 10000 + 10000
    rw [e0, ht]; omega
  | ⟨1, _⟩ =>
    show win1_2.index t 1 * 128 ≤ (i 1).val ∧ (i 1).val < win1_2.index t 1 * 128 + 128
    rw [e1]; omega

/-- The first layer's output array after its bias region: the bias row added to every row, then the maximum with zero. -/
theorem arr1 (c : Dev nD) :
    (dat1 (F := Ideal) V c).arrAt 2 cfg1.N = biasRowsRelu (V c main_v43) (V c main_v44) :=
  (dat1 (F := Ideal) V c).arrAt_eq_of_cover 2 (biasRowsRelu (V c main_v43) (V c main_v44))
    (fun t _ => flushed1_eq V c t) cover1

/-! ## Region 3: the second layer's bias and maximum with zero -/

/-- The body's store at an entry y of the block whose row sits at row i of the array: the function at i. -/
theorem pay3_at (x0 : Vec Ideal S10000x128 .f32) (x1 : Vec Ideal S1x128 .f32) (X : S50000x128.Idx → EReal)
    (B : S1x128.Idx → EReal) (y : S10000x128.Idx) (i : S50000x128.Idx) (hx : x0 y = X i) (hv : ∀ z, x1 z = B z)
    (hc : (i 1).val = (y 1).val) : k3_pay1 x0 x1 y = biasRowsRelu X B i := by
  unfold k3_pay1
  exact relu_addf_row_at x0 x1 _ _ _ X B y i hx hv hc

/-- The printed index maps over the grid: the row block is the grid coordinate for the input and the output alike, the
    bias row's block is the one there is. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- An input block's entry is the array's entry at the block's rows. -/
theorem rows3_apply (c : Dev nD) (t : Fin cfg3.N) (y : S10000x128.Idx) (i : S50000x128.Idx)
    (h0 : (i 0).val = t.val * 10000 + (y 0).val) (h1 : (i 1).val = (y 1).val) :
    (iblk3 V c 0 t : Vec Ideal S10000x128 .f32) y = (V c main_v59 : S50000x128.Idx → EReal) i := by
  obtain ⟨e0, e1, -⟩ := idx_facts3 t
  unfold iblk3
  rw [View.read_apply]
  show V c main_v59 _ = V c main_v59 _
  congr 1
  funext a
  apply Fin.ext
  match a with
  | ⟨0, _⟩ => show win3_0.index t 0 * 10000 + 1 * (y 0).val = (i 0).val; rw [e0, h0]; omega
  | ⟨1, _⟩ => show win3_0.index t 1 * 128 + 1 * (y 1).val = (i 1).val; rw [e1, h1]; omega

/-- The bias window's one block is the bias row. -/
theorem row3_apply (c : Dev nD) (t : Fin cfg3.N) (y : S1x128.Idx) :
    (iblk3 V c 1 t : Vec Ideal S1x128 .f32) y = (V c main_v60 : S1x128.Idx → EReal) y := by
  obtain ⟨-, -, e0, e1, -⟩ := idx_facts3 t
  unfold iblk3
  rw [View.read_apply]
  show V c main_v60 _ = V c main_v60 _
  congr 1
  funext a
  apply Fin.ext
  match a with
  | ⟨0, _⟩ => show win3_1.index t 0 * 1 + 1 * (y 0).val = (y 0).val; rw [e0]; omega
  | ⟨1, _⟩ => show win3_1.index t 1 * 128 + 1 * (y 1).val = (y 1).val; rw [e1]; omega

/-- What point t writes back is block t of the bias row added to every row of the input array, then the maximum with zero. -/
theorem flushed3_eq (c : Dev nD) (t : Fin cfg3.N) :
    (dat3 (F := Ideal) V c).flushed 2 t
      = ((cfg3.win 2).blk t).view.read (Elt Ideal) (biasRowsRelu (V c main_v59) (V c main_v60)) := by
  show (cfg3.win 2).cut (grid3.coords t) ((dat3 V c).after 2 t) = _
  rw [after3_2]
  unfold out3_2
  rw [View.canon_unit_zero zeroOffsets2]
  simp only [View.ld_unit_zero (S := S10000x128) zeroOffsets2, View.ld_unit_zero (S := S1x128) zeroOffsets2]
  obtain ⟨-, -, -, -, e0, e1⟩ := idx_facts3 t
  funext j
  show k3_pay1 (iblk3 V c 0 t) (iblk3 V c 1 t) j
    = biasRowsRelu (V c main_v59) (V c main_v60) (((cfg3.win 2).blk t).view.emb j)
  have c0 : ((((cfg3.win 2).blk t).view.emb j : S50000x128.Idx) 0).val = t.val * 10000 + (j 0).val := by
    show win3_2.index t 0 * 10000 + 1 * (j 0).val = _; rw [e0]; omega
  have c1 : ((((cfg3.win 2).blk t).view.emb j : S50000x128.Idx) 1).val = (j 1).val := by
    show win3_2.index t 1 * 128 + 1 * (j 1).val = _; rw [e1]; omega
  exact pay3_at _ _ _ _ j _ (rows3_apply V c t j _ c0 c1) (row3_apply V c t) c1

/-- An index of the array is in point t's block iff each coordinate is in the block's range on its axis. -/
theorem mem_blk3 (t : Fin cfg3.N) (i : S50000x128.Idx) :
    i ∈ ((cfg3.win 2).blk t).view.set
      ↔ ∀ a : Fin 2, win3_2.index t a * S10000x128.size a ≤ (i a).val
          ∧ (i a).val < win3_2.index t a * S10000x128.size a + S10000x128.size a := by
  show i ∈ ((View.whole main_v61).slice (win3_2.rect t)).set ↔ _
  rw [View.set_slice_whole, Rect.mem_set_unit]
  exact Iff.rfl

/-- Row r of the array is in the block of point r / 10000. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 5 := N_3
  let t : Fin cfg3.N := ⟨(i 0).val / 10000, by rw [hN]; omega⟩
  obtain ⟨-, -, -, -, e0, e1⟩ := idx_facts3 t
  have ht : t.val = (i 0).val / 10000 := rfl
  refine ⟨t, flush3_2 t, ?_⟩
  rw [mem_blk3]
  intro a
  match a with
  | ⟨0, _⟩ =>
    show win3_2.index t 0 * 10000 ≤ (i 0).val ∧ (i 0).val < win3_2.index t 0 * 10000 + 10000
    rw [e0, ht]; omega
  | ⟨1, _⟩ =>
    show win3_2.index t 1 * 128 ≤ (i 1).val ∧ (i 1).val < win3_2.index t 1 * 128 + 128
    rw [e1]; omega

/-- The second layer's output array after its bias region: the bias row added to every row, then the maximum with zero. -/
theorem arr3 (c : Dev nD) :
    (dat3 (F := Ideal) V c).arrAt 2 cfg3.N = biasRowsRelu (V c main_v59) (V c main_v60) :=
  (dat3 (F := Ideal) V c).arrAt_eq_of_cover 2 (biasRowsRelu (V c main_v59) (V c main_v60))
    (fun t _ => flushed3_eq V c t) cover3

/-! ## Region 5: the third layer's bias -/

/-- The body's store at an entry y of the block whose row sits at row i of the array: the function at i. -/
theorem pay5_at (x0 : Vec Ideal S10000x64 .f32) (x1 : Vec Ideal S1x64 .f32) (X : S50000x64.Idx → EReal)
    (B : S1x64.Idx → EReal) (y : S10000x64.Idx) (i : S50000x64.Idx) (hx : x0 y = X i) (hv : ∀ z, x1 z = B z)
    (hc : (i 1).val = (y 1).val) : k5_pay1 x0 x1 y = biasRows X B i := by
  unfold k5_pay1
  exact addf_row_at x0 x1 _ _ _ X B y i hx hv hc

/-- The printed index maps over the grid: the row block is the grid coordinate for the input and the output alike, the
    bias row's block is the one there is. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- An input block's entry is the array's entry at the block's rows. -/
theorem rows5_apply (c : Dev nD) (t : Fin cfg5.N) (y : S10000x64.Idx) (i : S50000x64.Idx)
    (h0 : (i 0).val = t.val * 10000 + (y 0).val) (h1 : (i 1).val = (y 1).val) :
    (iblk5 V c 0 t : Vec Ideal S10000x64 .f32) y = (V c main_v75 : S50000x64.Idx → EReal) i := by
  obtain ⟨e0, e1, -⟩ := idx_facts5 t
  unfold iblk5
  rw [View.read_apply]
  show V c main_v75 _ = V c main_v75 _
  congr 1
  funext a
  apply Fin.ext
  match a with
  | ⟨0, _⟩ => show win5_0.index t 0 * 10000 + 1 * (y 0).val = (i 0).val; rw [e0, h0]; omega
  | ⟨1, _⟩ => show win5_0.index t 1 * 64 + 1 * (y 1).val = (i 1).val; rw [e1, h1]; omega

/-- The bias window's one block is the bias row. -/
theorem row5_apply (c : Dev nD) (t : Fin cfg5.N) (y : S1x64.Idx) :
    (iblk5 V c 1 t : Vec Ideal S1x64 .f32) y = (V c main_v76 : S1x64.Idx → EReal) y := by
  obtain ⟨-, -, e0, e1, -⟩ := idx_facts5 t
  unfold iblk5
  rw [View.read_apply]
  show V c main_v76 _ = V c main_v76 _
  congr 1
  funext a
  apply Fin.ext
  match a with
  | ⟨0, _⟩ => show win5_1.index t 0 * 1 + 1 * (y 0).val = (y 0).val; rw [e0]; omega
  | ⟨1, _⟩ => show win5_1.index t 1 * 64 + 1 * (y 1).val = (y 1).val; rw [e1]; omega

/-- What point t writes back is block t of the bias row added to every row of the input array. -/
theorem flushed5_eq (c : Dev nD) (t : Fin cfg5.N) :
    (dat5 (F := Ideal) V c).flushed 2 t
      = ((cfg5.win 2).blk t).view.read (Elt Ideal) (biasRows (V c main_v75) (V c main_v76)) := by
  show (cfg5.win 2).cut (grid5.coords t) ((dat5 V c).after 2 t) = _
  rw [after5_2]
  unfold out5_2
  rw [View.canon_unit_zero zeroOffsets2]
  simp only [View.ld_unit_zero (S := S10000x64) zeroOffsets2, View.ld_unit_zero (S := S1x64) zeroOffsets2]
  obtain ⟨-, -, -, -, e0, e1⟩ := idx_facts5 t
  funext j
  show k5_pay1 (iblk5 V c 0 t) (iblk5 V c 1 t) j
    = biasRows (V c main_v75) (V c main_v76) (((cfg5.win 2).blk t).view.emb j)
  have c0 : ((((cfg5.win 2).blk t).view.emb j : S50000x64.Idx) 0).val = t.val * 10000 + (j 0).val := by
    show win5_2.index t 0 * 10000 + 1 * (j 0).val = _; rw [e0]; omega
  have c1 : ((((cfg5.win 2).blk t).view.emb j : S50000x64.Idx) 1).val = (j 1).val := by
    show win5_2.index t 1 * 64 + 1 * (j 1).val = _; rw [e1]; omega
  exact pay5_at _ _ _ _ j _ (rows5_apply V c t j _ c0 c1) (row5_apply V c t) c1

/-- An index of the array is in point t's block iff each coordinate is in the block's range on its axis. -/
theorem mem_blk5 (t : Fin cfg5.N) (i : S50000x64.Idx) :
    i ∈ ((cfg5.win 2).blk t).view.set
      ↔ ∀ a : Fin 2, win5_2.index t a * S10000x64.size a ≤ (i a).val
          ∧ (i a).val < win5_2.index t a * S10000x64.size a + S10000x64.size a := by
  show i ∈ ((View.whole main_v77).slice (win5_2.rect t)).set ↔ _
  rw [View.set_slice_whole, Rect.mem_set_unit]
  exact Iff.rfl

/-- Row r of the array is in the block of point r / 10000. -/
theorem cover5 (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  have hN : cfg5.N = 5 := N_5
  let t : Fin cfg5.N := ⟨(i 0).val / 10000, by rw [hN]; omega⟩
  obtain ⟨-, -, -, -, e0, e1⟩ := idx_facts5 t
  have ht : t.val = (i 0).val / 10000 := rfl
  refine ⟨t, flush5_2 t, ?_⟩
  rw [mem_blk5]
  intro a
  match a with
  | ⟨0, _⟩ =>
    show win5_2.index t 0 * 10000 ≤ (i 0).val ∧ (i 0).val < win5_2.index t 0 * 10000 + 10000
    rw [e0, ht]; omega
  | ⟨1, _⟩ =>
    show win5_2.index t 1 * 64 ≤ (i 1).val ∧ (i 1).val < win5_2.index t 1 * 64 + 64
    rw [e1]; omega

/-- The third layer's output array after its bias region: the bias row added to every row. -/
theorem arr5 (c : Dev nD) :
    (dat5 (F := Ideal) V c).arrAt 2 cfg5.N = biasRows (V c main_v75) (V c main_v76) :=
  (dat5 (F := Ideal) V c).arrAt_eq_of_cover 2 (biasRows (V c main_v75) (V c main_v76))
    (fun t _ => flushed5_eq V c t) cover5

/-! ## The three arrays in the host's spelling -/

/-- The first layer's output: the aggregated rows plus the bias row broadcast down the rows, then the maximum with a
    broadcast zero. -/
theorem bias1 (c : Dev nD) : (dat1 (F := Ideal) V c).arrAt 2 cfg1.N = maximumf (addf (V c main_v43) (broadcastInDim Cert.ReferenceIdeal.S50000x128 ![0, 1] Cert.ReferenceIdeal.Gen.bcast_S1x128_S50000x128_0_1 (V c main_v44))) (broadcastInDim Cert.ReferenceIdeal.S50000x128 ![] Cert.ReferenceIdeal.Gen.bcast_S_S50000x128 (constant (F := Ideal) Cert.ReferenceIdeal.S_ .f32 0x00000000#32)) :=
  (arr1 V c).trans (host_biasRowsRelu Cert.ReferenceIdeal.Gen.bcast_S1x128_S50000x128_0_1
    Cert.ReferenceIdeal.Gen.bcast_S_S50000x128 (V c main_v43) (V c main_v44)).symm

/-- The second layer's output, likewise. -/
theorem bias3 (c : Dev nD) : (dat3 (F := Ideal) V c).arrAt 2 cfg3.N = maximumf (addf (V c main_v59) (broadcastInDim Cert.ReferenceIdeal.S50000x128 ![0, 1] Cert.ReferenceIdeal.Gen.bcast_S1x128_S50000x128_0_1 (V c main_v60))) (broadcastInDim Cert.ReferenceIdeal.S50000x128 ![] Cert.ReferenceIdeal.Gen.bcast_S_S50000x128 (constant (F := Ideal) Cert.ReferenceIdeal.S_ .f32 0x00000000#32)) :=
  (arr3 V c).trans (host_biasRowsRelu Cert.ReferenceIdeal.Gen.bcast_S1x128_S50000x128_0_1
    Cert.ReferenceIdeal.Gen.bcast_S_S50000x128 (V c main_v59) (V c main_v60)).symm

/-- The third layer's output: the aggregated rows plus the bias row broadcast down the rows. -/
theorem bias5 (c : Dev nD) : (dat5 (F := Ideal) V c).arrAt 2 cfg5.N = addf (F := Ideal) (φ := .f32) (V c main_v75) (broadcastInDim Cert.ReferenceIdeal.S50000x64 ![0, 1] Cert.ReferenceIdeal.Gen.bcast_S1x64_S50000x64_0_1 (V c main_v76)) :=
  (arr5 V c).trans (host_biasRows Cert.ReferenceIdeal.Gen.bcast_S1x64_S50000x64_0_1 (V c main_v75) (V c main_v76)).symm

end Cert.KernelIdeal.Hand

end
-- ==== Proof.LibMatmulColsByCols.lean ====
/-
  The matrix product that contracts the FIRST axis of both operands, read at an index, at the ideal values.

  A k×m matrix A and a k×n matrix B, both contracted along their rows' axis, give the m×n matrix whose entry (r, h) is
  the sum over the contracted coordinate l of A(l, r)·B(l, h): the product of the transpose of A with B. Into a zero
  accumulator, and at the ideal values, where no rounding and no order of summation is left, the product read at (r, h)
  is exactly that sum. The four coordinate lemmas say where each operand is read: the contracted axis takes the
  contraction's one coordinate, the other axis the matching coordinate of the result.
-/
import Idealize.ShloMosaic.PureOps.Ideal.Laws
import Idealize.ShloMosaic.Lib.ValueIdx

noncomputable section

namespace Idealize.ShloMosaic.MatmulColsByCols

open Idealize.ShloMosaic Idealize.ShloMosaic.ValueIdx

variable {m k n : ℕ}

/-- The dimension numbers `[0] × [0]`, kept axes `[1]` and `[1]`, no batch axis. -/
abbrev dims (w : DotDims.WF ⟨2, ![k, m]⟩ ⟨2, ![k, n]⟩ ⟨2, ![m, n]⟩ [0] [0] [1] [1] [] []) :
    DotDims ⟨2, ![k, m]⟩ ⟨2, ![k, n]⟩ ⟨2, ![m, n]⟩ := ⟨[0], [0], [1], [1], [], [], w⟩

/-- The left operand's contracted axis reads the contraction's coordinate. -/
theorem lhs_0 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).lhsIdx j q 0).val = (q ⟨0, Nat.one_pos⟩).val :=
  (dims w).lhsIdx_val_of_single rfl j q

/-- The left operand's kept axis reads the result's first coordinate. -/
theorem lhs_1 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).lhsIdx j q 1).val = (j 0).val := by
  unfold DotDims.lhsIdx
  rw [dif_neg (show ¬(1 : Fin 2) ∈ (dims w).lhsBatch from List.not_mem_nil),
    dif_pos (show (1 : Fin 2) ∈ (dims w).lhsNonContracting from List.mem_singleton.mpr rfl)]
  rfl

/-- The right operand's contracted axis reads the contraction's coordinate. -/
theorem rhs_0 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- A kernel's product of the transpose of a k×m matrix with a k×n matrix into the zero accumulator, read at `(r, h)`. -/
theorem matmul_cols_apply {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (r : Fin m) (h : Fin n) :
    FloatOps.matmul (⟨[0], [0], [1], [1], [], [], w⟩ : DotDims _ _ _) prec A B
        (constant ⟨2, ![m, n]⟩ .f32 0x00000000#32) (ix2 r h)
      = ∑ l : Fin k, A (ix2 l r) * B (ix2 l h) := by
  rw [Ideal.matmul_constant_zero_apply, ← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 l r := by
    funext ax; apply Fin.ext
    match ax with
    | ⟨0, _⟩ => exact (lhs_0 w _ _).trans c2
    | ⟨1, _⟩ => exact lhs_1 w _ _
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

end Idealize.ShloMosaic.MatmulColsByCols

end
-- ==== Proof.LibScatterAddRows.lean ====
/-
  A row-wise accumulating scatter read at an entry, at the ideal values.

  The host's accumulating scatter of an [N, D] array of update rows into a [C, D] operand by an [N, 1] column of row
  indices (the update's second axis the window, the operand's first axis inserted and scattered to, the index vector
  on the indices' second axis) sends update row n whole to operand row idx(n), the index word read as a signed integer and
  not clamped; a row whose index is below 0 or not below C is dropped. So entry (k, e) of the result is the operand's
  entry plus the sum over the rows n of: update entry (n, e) when idx(n) is k, zero otherwise. The scatter of an [N]
  vector of updates into a [C] operand by the same column of indices reads the same way at entry k.

  The road: an update index lands at a given operand index exactly when, on every operand axis, the window's start plus
  the window coordinate is that index's coordinate (`resultIdx?_eq_some_iff`, for any dimension numbers). For these
  dimension numbers the start is the index word on the scattered axis and zero on the window axis, and the window
  coordinate is zero on the inserted axis and the update's column on the window axis; so update (n, e') lands at (k, e)
  exactly when idx(n) reads k and e' is e. The filtered sum over the update indices is then the double sum over rows and
  columns of an `if`, and the inner sum over the columns has one term.
-/
import Idealize.ShloMosaic.PureOps.Ideal.Laws
import Idealize.ShloMosaic.Lib.ValueIdx

noncomputable section

open scoped BigOperators

namespace Idealize.ShloMosaic.ScatterAddRows

open Idealize.ShloMosaic Idealize.ShloMosaic.ValueIdx

/-- An update index lands at i exactly when, on every operand axis, the window's start plus the window coordinate is
    i's coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have h' := Option.some.inj h
      intro a
      have h1 := congrArg (fun f => (f a).val) h'
      simp only at h1
      have h2 := hc a
      omega
    · exact absurd h (by simp)
  · intro h
    have hc : ∀ a, 0 ≤ d.start j idx a + d.window j a ∧ d.start j idx a + d.window j a < s.size a := by
      intro a
      have h1 := h a
      have h2 := (i a).isLt
      omega
    rw [dif_pos hc]
    congr 1
    funext a
    apply Fin.ext
    have h1 := h a
    simp only
    omega

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Rows
variable {C D N : ℕ} (wf : ScatterDims.WF ⟨2, ![C, D]⟩ ⟨2, ![N, 1]⟩ ⟨2, ![N, D]⟩ [1] [0] [0] 1)

/-- The index word an update row reads: the column of indices at (row, 0). -/
private theorem rows_siIdx (j : (⟨2, ![N, D]⟩ : Shape).Idx) (c) :
    (⟨[1], [0], [0], 1, wf⟩ : ScatterDims ⟨2, ![C, D]⟩ ⟨2, ![N, 1]⟩ ⟨2, ![N, D]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the scattered axis the window starts at the row's index word, read signed. -/
private theorem rows_start0 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 0
      = (idx (ix2 (j 0) (0 : Fin 1))).toInt := by
  unfold ScatterDims.start
  rw [dif_pos (List.mem_cons_self ..), rows_siIdx]
  rfl

/-- On the window axis the window starts at zero. -/
private theorem rows_start1 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 1 = 0 := by
  unfold ScatterDims.start
  rw [dif_neg (by simp)]

/-- The inserted axis has window coordinate zero. -/
private theorem rows_window0 (j : (⟨2, ![N, D]⟩ : Shape).Idx) :
    (⟨[1], [0], [0], 1, wf⟩ : ScatterDims ⟨2, ![C, D]⟩ ⟨2, ![N, 1]⟩ ⟨2, ![N, D]⟩).window j 0 = 0 := by
  rfl

/-- The window axis has the update's column as window coordinate. -/
private theorem rows_window1 (j : (⟨2, ![N, D]⟩ : Shape).Idx) :
    (⟨[1], [0], [0], 1, wf⟩ : ScatterDims ⟨2, ![C, D]⟩ ⟨2, ![N, 1]⟩ ⟨2, ![N, D]⟩).window j 1 = (j 1).val := by
  rfl

/-- Update index j lands at (k, e) exactly when its row's index word reads k and its column is e. -/
theorem rows_resultIdx?_iff {w : ℕ} (j : (⟨2, ![N, D]⟩ : Shape).Idx) (idx : IVec ⟨2, ![N, 1]⟩ w) (k : Fin C) (e : Fin D) :
    (⟨[1], [0], [0], 1, wf⟩ : ScatterDims ⟨2, ![C, D]⟩ ⟨2, ![N, 1]⟩ ⟨2, ![N, D]⟩).resultIdx? j idx = some (ix2 k e)
      ↔ (idx (ix2 (j 0) (0 : Fin 1))).toInt = (k.val : ℤ) ∧ j 1 = e := by
  rw [resultIdx?_eq_some_iff, Fin.forall_fin_two, rows_start0, rows_start1, rows_window0, rows_window1]
  constructor
  · rintro ⟨h0, h1⟩
    refine ⟨?_, Fin.ext ?_⟩
    · simpa using h0
    · have : ((j 1).val : ℤ) = (e.val : ℤ) := by simpa using h1
      exact_mod_cast this
  · rintro ⟨h0, h1⟩
    refine ⟨?_, ?_⟩
    · simpa using h0
    · subst h1; simp

end Rows

section Vec
variable {C N : ℕ} (wf : ScatterDims.WF ⟨1, ![C]⟩ ⟨2, ![N, 1]⟩ ⟨1, ![N]⟩ [] [0] [0] 1)

/-- The index word an update reads: the column of indices at (its position, 0). -/
private theorem vec_siIdx (j : (⟨1, ![N]⟩ : Shape).Idx) (c) :
    (⟨[], [0], [0], 1, wf⟩ : ScatterDims ⟨1, ![C]⟩ ⟨2, ![N, 1]⟩ ⟨1, ![N]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the operand's one axis the window starts at the update's index word, read signed. -/
private theorem vec_start0 {w : ℕ} (j : (⟨1, ![N]⟩ : Shape).Idx) (idx : IVec ⟨2, ![N, 1]⟩ w) :
    (⟨[], [0], [0], 1, wf⟩ : ScatterDims ⟨1, ![C]⟩ ⟨2, ![N, 1]⟩ ⟨1, ![N]⟩).start j idx 0
      = (idx (ix2 (j 0) (0 : Fin 1))).toInt := by
  unfold ScatterDims.start
  rw [dif_pos (List.mem_cons_self ..), vec_siIdx]
  rfl

/-- The operand's one axis is inserted: its window coordinate is zero. -/
private theorem vec_window0 (j : (⟨1, ![N]⟩ : Shape).Idx) :
    (⟨[], [0], [0], 1, wf⟩ : ScatterDims ⟨1, ![C]⟩ ⟨2, ![N, 1]⟩ ⟨1, ![N]⟩).window j 0 = 0 := by
  rfl

/-- Update index j lands at k exactly when its index word reads k. -/
theorem vec_resultIdx?_iff {w : ℕ} (j : (⟨1, ![N]⟩ : Shape).Idx) (idx : IVec ⟨2, ![N, 1]⟩ w) (k : Fin C) :
    (⟨[], [0], [0], 1, wf⟩ : ScatterDims ⟨1, ![C]⟩ ⟨2, ![N, 1]⟩ ⟨1, ![N]⟩).resultIdx? j idx = some (ix1 k)
      ↔ (idx (ix2 (j 0) (0 : Fin 1))).toInt = (k.val : ℤ) := by
  rw [resultIdx?_eq_some_iff, Fin.forall_fin_one, vec_start0, vec_window0]
  constructor
  · intro h0
    simpa using h0
  · intro h0
    simpa using h0

end Vec

/-- Rows of width D accumulated into a [C, D] operand by an [N, 1] column of row indices, read at (k, e). -/
theorem scatterAdd_rows_apply {C D N w : ℕ}
    (wf : ScatterDims.WF ⟨2, ![C, D]⟩ ⟨2, ![N, 1]⟩ ⟨2, ![N, D]⟩ [1] [0] [0] 1)
    (x : (⟨2, ![C, D]⟩ : Shape).Idx → EReal) (idx : IVec ⟨2, ![N, 1]⟩ w) (upd : (⟨2, ![N, D]⟩ : Shape).Idx → EReal)
    (k : Fin C) (e : Fin D) :
    Ideal.hostScatterAdd (⟨[1], [0], [0], 1, wf⟩ : ScatterDims ⟨2, ![C, D]⟩ ⟨2, ![N, 1]⟩ ⟨2, ![N, D]⟩) x idx upd (ix2 k e)
      = x (ix2 k e) + ∑ n : Fin N, if (idx (ix2 n (0 : Fin 1))).toInt = (k.val : ℤ) then upd (ix2 n e) else 0 := by
  unfold Ideal.hostScatterAdd
  congr 1
  rw [Finset.sum_filter, sum_idx2]
  refine Finset.sum_congr rfl fun n _ => ?_
  have hiff : ∀ b : Fin D,
      ((⟨[1], [0], [0], 1, wf⟩ : ScatterDims ⟨2, ![C, D]⟩ ⟨2, ![N, 1]⟩ ⟨2, ![N, D]⟩).resultIdx? (ix2 n b) idx = some (ix2 k e))
        ↔ ((idx (ix2 n (0 : Fin 1))).toInt = (k.val : ℤ) ∧ b = e) := fun b => rows_resultIdx?_iff wf (ix2 n b) idx k e
  simp only [hiff]
  by_cases hc : (idx (ix2 n (0 : Fin 1))).toInt = (k.val : ℤ)
  · simp [hc]
  · simp [hc]

/-- Scalars accumulated into a [C] operand by an [N, 1] column of indices, read at k. -/
theorem scatterAdd_vec_apply {C N w : ℕ}
    (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal)
    (k : Fin C) :
    Ideal.hostScatterAdd (⟨[], [0], [0], 1, wf⟩ : ScatterDims ⟨1, ![C]⟩ ⟨2, ![N, 1]⟩ ⟨1, ![N]⟩) x idx upd (ix1 k)
      = x (ix1 k) + ∑ n : Fin N, if (idx (ix2 n (0 : Fin 1))).toInt = (k.val : ℤ) then upd (ix1 n) else 0 := by
  unfold Ideal.hostScatterAdd
  congr 1
  rw [Finset.sum_filter, sum_idx1]
  refine Finset.sum_congr rfl fun n _ => ?_
  exact if_congr (vec_resultIdx?_iff wf (ix1 n) idx k) rfl rfl

end Idealize.ShloMosaic.ScatterAddRows

end
-- ==== Proof.LibBlockSums.lean ====
/-
  Sums over a line of entries cut into equal blocks.

  A kernel that accumulates over a grid axis walks a line of entries block by block: at block t it adds up the B entries
  B·t, …, B·t + B − 1, and it carries the total across the T blocks. Over a commutative monoid the order and the grouping of a finite sum do not
  matter, so the T block sums together are the one sum over the first T·B entries. When the line of entries was padded
  past its first N entries with entries that contribute zero, the padding drops out of the sum.
-/
import Mathlib.Algebra.BigOperators.Group.Finset.Basic
import Mathlib.Algebra.BigOperators.Fin
import Mathlib.Data.Fintype.BigOperators

namespace Idealize.ShloMosaic.BlockSums

open Finset

variable {M : Type*} [AddCommMonoid M]

/-- T consecutive blocks of B entries each, summed block by block, are the first T·B entries summed in a row. -/
theorem sum_blocks (f : ℕ → M) (B : ℕ) : ∀ T : ℕ,
    ∑ t ∈ range T, ∑ j : Fin B, f (B * t + j.val) = ∑ n ∈ range (T * B), f n
  | 0 => by simp
  | T + 1 => by
    rw [sum_range_succ, sum_blocks f B T, Nat.succ_mul, sum_range_add,
      Fin.sum_univ_eq_sum_range (fun j => f (B * T + j)) B, Nat.mul_comm B T]

/-- Entries from N on that are all zero do not count. -/
theorem sum_range_pad (f : ℕ → M) (N P : ℕ) (h : ∀ n, N ≤ n → f n = 0) :
    ∑ n ∈ range (N + P), f n = ∑ n ∈ range N, f n := by
  rw [sum_range_add, sum_eq_zero (fun x _ => h _ (Nat.le_add_right _ _)), add_zero]

/-- Both together: T blocks of B entries covering N entries and P entries of padding that contribute zero sum to the
    N entries' sum, written over `Fin N`. -/
theorem sum_blocks_pad (f : ℕ → M) (B T N P : ℕ) (hTB : T * B = N + P) (h : ∀ n, N ≤ n → f n = 0) :
    ∑ t ∈ range T, ∑ j : Fin B, f (B * t + j.val) = ∑ n : Fin N, f n.val := by
  rw [sum_blocks f B T, hTB, sum_range_pad f N P h, Fin.sum_univ_eq_sum_range]

end Idealize.ShloMosaic.BlockSums
-- ==== Proof.KI.ValPool.lean ====
/-
  What the pooling region leaves in its two output arrays.

  The region walks the 50000 node rows in five blocks of 10000. With onehot(r, g) = 1 when the graph id of row r is g
  and 0 otherwise (g = 0, …, 127), a block adds to the [128, 64] accumulator the product of the transpose of its
  one-hot block with its block of node rows, and to the [1, 128] accumulator the column sums of its one-hot block. Both
  accumulators start at zero and are written back once, at the last block. Over the extended reals 0·x = 0 and
  1·x = x for every x, and addition is commutative and associative, so after the five blocks entry (g, j) of the first
  accumulator is the sum of h(r, j) over the rows r whose id is g, and entry g of the second is the number of such
  rows: the host's accumulating scatters of the node rows, and of a vector of ones, by the column of ids.
-/
import proofs.«402628_j81466939670848_1_alg».proof.Proof.KI.Reg6
import proofs.«402628_j81466939670848_1_alg».proof.Proof.RefReadP
import proofs.«402628_j81466939670848_1_alg».proof.Proof.LibMatmulColsByCols
import proofs.«402628_j81466939670848_1_alg».proof.Proof.LibScatterAddRows
import proofs.«402628_j81466939670848_1_alg».proof.Proof.LibBlockSums
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## The output arrays hold the accumulators after the last block -/

section Arrays
variable {F : FTy → Type} [FloatOps F]
variable (V : (c : Dev nD) → (b : Ref sig .tc) → Buf (Elt F) ((c : Thread nD τ).loc b))

/-- The one write-back of the sums window, at the last point, writes the accumulator after five blocks: the window's
    one block is the whole array. -/
theorem sums_flushed_eq (c : Dev nD) (t : Fin cfg6.N) (hf : (cfg6.win 2).flush t = true) :
    (dat6 V c).flushed 2 t = ((cfg6.win 2).blk t).view.read (Elt F) (sums6 V c 5) := by
  have h1 : t.val = 4 := by have := flushes6_2 t; rw [hf] at this; exact of_decide_eq_true this.symm
  obtain rfl : t = t6_4 := Fin.ext h1
  show (cfg6.win 2).cut (grid6.coords t6_4) ((dat6 V c).after 2 t6_4) = _
  rw [after6_2]
  have hz' : (fun a => win6_2.index t6_4 a * main_v79_0.ty.shape.size a) = fun _ => 0 := funext fun a => by fin_cases a <;> decide
  exact (Memref.read_access_unit_zero (Elt F) main_v79_0 hz' (fun a => by rw [congrFun hz' a]; simp) (sums6 V c 5)).symm

/-- Likewise the counts window. -/
theorem cnts_flushed_eq (c : Dev nD) (t : Fin cfg6.N) (hf : (cfg6.win 3).flush t = true) :
    (dat6 V c).flushed 3 t = ((cfg6.win 3).blk t).view.read (Elt F) (cnts6 V c 5) := by
  have h1 : t.val = 4 := by have := flushes6_3 t; rw [hf] at this; exact of_decide_eq_true this.symm
  obtain rfl : t = t6_4 := Fin.ext h1
  show (cfg6.win 3).cut (grid6.coords t6_4) ((dat6 V c).after 3 t6_4) = _
  rw [after6_3]
  have hz' : (fun a => win6_3.index t6_4 a * main_v79_1.ty.shape.size a) = fun _ => 0 := funext fun a => by fin_cases a <;> decide
  exact (Memref.read_access_unit_zero (Elt F) main_v79_1 hz' (fun a => by rw [congrFun hz' a]; simp) (cnts6 V c 5)).symm

/-- The sums array after the region: the last point's block covers it. -/
theorem sums_arr (c : Dev nD) : (dat6 V c).arrAt 2 cfg6.N = sums6 V c 5 :=
  (dat6 V c).arrAt_eq_of_cover 2 (sums6 V c 5) (sums_flushed_eq V c) fun i =>
    ⟨t6_4, by rw [flushes6_2]; rfl, by
      show i ∈ ((View.whole main_v79_0).slice (win6_2.rect t6_4)).set
      rw [View.set_slice_whole, Rect.mem_set_unit]
      intro a
      have h0 : (i 0 : Nat) < 128 := (i 0).isLt
      have h1 : (i 1 : Nat) < 64 := (i 1).isLt
      match a with
      | ⟨0, _⟩ => show win6_2.index t6_4 0 * win6_2.size 0 ≤ (i 0 : Nat) ∧ (i 0 : Nat) < win6_2.index t6_4 0 * win6_2.size 0 + win6_2.xsize (grid6.coords t6_4) 0
                  rw [show win6_2.index t6_4 0 * win6_2.size 0 = 0 from by decide +kernel, show win6_2.xsize (grid6.coords t6_4) 0 = 128 from by decide +kernel]; omega
      | ⟨1, _⟩ => show win6_2.index t6_4 1 * win6_2.size 1 ≤ (i 1 : Nat) ∧ (i 1 : Nat) < win6_2.index t6_4 1 * win6_2.size 1 + win6_2.xsize (grid6.coords t6_4) 1
                  rw [show win6_2.index t6_4 1 * win6_2.size 1 = 0 from by decide +kernel, show win6_2.xsize (grid6.coords t6_4) 1 = 64 from by decide +kernel]; omega⟩

/-- The counts array after the region. -/
theorem cnts_arr (c : Dev nD) : (dat6 V c).arrAt 3 cfg6.N = cnts6 V c 5 :=
  (dat6 V c).arrAt_eq_of_cover 3 (cnts6 V c 5) (cnts_flushed_eq V c) fun i =>
    ⟨t6_4, by rw [flushes6_3]; rfl, by
      show i ∈ ((View.whole main_v79_1).slice (win6_3.rect t6_4)).set
      rw [View.set_slice_whole, Rect.mem_set_unit]
      intro a
      have h0 : (i 0 : Nat) < 1 := (i 0).isLt
      have h1 : (i 1 : Nat) < 128 := (i 1).isLt
      match a with
      | ⟨0, _⟩ => show win6_3.index t6_4 0 * win6_3.size 0 ≤ (i 0 : Nat) ∧ (i 0 : Nat) < win6_3.index t6_4 0 * win6_3.size 0 + win6_3.xsize (grid6.coords t6_4) 0
                  rw [show win6_3.index t6_4 0 * win6_3.size 0 = 0 from by decide +kernel, show win6_3.xsize (grid6.coords t6_4) 0 = 1 from by decide +kernel]; omega
      | ⟨1, _⟩ => show win6_3.index t6_4 1 * win6_3.size 1 ≤ (i 1 : Nat) ∧ (i 1 : Nat) < win6_3.index t6_4 1 * win6_3.size 1 + win6_3.xsize (grid6.coords t6_4) 1
                  rw [show win6_3.index t6_4 1 * win6_3.size 1 = 0 from by decide +kernel, show win6_3.xsize (grid6.coords t6_4) 1 = 128 from by decide +kernel]; omega⟩

/-! ## The input windows' blocks are runs of rows of their arrays -/

/-- Block `t` of the node array is its rows 10000·t, …, 10000·t + 9999. -/
theorem nodes_block_apply (c : Dev nD) (t : Fin cfg6.N) (x : S10000x64.Idx) (k : S50000x64.Idx)
    (hk0 : (k 0).val = 10000 * t.val + (x 0).val) (hk1 : (k 1).val = (x 1).val) :
    (iblk6 V c 0 t : Vec F S10000x64 .f32) x = (V c main_v77 : S50000x64.Idx → Elt F .f32) k := by
  have hi : win6_0.index t 0 = t.val ∧ win6_0.index t 1 = 0 := by
    rcases fin_N6 t with rfl | rfl | rfl | rfl | rfl <;> decide
  unfold iblk6
  rw [View.read_apply]
  show V c main_v77 _ = V c main_v77 _
  congr 1
  funext a
  apply Fin.ext
  match a with
  | ⟨0, _⟩ => show win6_0.index t 0 * 10000 + 1 * (x 0).val = (k 0).val; rw [hi.1, hk0]; omega
  | ⟨1, _⟩ => show win6_0.index t 1 * 64 + 1 * (x 1).val = (k 1).val; rw [hi.2, hk1]; omega

/-- Block `t` of the column of graph ids is its rows 10000·t, …, 10000·t + 9999. -/
theorem ids_block_apply (c : Dev nD) (t : Fin cfg6.N) (x : S10000x1.Idx) (k : S50000x1.Idx)
    (hk0 : (k 0).val = 10000 * t.val + (x 0).val) (hk1 : (k 1).val = (x 1).val) :
    (iblk6 V c 1 t : Vec F S10000x1 .i32) x = (V c main_v78 : S50000x1.Idx → Elt F .i32) k := by
  have hi : win6_1.index t 0 = t.val ∧ win6_1.index t 1 = 0 := by
    rcases fin_N6 t with rfl | rfl | rfl | rfl | rfl <;> decide
  unfold iblk6
  rw [View.read_apply]
  show V c main_v78 _ = V c main_v78 _
  congr 1
  funext a
  apply Fin.ext
  match a with
  | ⟨0, _⟩ => show win6_1.index t 0 * 10000 + 1 * (x 0).val = (k 0).val; rw [hi.1, hk0]; omega
  | ⟨1, _⟩ => show win6_1.index t 1 * 1 + 1 * (x 1).val = (k 1).val; rw [hi.2, hk1]; omega

end Arrays

/-! ## The one-hot block and a point's two contributions, read at an index -/

/-- The indicator that a 32-bit id word is the word of graph number `g`. -/
def isGraph (w : BitVec 32) (g : ℕ) : EReal := if w = BitVec.ofNat 32 g then 1 else 0

/-- A one-bit comparison widened to a word and converted signed is the indicator. -/
theorem sitofp_bit (w v : BitVec 32) :
    (FloatOps.sitofp (F := Ideal) .f32 ((IntOp.cmpi .eq w v).setWidth 32) : EReal) = if w = v then 1 else 0 := by
  show ((((IntOp.cmpi .eq w v).setWidth 32).toInt : ℝ) : EReal) = _
  by_cases h : w = v
  · rw [if_pos h, StableHlo.Predicate.cmpi_eq_iff.mpr h]
    show (((1 : ℤ) : ℝ) : EReal) = 1
    norm_cast
  · rw [if_neg h, eq_zero_of_ne_one (fun h1 => h (StableHlo.Predicate.cmpi_eq_iff.mp h1))]
    show (((0 : ℤ) : ℝ) : EReal) = 0
    norm_cast

/-- The one-hot block at (r, g): whether row r's id word is the word g. -/
theorem onehot_apply (x : Vec Ideal S10000x1 .i32) (r : Fin 10000) (g : Fin 128) :
    k6_pay3 (F := Ideal) x (ix2 r g) = isGraph (x (ix2 r (0 : Fin 1))) g.val := by
  have e1 : iota .tc S10000x128 32 [1] iota_S10000x128_d1_w32 (ix2 r g) = BitVec.ofNat 32 g.val :=
    iota_single_apply .tc S10000x128 32 1 iota_S10000x128_d1_w32 (ix2 r g)
  have e2 : broadcastTo S10000x128 (shapeCast S10000x1 x shapeCasts_S10000x1_S10000x1) broadcasts_S10000x1_S10000x128 (ix2 r g)
      = x (ix2 r (0 : Fin 1)) := by
    rw [shapeCast_self]
    exact broadcastTo_apply x broadcasts_S10000x1_S10000x128 (ix2 r g) (ix2 r (0 : Fin 1)) (fun a => match a with
      | ⟨0, _⟩ => rfl
      | ⟨1, _⟩ => rfl)
  show FloatOps.sitofp (F := Ideal) .f32 ((IntOp.cmpi .eq
      (broadcastTo S10000x128 (shapeCast S10000x1 x shapeCasts_S10000x1_S10000x1) broadcasts_S10000x1_S10000x128 (ix2 r g))
      (iota .tc S10000x128 32 [1] iota_S10000x128_d1_w32 (ix2 r g))).setWidth 32) = _
  rw [e1, e2]
  exact sitofp_bit _ _

/-- A point's update of the sums accumulator at (g, j): it adds the sum over the block's rows of indicator times entry. -/
theorem sums_step_apply (x : Vec Ideal S10000x1 .i32) (y : Vec Ideal S10000x64 .f32) (acc : Vec Ideal S128x64 .f32)
    (g : Fin 128) (j : Fin 64) :
    k6_pay4 (F := Ideal) x y acc (ix2 g j)
      = acc (ix2 g j) + ∑ l : Fin 10000, isGraph (x (ix2 l (0 : Fin 1))) g.val * y (ix2 l j) := by
  have e : k6_pay4 (F := Ideal) x y acc = addf acc (matmul dot_S10000x128_S10000x64_S128x64_0_0_1_1_n_n none
      (truncf .bf16 (k6_pay3 (F := Ideal) x) bitsLt_bf16_f32) (truncf .bf16 (shapeCast S10000x64 y shapeCasts_S10000x64_S10000x64) bitsLt_bf16_f32)
      (constant S128x64 .f32 0x00000000#32)) := shapeCast_self _ shapeCasts_S128x64_S128x64
  refine (congrFun e (ix2 g j)).trans ?_
  show acc (ix2 g j) + FloatOps.matmul dot_S10000x128_S10000x64_S128x64_0_0_1_1_n_n none
      (truncf .bf16 (k6_pay3 (F := Ideal) x) bitsLt_bf16_f32) (truncf .bf16 (shapeCast S10000x64 y shapeCasts_S10000x64_S10000x64) bitsLt_bf16_f32)
      (constant S128x64 .f32 0x00000000#32) (ix2 g j) = _
  refine congrArg (acc (ix2 g j) + ·) ?_
  refine (MatmulColsByCols.matmul_cols_apply (m := 128) (k := 10000) (n := 64) dot_S10000x128_S10000x64_S128x64_0_0_1_1_n_n.wf none
      (truncf .bf16 (k6_pay3 (F := Ideal) x) bitsLt_bf16_f32) (truncf .bf16 (shapeCast S10000x64 y shapeCasts_S10000x64_S10000x64) bitsLt_bf16_f32) g j).trans ?_
  refine Finset.sum_congr rfl fun l _ => ?_
  rw [shapeCast_self]
  show k6_pay3 (F := Ideal) x (ix2 l g) * y (ix2 l j) = _
  rw [onehot_apply]

/-- A point's update of the counts accumulator at (0, g): it adds the number of the block's rows whose id word is g. -/
theorem cnts_step_apply (x : Vec Ideal S10000x1 .i32) (acc : Vec Ideal S1x128 .f32) (g : Fin 128) :
    k6_pay5 (F := Ideal) x acc (ix2 (0 : Fin 1) g)
      = acc (ix2 (0 : Fin 1) g) + ∑ l : Fin 10000, isGraph (x (ix2 l (0 : Fin 1))) g.val := by
  have e : k6_pay5 (F := Ideal) x acc = addf acc (shapeCast S1x128 (multiReduction .add [0] S128 (k6_pay3 (F := Ideal) x) 0x00000000#32
      reduces_S10000x128_S128 (.inl rfl) rfl) shapeCasts_S128_S1x128) := shapeCast_self _ shapeCasts_S1x128_S1x128
  refine (congrFun e (ix2 (0 : Fin 1) g)).trans ?_
  show acc (ix2 (0 : Fin 1) g) + shapeCast S1x128 (multiReduction .add [0] S128 (k6_pay3 (F := Ideal) x) 0x00000000#32
      reduces_S10000x128_S128 (.inl rfl) rfl) shapeCasts_S128_S1x128 (ix2 (0 : Fin 1) g) = _
  refine congrArg (acc (ix2 (0 : Fin 1) g) + ·) ?_
  refine (shapeCast_a_1a_apply _ shapeCasts_S128_S1x128 (0 : Fin 1) g).trans ?_
  refine (Ideal.multiReduction_add_single (k6_pay3 (F := Ideal) x) 0x00000000#32 reduces_S10000x128_S128 (.inl rfl) rfl (ix1 g)).trans ?_
  refine Finset.sum_congr rfl fun l _ => ?_
  have hl : reduces_S10000x128_S128.lift (ix1 g) l = ix2 l g := by
    funext a; apply Fin.ext
    match a with
    | ⟨0, _⟩ => rfl
    | ⟨1, _⟩ => rfl
  rw [hl]
  exact onehot_apply x l g

/-! ## The accumulators after n blocks: sums over the first 10000·n rows -/

section Fold
variable (V : (c : Dev nD) → (b : Ref sig .tc) → Buf (Elt Ideal) ((c : Thread nD τ).loc b)) (c : Dev nD)

/-- The id word of node row `n` (past the last row, where nothing reads it, the zero word). -/
def idAt (n : ℕ) : BitVec 32 :=
  if h : n < 50000 then (V c main_v78 : S50000x1.Idx → BitVec 32) (ix2 ⟨n, h⟩ (0 : Fin 1)) else 0
/-- Entry `j` of node row `n` (past the last row, zero). -/
def nodeAt (n : ℕ) (j : Fin 64) : EReal :=
  if h : n < 50000 then (V c main_v77 : S50000x64.Idx → EReal) (ix2 ⟨n, h⟩ j) else 0

theorem ids_block_at (t : Fin cfg6.N) (l : Fin 10000) :
    (iblk6 V c 1 t : Vec Ideal S10000x1 .i32) (ix2 l (0 : Fin 1)) = idAt V c (10000 * t.val + l.val) := by
  have ht : t.val < 5 := lt_of_lt_of_eq t.isLt N_6
  have hlt : 10000 * t.val + l.val < 50000 := by have := l.isLt; omega
  unfold idAt
  rw [dif_pos hlt]
  exact ids_block_apply V c t (ix2 l (0 : Fin 1)) (ix2 ⟨_, hlt⟩ (0 : Fin 1)) rfl rfl

theorem nodes_block_at (t : Fin cfg6.N) (l : Fin 10000) (j : Fin 64) :
    (iblk6 V c 0 t : Vec Ideal S10000x64 .f32) (ix2 l j) = nodeAt V c (10000 * t.val + l.val) j := by
  have ht : t.val < 5 := lt_of_lt_of_eq t.isLt N_6
  have hlt : 10000 * t.val + l.val < 50000 := by have := l.isLt; omega
  unfold nodeAt
  rw [dif_pos hlt]
  exact nodes_block_apply V c t (ix2 l j) (ix2 ⟨_, hlt⟩ j) rfl rfl

/-- The sums accumulator starts at zero. -/
theorem sums_init_apply (g : Fin 128) (j : Fin 64) : (k6_pay1 (F := Ideal)) (ix2 g j) = 0 := by
  have e : k6_pay1 (F := Ideal) = broadcast S128x64 (Scalar.ofBits (F := Ideal) .f32 0x00000000#32) := shapeCast_self _ shapeCasts_S128x64_S128x64
  refine (congrFun e (ix2 g j)).trans ?_
  show Ideal.ofBits .f32 0x00000000#32 = 0
  exact Ideal.ofBits_zero_f32

/-- The counts accumulator starts at zero. -/
theorem cnts_init_apply (g : Fin 128) : (k6_pay2 (F := Ideal)) (ix2 (0 : Fin 1) g) = 0 := by
  have e : k6_pay2 (F := Ideal) = broadcast S1x128 (Scalar.ofBits (F := Ideal) .f32 0x00000000#32) := shapeCast_self _ shapeCasts_S1x128_S1x128
  refine (congrFun e (ix2 (0 : Fin 1) g)).trans ?_
  show Ideal.ofBits .f32 0x00000000#32 = 0
  exact Ideal.ofBits_zero_f32

/-- After n blocks the sums accumulator at (g, j) is, block by block, the sum of indicator times entry. -/
theorem sums_fold (g : Fin 128) (j : Fin 64) : ∀ n : ℕ, n ≤ 5 →
    sums6 V c n (ix2 g j)
      = ∑ t ∈ Finset.range n, ∑ l : Fin 10000, isGraph (idAt V c (10000 * t + l.val)) g.val * nodeAt V c (10000 * t + l.val) j
  | 0, _ => by
    rw [sums6_zero, Finset.sum_range_zero]
    exact sums_init_apply g j
  | n + 1, hn => by
    have hN : n < cfg6.N := by rw [show cfg6.N = 5 from N_6]; omega
    rw [Finset.sum_range_succ, ← sums_fold g j n (by omega)]
    refine (congrFun (sums6_succ V c ⟨n, hN⟩) (ix2 g j)).trans ?_
    refine (sums_step_apply (iblk6 V c 1 ⟨n, hN⟩) (iblk6 V c 0 ⟨n, hN⟩) (sums6 V c n) g j).trans ?_
    refine congrArg (sums6 V c n (ix2 g j) + ·) ?_
    refine Finset.sum_congr rfl fun l _ => ?_
    rw [ids_block_at V c ⟨n, hN⟩ l, nodes_block_at V c ⟨n, hN⟩ l j]

/-- After n blocks the counts accumulator at (0, g) is, block by block, the number of rows whose id word is g. -/
theorem cnts_fold (g : Fin 128) : ∀ n : ℕ, n ≤ 5 →
    cnts6 V c n (ix2 (0 : Fin 1) g)
      = ∑ t ∈ Finset.range n, ∑ l : Fin 10000, isGraph (idAt V c (10000 * t + l.val)) g.val
  | 0, _ => by
    rw [cnts6_zero, Finset.sum_range_zero]
    exact cnts_init_apply g
  | n + 1, hn => by
    have hN : n < cfg6.N := by rw [show cfg6.N = 5 from N_6]; omega
    rw [Finset.sum_range_succ, ← cnts_fold g n (by omega)]
    refine (congrFun (cnts6_succ V c ⟨n, hN⟩) (ix2 (0 : Fin 1) g)).trans ?_
    refine (cnts_step_apply (iblk6 V c 1 ⟨n, hN⟩) (cnts6 V c n) g).trans ?_
    refine congrArg (cnts6 V c n (ix2 (0 : Fin 1) g) + ·) ?_
    refine Finset.sum_congr rfl fun l _ => ?_
    rw [ids_block_at V c ⟨n, hN⟩ l]

/-- After all five blocks: the sum over every node row. -/
theorem sums_total (g : Fin 128) (j : Fin 64) :
    sums6 V c 5 (ix2 g j)
      = ∑ r : Fin 50000, isGraph ((V c main_v78 : S50000x1.Idx → BitVec 32) (ix2 r (0 : Fin 1))) g.val
          * (V c main_v77 : S50000x64.Idx → EReal) (ix2 r j) := by
  refine (sums_fold V c g j 5 le_rfl).trans ?_
  refine (BlockSums.sum_blocks (fun n => isGraph (idAt V c n) g.val * nodeAt V c n j) 10000 5).trans ?_
  show ∑ n ∈ Finset.range 50000, isGraph (idAt V c n) g.val * nodeAt V c n j = _
  rw [← Fin.sum_univ_eq_sum_range (fun n => isGraph (idAt V c n) g.val * nodeAt V c n j) 50000]
  refine Finset.sum_congr rfl fun r _ => ?_
  unfold idAt nodeAt
  rw [dif_pos r.isLt, dif_pos r.isLt]

/-- After all five blocks: the number of node rows whose id word is g. -/
theorem cnts_total (g : Fin 128) :
    cnts6 V c 5 (ix2 (0 : Fin 1) g)
      = ∑ r : Fin 50000, isGraph ((V c main_v78 : S50000x1.Idx → BitVec 32) (ix2 r (0 : Fin 1))) g.val := by
  refine (cnts_fold V c g 5 le_rfl).trans ?_
  refine (BlockSums.sum_blocks (fun n => isGraph (idAt V c n) g.val) 10000 5).trans ?_
  show ∑ n ∈ Finset.range 50000, isGraph (idAt V c n) g.val = _
  rw [← Fin.sum_univ_eq_sum_range (fun n => isGraph (idAt V c n) g.val) 50000]
  refine Finset.sum_congr rfl fun r _ => ?_
  unfold idAt
  rw [dif_pos r.isLt]

end Fold

/-! ## The host's accumulating scatters by the column of ids -/

/-- An id word reads as the signed integer g, g below 128, exactly when it is the word g: a row whose id is negative or
    128 and more names no g on either side. -/
theorem toInt_eq_iff (w : BitVec 32) (g : Fin 128) : w.toInt = (g.val : ℤ) ↔ w = BitVec.ofNat 32 g.val := by
  have hg : (BitVec.ofNat 32 g.val).toInt = (g.val : ℤ) :=
    StableHlo.Predicate.toInt_ofNat_small g.val (by have := g.isLt; omega)
  rw [← hg]
  exact BitVec.toInt_inj

section Results
variable (V : (c : Dev nD) → (b : Ref sig .tc) → Buf (Elt Ideal) ((c : Thread nD τ).loc b)) (c : Dev nD)

/-- The sums accumulator after the five blocks is the host's scatter of the node rows into 128 zero rows by the ids. -/
theorem sums_eq_scatter :
    (sums6 V c 5 : Vec Ideal S128x64 .f32)
      = Host.scatterAdd (F := Ideal) Cert.ReferenceIdeal.scatter_S128x64_S50000x1_S50000x64_1_0_0_1
          (broadcastInDim Cert.ReferenceIdeal.S128x64 ![] Cert.ReferenceIdeal.Gen.bcast_S_S128x64
            (constant (F := Ideal) Cert.ReferenceIdeal.S_ .f32 0x00000000#32))
          (V c main_v78) (V c main_v77) := by
  funext i
  obtain ⟨g, j, rfl⟩ : ∃ (g : Fin 128) (j : Fin 64), i = ix2 g j := ⟨i 0, i 1, eq_ix2 i⟩
  refine (sums_total V c g j).trans (Eq.symm ?_)
  refine (ScatterAddRows.scatterAdd_rows_apply Cert.ReferenceIdeal.scatter_S128x64_S50000x1_S50000x64_1_0_0_1.wf
    (broadcastInDim Cert.ReferenceIdeal.S128x64 ![] Cert.ReferenceIdeal.Gen.bcast_S_S128x64
      (constant (F := Ideal) Cert.ReferenceIdeal.S_ .f32 0x00000000#32))
    (V c main_v78) (V c main_v77) g j).trans ?_
  rw [broadcastInDim_scalar_apply, constant_apply, Ideal.ofBits_zero_f32, zero_add]
  refine Finset.sum_congr rfl fun r _ => ?_
  unfold isGraph
  by_cases h : (V c main_v78 : S50000x1.Idx → BitVec 32) (ix2 r (0 : Fin 1)) = BitVec.ofNat 32 g.val
  · rw [if_pos h, if_pos ((toInt_eq_iff _ g).mpr h), one_mul]
  · rw [if_neg h, if_neg (fun h' => h ((toInt_eq_iff _ g).mp h')), zero_mul]

/-- The counts accumulator after the five blocks is the host's scatter of a vector of ones into 128 zeros by the ids. -/
theorem cnts_eq_scatter (g : Fin 128) :
    (cnts6 V c 5 : Vec Ideal S1x128 .f32) (ix2 (0 : Fin 1) g)
      = Host.scatterAdd (F := Ideal) Cert.ReferenceIdeal.scatter_S128_S50000x1_S50000_n_0_0_1
          (broadcastInDim Cert.ReferenceIdeal.S128 ![] Cert.ReferenceIdeal.Gen.bcast_S_S128
            (constant (F := Ideal) Cert.ReferenceIdeal.S_ .f32 0x00000000#32))
          (V c main_v78)
          (broadcastInDim Cert.ReferenceIdeal.S50000 ![] Cert.ReferenceIdeal.Gen.bcast_S_S50000
            (constant (F := Ideal) Cert.ReferenceIdeal.S_ .f32 0x3F800000#32))
          (ix1 g) := by
  refine (cnts_total V c g).trans (Eq.symm ?_)
  refine (ScatterAddRows.scatterAdd_vec_apply Cert.ReferenceIdeal.scatter_S128_S50000x1_S50000_n_0_0_1.wf
    (broadcastInDim Cert.ReferenceIdeal.S128 ![] Cert.ReferenceIdeal.Gen.bcast_S_S128
      (constant (F := Ideal) Cert.ReferenceIdeal.S_ .f32 0x00000000#32))
    (V c main_v78)
    (broadcastInDim Cert.ReferenceIdeal.S50000 ![] Cert.ReferenceIdeal.Gen.bcast_S_S50000
      (constant (F := Ideal) Cert.ReferenceIdeal.S_ .f32 0x3F800000#32)) g).trans ?_
  rw [broadcastInDim_scalar_apply, constant_apply, Ideal.ofBits_zero_f32, zero_add]
  refine Finset.sum_congr rfl fun r _ => ?_
  rw [broadcastInDim_scalar_apply, constant_apply, Ideal.ofBits_one_f32]
  unfold isGraph
  by_cases h : (V c main_v78 : S50000x1.Idx → BitVec 32) (ix2 r (0 : Fin 1)) = BitVec.ofNat 32 g.val
  · rw [if_pos h, if_pos ((toInt_eq_iff _ g).mpr h)]
  · rw [if_neg h, if_neg (fun h' => h ((toInt_eq_iff _ g).mp h'))]

/-- What the pooling region leaves in the sums array: the host's segment sums of the node rows. -/
theorem pool_sums :
    (dat6 (F := Ideal) V c).arrAt 2 cfg6.N
      = Host.scatterAdd (F := Ideal) Cert.ReferenceIdeal.scatter_S128x64_S50000x1_S50000x64_1_0_0_1
          (broadcastInDim Cert.ReferenceIdeal.S128x64 ![] Cert.ReferenceIdeal.Gen.bcast_S_S128x64
            (constant (F := Ideal) Cert.ReferenceIdeal.S_ .f32 0x00000000#32))
          (V c main_v78) (V c main_v77) :=
  (sums_arr V c).trans (sums_eq_scatter V c)

/-- What the pooling region leaves in the counts array: the host's segment counts. -/
theorem pool_cnts (g : Fin 128) :
    (dat6 (F := Ideal) V c).arrAt 3 cfg6.N (ix2 (0 : Fin 1) g)
      = Host.scatterAdd (F := Ideal) Cert.ReferenceIdeal.scatter_S128_S50000x1_S50000_n_0_0_1
          (broadcastInDim Cert.ReferenceIdeal.S128 ![] Cert.ReferenceIdeal.Gen.bcast_S_S128
            (constant (F := Ideal) Cert.ReferenceIdeal.S_ .f32 0x00000000#32))
          (V c main_v78)
          (broadcastInDim Cert.ReferenceIdeal.S50000 ![] Cert.ReferenceIdeal.Gen.bcast_S_S50000
            (constant (F := Ideal) Cert.ReferenceIdeal.S_ .f32 0x3F800000#32))
          (ix1 g) :=
  (congrFun (cnts_arr V c) (ix2 (0 : Fin 1) g)).trans (cnts_eq_scatter V c g)

end Results

end Cert.KernelIdeal.Hand

end
-- ==== Proof.KI.Result.lean ====
/-
  The idealized kernel program's result is the reference's. Region by region, at the ideal values: a dense-product
  region leaves the host's product of its two whole input arrays, a bias region the host's sum with the bias row (and
  maximum with zero), the pooling region the host's two segment sums; the stretches of host operations in between are
  the reference's own operations. So every buffer the kernel program computes holds the reference's value of the same
  name, up to the last one: the per-graph sums divided by the larger of the per-graph count and one.
-/
import proofs.«402628_j81466939670848_1_alg».proof.Proof.KI.Chain
import proofs.«402628_j81466939670848_1_alg».proof.Proof.KI.ValDense
import proofs.«402628_j81466939670848_1_alg».proof.Proof.KI.ValBias
import proofs.«402628_j81466939670848_1_alg».proof.Proof.KI.ValPool

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

set_option maxHeartbeats 2000000 in
/-- Layer 1's dense product. -/
theorem v30_eq : W4 m c main_v30 = ReferenceIdeal.ReadP.val_main_v15 (F := Ideal) (x0 m c) (x3 m c) := by
  refine (W4_arr m c 2).trans ((dense0 (Vr3 m) c).trans ?_)
  rw [show Vr3 m c main_arg0 = x0 m c from W3_main_arg0 m c, show Vr3 m c main_arg3 = x3 m c from W3_main_arg3 m c]
  rfl

set_option maxHeartbeats 2000000 in
/-- Layer 1's bias and maximum with zero. -/
theorem v45_eq : W6 m c main_v45 = ReferenceIdeal.ReadP.val_main_v47 (F := Ideal) (x0 m c) (x1 m c) (x3 m c) (x4 m c) := by
  refine (W6_arr m c 2).trans ((bias1 (Vr5 m) c).trans ?_)
  rw [show Vr5 m c main_v43 = _ from W5_main_v43 m c (v30_eq m c), show Vr5 m c main_v44 = _ from W5_main_v44 m c]
  rfl

set_option maxHeartbeats 2000000 in
/-- Layer 2's dense product. -/
theorem v46_eq : W7 m c main_v46 = ReferenceIdeal.ReadP.val_main_v48 (F := Ideal) (x0 m c) (x1 m c) (x3 m c) (x4 m c) (x5 m c) := by
  refine (W7_arr m c 2).trans ((dense2 (Vr6 m) c).trans ?_)
  rw [show Vr6 m c main_v45 = _ from v45_eq m c, show Vr6 m c main_arg5 = x5 m c from W6_main_arg5 m c]
  rfl

set_option maxHeartbeats 2000000 in
/-- Layer 2's bias and maximum with zero. -/
theorem v61_eq : W9 m c main_v61 = ReferenceIdeal.ReadP.val_main_v80 (F := Ideal) (x0 m c) (x1 m c) (x3 m c) (x4 m c) (x5 m c) (x6 m c) := by
  refine (W9_arr m c 2).trans ((bias3 (Vr8 m) c).trans ?_)
  rw [show Vr8 m c main_v59 = _ from W8_main_v59 m c (v46_eq m c), show Vr8 m c main_v60 = _ from W8_main_v60 m c]
  rfl

set_option maxHeartbeats 2000000 in
/-- Layer 3's dense product. -/
theorem v62_eq : W10 m c main_v62 = ReferenceIdeal.ReadP.val_main_v81 (F := Ideal) (x0 m c) (x1 m c) (x3 m c) (x4 m c) (x5 m c) (x6 m c) (x7 m c) := by
  refine (W10_arr m c 2).trans ((dense4 (Vr9 m) c).trans ?_)
  rw [show Vr9 m c main_v61 = _ from v61_eq m c, show Vr9 m c main_arg7 = x7 m c from W9_main_arg7 m c]
  rfl

set_option maxHeartbeats 2000000 in
/-- Layer 3's bias. -/
theorem v77_eq : W12 m c main_v77 = ReferenceIdeal.ReadP.val_main_v112 (F := Ideal) (x0 m c) (x1 m c) (x3 m c) (x4 m c) (x5 m c) (x6 m c) (x7 m c) (x8 m c) := by
  refine (W12_arr m c 2).trans ((bias5 (Vr11 m) c).trans ?_)
  rw [show Vr11 m c main_v75 = _ from W11_main_v75 m c (v62_eq m c), show Vr11 m c main_v76 = _ from W11_main_v76 m c]
  rfl

set_option maxHeartbeats 2000000 in
/-- The per-graph sums. -/
theorem v79_0_eq : W14 m c main_v79_0 = ReferenceIdeal.ReadP.val_main_v115 (F := Ideal) (x0 m c) (x1 m c) (x2 m c) (x3 m c) (x4 m c) (x5 m c) (x6 m c) (x7 m c) (x8 m c) := by
  refine (W14_arr m c 2).trans ((pool_sums (Vr13 m) c).trans ?_)
  rw [show Vr13 m c main_v78 = _ from W13_v78 m c, show Vr13 m c main_v77 = _ from (W13_v77 m c).trans (v77_eq m c)]
  rfl

set_option maxHeartbeats 2000000 in
/-- The per-graph counts, entry by entry (the kernel keeps them as one row, the reference as a vector). -/
theorem v79_1_eq (g : Fin 128) : W14 m c main_v79_1 (ix2 (0 : Fin 1) g) = ReferenceIdeal.ReadP.val_main_v119 (F := Ideal) (x2 m c) (ix1 g) := by
  refine (congrFun (W14_arr m c 3) (ix2 (0 : Fin 1) g)).trans ((pool_cnts (Vr13 m) c g).trans ?_)
  rw [show Vr13 m c main_v78 = _ from W13_v78 m c]
  rfl

set_option maxHeartbeats 4000000 in
/-- THE RESULT: the kernel program's result buffer holds the reference's result, as a function of the nine arguments. -/
theorem result_eq : W15 m c main_v84 = ReferenceIdeal.ReadP.val_main_v124 (F := Ideal) (x0 m c) (x1 m c) (x2 m c) (x3 m c) (x4 m c) (x5 m c) (x6 m c) (x7 m c) (x8 m c) := by
  rw [W15_v84, v79_0_eq]
  refine (pool_tail _ (W14 m c main_v79_1) (ReferenceIdeal.ReadP.val_main_v119 (F := Ideal) (x2 m c)) (v79_1_eq m c)).trans ?_
  rfl

end Cert.KernelIdeal.Hand

end
-- ==== Proof.lean ====
/-
  The certificate: a three-layer graph convolution followed by a mean pool over graphs, as a kernel program of seven
  kernel regions (three dense products, three bias rows, one pooling kernel that accumulates one-hot products over five
  grid points) among stretches of host operations, against the plain reference.

  The three frames: each kernel program's run is the library's run of @main as a list of items, every region's body run
  once symbolically and the pooling body once per control case; the reference's run is its generated one.
  The idealization's one rewrite (a widening of a narrowing, in the pooling kernel) is the rule's statement.
  The value claim: at the ideal values a cast between float formats is the identity, a matrix product into a zero
  accumulator is the plain sum over the contracted coordinate, a product with a one-hot matrix summed over blocks of rows
  is the segment sum (0·x = 0 and 1·x = x on every extended real, addition commutative and associative), and a bias row
  reshaped or broadcast reads the same entry; the host operations around the regions are the reference's own. So the
  kernel program's result is the reference's, entry by entry, with no use of the precondition.
-/
import proofs.«402628_j81466939670848_1_alg».proof.Defs
import proofs.«402628_j81466939670848_1_alg».proof.Proof.Gen.Kernel
import proofs.«402628_j81466939670848_1_alg».proof.Proof.Gen.KernelIdeal
import proofs.«402628_j81466939670848_1_alg».proof.Proof.Gen.ReferenceIdeal
import proofs.«402628_j81466939670848_1_alg».proof.Proof.Gen.Pre_finite_inputs
import proofs.«402628_j81466939670848_1_alg».proof.Proof.K.Run
import proofs.«402628_j81466939670848_1_alg».proof.Proof.KI.Run
import proofs.«402628_j81466939670848_1_alg».proof.Proof.KI.Result
import proofs.«402628_j81466939670848_1_alg».proof.Proof.RefReadP
import Idealize.ShloMosaic.Adequacy
import Idealize.ShloMosaic.Init

set_option maxRecDepth 16384

noncomputable section

namespace Cert.Proof

open Idealize.ShloMosaic Idealize.SL.Sem

/-- The idealized kernel program's run with its result named: the frame's run read at the result buffer too. -/
theorem kernelIdeal_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v84) = Cert.KernelIdeal.Hand.W15 m c (Proc.devRef .tc Cert.KernelIdeal.main_v84)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono (fun _ h c => ⟨h c _ (Cert.KernelIdeal.Hand.mem_ucH Cert.KernelIdeal.main_v84 (by decide)),
    (h c _ (Cert.KernelIdeal.Hand.mem_ucH Cert.KernelIdeal.main_arg0 (by decide))).trans (Cert.KernelIdeal.Hand.W15_main_arg0 m c),
    (h c _ (Cert.KernelIdeal.Hand.mem_ucH Cert.KernelIdeal.main_arg1 (by decide))).trans (Cert.KernelIdeal.Hand.W15_main_arg1 m c),
    (h c _ (Cert.KernelIdeal.Hand.mem_ucH Cert.KernelIdeal.main_arg2 (by decide))).trans (Cert.KernelIdeal.Hand.W15_main_arg2 m c),
    (h c _ (Cert.KernelIdeal.Hand.mem_ucH Cert.KernelIdeal.main_arg3 (by decide))).trans (Cert.KernelIdeal.Hand.W15_main_arg3 m c),
    (h c _ (Cert.KernelIdeal.Hand.mem_ucH Cert.KernelIdeal.main_arg4 (by decide))).trans (Cert.KernelIdeal.Hand.W15_main_arg4 m c),
    (h c _ (Cert.KernelIdeal.Hand.mem_ucH Cert.KernelIdeal.main_arg5 (by decide))).trans (Cert.KernelIdeal.Hand.W15_main_arg5 m c),
    (h c _ (Cert.KernelIdeal.Hand.mem_ucH Cert.KernelIdeal.main_arg6 (by decide))).trans (Cert.KernelIdeal.Hand.W15_main_arg6 m c),
    (h c _ (Cert.KernelIdeal.Hand.mem_ucH Cert.KernelIdeal.main_arg7 (by decide))).trans (Cert.KernelIdeal.Hand.W15_main_arg7 m c),
    (h c _ (Cert.KernelIdeal.Hand.mem_ucH Cert.KernelIdeal.main_arg8 (by decide))).trans (Cert.KernelIdeal.Hand.W15_main_arg8 m c)⟩)
    (Cert.KernelIdeal.Hand.run_all m ρ)

/-- At the ideal values the kernel program and the reference, run from memories agreeing on the arguments, end with the
    same result: the kernel program's is the reference's function of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.W15 m c (Proc.devRef .tc Cert.KernelIdeal.main_v84), kernelIdeal_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v124_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]
  exact (Cert.KernelIdeal.Hand.result_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.ValueP.run (F := Ideal) m ρ),
  IdealRules.truncf_extf.statement Cert.KernelIdeal.S10000x128 .f32 .bf16,
  algebraic⟩

end Cert.Proof

end
